-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x2000000 : Shape := ⟨2, ![2, 2000000]⟩
abbrev S100000 : Shape := ⟨1, ![100000]⟩
abbrev S3x3x16 : Shape := ⟨3, ![3, 3, 16]⟩
abbrev S16 : Shape := ⟨1, ![16]⟩
abbrev S3x16x32 : Shape := ⟨3, ![3, 16, 32]⟩
abbrev S32 : Shape := ⟨1, ![32]⟩
abbrev S3x32x64 : Shape := ⟨3, ![3, 32, 64]⟩
abbrev S64 : Shape := ⟨1, ![64]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x3x16 : S_.BroadcastsInDim S3x3x16 (![] : Fin 0 → Fin S3x3x16.rank)
  reducesTo_S3x3x16_S_d0_1_2 : S3x3x16.ReducesTo [0, 1, 2] S_
  bcast_S_S16 : S_.BroadcastsInDim S16 (![] : Fin 0 → Fin S16.rank)
  reducesTo_S16_S_d0 : S16.ReducesTo [0] S_
  bcast_S_S3x16x32 : S_.BroadcastsInDim S3x16x32 (![] : Fin 0 → Fin S3x16x32.rank)
  reducesTo_S3x16x32_S_d0_1_2 : S3x16x32.ReducesTo [0, 1, 2] S_
  bcast_S_S32 : S_.BroadcastsInDim S32 (![] : Fin 0 → Fin S32.rank)
  reducesTo_S32_S_d0 : S32.ReducesTo [0] S_
  bcast_S_S3x32x64 : S_.BroadcastsInDim S3x32x64 (![] : Fin 0 → Fin S3x32x64.rank)
  reducesTo_S3x32x64_S_d0_1_2 : S3x32x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S32 .f32) (main_arg7 : FVec F S3x32x64 .f32) (main_arg8 : FVec F S64 .f32) (main_v13 : IVec S_ 1) (main_v16 : IVec S3x16x32 1) : IVec S_ 1 :=
  let main_c_5 : IVec S_ 1 := constantI S_ 1 1#1
  let main_v17 : IVec S_ 1 := (fun x v => Host.reduce IntOp.andi x v reducesTo_S3x16x32_S_d0_1_2 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S3x32x64 .f32 := Host.absf main_arg7
  let main_cst_8 : FVec F S_ .f32 := constant S_ .f32 0x7F800000#32
  let main_v25 : FVec F S3x32x64 .f32 := broadcastInDim S3x32x64 ![] bcast_S_S3x32x64 main_cst_8
  let main_v26 : IVec S3x32x64 1 := cmpf .olt main_v24 main_v25
  let main_c_9 : IVec S_ 1 := constantI S_ 1 1#1
  let main_v27 : IVec S_ 1 := (fun x v => Host.reduce IntOp.andi x v reducesTo_S3x32x64_S_d0_1_2 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x3 .f32) (main_arg1 : IVec S2x2000000 32) (main_arg2 : IVec S100000 32) (main_arg3 : FVec F S3x3x16 .f32) (main_arg4 : FVec F S16 .f32) (main_arg5 : FVec F S3x16x32 .f32) (main_arg6 : FVec F S32 .f32) (main_arg7 : FVec F S3x32x64 .f32) (main_arg8 : FVec F S64 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x3x16 .f32 := Host.absf main_arg3
  let main_cst_0 : FVec F S_ .f32 := constant S_ .f32 0x7F800000#32
  let main_v5 : FVec F S3x3x16 .f32 := broadcastInDim S3x3x16 ![] bcast_S_S3x3x16 main_cst_0
  let main_v6 : IVec S3x3x16 1 := cmpf .olt main_v4 main_v5
  let main_c_1 : IVec S_ 1 := constantI S_ 1 1#1
  let main_v7 : IVec S_ 1 := (fun x v => Host.reduce IntOp.andi x v reducesTo_S3x3x16_S_d0_1_2 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S3x16x32 .f32 := Host.absf main_arg5
  let main_cst_4 : FVec F S_ .f32 := constant S_ .f32 0x7F800000#32
  let main_v15 : FVec F S3x16x32 .f32 := broadcastInDim S3x16x32 ![] bcast_S_S3x16x32 main_cst_4
  let main_v16 : IVec S3x16x32 1 := cmpf .olt main_v14 main_v15
  fn_part1 (F := F) main_arg6 main_arg7 main_arg8 main_v13 main_v16
-- ==== Kernel.lean ====
abbrev S100000x3 : Shape := ⟨2, ![100000, 3]⟩
abbrev S2x2000000 : Shape := ⟨2, ![2, 2000000]⟩
abbrev S100000 : Shape := ⟨1, ![100000]⟩
abbrev S3x3x16 : Shape := ⟨3, ![3, 3, 16]⟩
abbrev S16 : Shape := ⟨1, ![16]⟩
abbrev S3x16x32 : Shape := ⟨3, ![3, 16, 32]⟩
abbrev S32 : Shape := ⟨1, ![32]⟩
abbrev S3x32x64 : Shape := ⟨3, ![3, 32, 64]⟩
abbrev S64 : Shape := ⟨1, ![64]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x3 : Shape := ⟨2, ![2000000, 3]⟩
abbrev S1x3x16 : Shape := ⟨3, ![1, 3, 16]⟩
abbrev S3x16 : Shape := ⟨2, ![3, 16]⟩
abbrev S1x16 : Shape := ⟨2, ![1, 16]⟩
abbrev S100000x16 : Shape := ⟨2, ![100000, 16]⟩
abbrev S2000x3 : Shape := ⟨2, ![2000, 3]⟩
abbrev S2000x16 : Shape := ⟨2, ![2000, 16]⟩
abbrev S2000000x16 : Shape := ⟨2, ![2000000, 16]⟩
abbrev S1x16x32 : Shape := ⟨3, ![1, 16, 32]⟩
abbrev S16x32 : Shape := ⟨2, ![16, 32]⟩
abbrev S1x32 : Shape := ⟨2, ![1, 32]⟩
abbrev S100000x32 : Shape := ⟨2, ![100000, 32]⟩
abbrev S2000x32 : Shape := ⟨2, ![2000, 32]⟩
abbrev S2000000x32 : Shape := ⟨2, ![2000000, 32]⟩
abbrev S1x32x64 : Shape := ⟨3, ![1, 32, 64]⟩
abbrev S32x64 : Shape := ⟨2, ![32, 64]⟩
abbrev S1x64 : Shape := ⟨2, ![1, 64]⟩
abbrev S100000x64 : Shape := ⟨2, ![100000, 64]⟩
abbrev S2000x64 : Shape := ⟨2, ![2000, 64]⟩
abbrev S100000x1 : Shape := ⟨2, ![100000, 1]⟩
abbrev S256x64 : Shape := ⟨2, ![256, 64]⟩
abbrev S2000x1 : Shape := ⟨2, ![2000, 1]⟩
abbrev S2000x256 : Shape := ⟨2, ![2000, 256]⟩
abbrev S256x2000 : Shape := ⟨2, ![256, 2000]⟩

abbrev nBuf : Space → Nat
  | .hbm => 184
  | .vmem => 42
  | .smem => 0
  | _ => 0

abbrev hbmTy0_0 (i : Nat) : BufTy := match i % 128 with
  | 0 => ⟨S100000x3, .f32⟩
  | 1 => ⟨S2x2000000, .i32⟩
  | 2 => ⟨S100000, .i32⟩
  | 3 => ⟨S3x3x16, .f32⟩
  | 4 => ⟨S16, .f32⟩
  | 5 => ⟨S3x16x32, .f32⟩
  | 6 => ⟨S32, .f32⟩
  | 7 => ⟨S3x32x64, .f32⟩
  | 8 => ⟨S64, .f32⟩
  | 9 => ⟨S1x2000000, .i32⟩
  | 10 => ⟨S2000000, .i32⟩
  | 11 => ⟨S1x2000000, .i32⟩
  | 12 => ⟨S2000000, .i32⟩
  | 13 => ⟨S_, .f32⟩
  | 14 => ⟨S2000000, .f32⟩
  | 15 => ⟨S_, .f32⟩
  | 16 => ⟨S100000, .f32⟩
  | 17 => ⟨S2000000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S2000000, .i32⟩
  | 32 => ⟨S2000000, .i1⟩
  | 33 => ⟨S_, .i32⟩
  | 34 => ⟨S2000000, .i32⟩
  | 35 => ⟨S2000000, .i32⟩
  | 36 => ⟨S2000000, .i32⟩
  | 37 => ⟨S2000000x1, .i32⟩
  | 38 => ⟨S2000000, .f32⟩
  | 39 => ⟨S2000000, .f32⟩
  | 40 => ⟨S_, .i32⟩
  | 41 => ⟨S2000000, .i32⟩
  | 42 => ⟨S2000000, .i1⟩
  | 43 => ⟨S_, .i32⟩
  | 44 => ⟨S2000000, .i32⟩
  | 45 => ⟨S2000000, .i32⟩
  | 46 => ⟨S2000000, .i32⟩
  | 47 => ⟨S2000000x1, .i32⟩
  | 48 => ⟨S2000000, .f32⟩
  | 49 => ⟨S2000000, .f32⟩
  | 50 => ⟨S2000000x1, .f32⟩
  | 51 => ⟨S_, .i32⟩
  | 52 => ⟨S2000000, .i32⟩
  | 53 => ⟨S2000000, .i1⟩
  | 54 => ⟨S_, .i32⟩
  | 55 => ⟨S2000000, .i32⟩
  | 56 => ⟨S2000000, .i32⟩
  | 57 => ⟨S2000000, .i32⟩
  | 58 => ⟨S2000000x1, .i32⟩
  | 59 => ⟨S2000000x3, .f32⟩
  | 60 => ⟨S2000000x3, .f32⟩
  | 61 => ⟨S2000000x3, .f32⟩
  | 62 => ⟨S_, .f32⟩
  | 63 => ⟨S100000x3, .f32⟩
  | 64 => ⟨S2000000x1, .i32⟩
  | 65 => ⟨S100000x3, .f32⟩
  | 66 => ⟨S2000000x1, .f32⟩
  | 67 => ⟨S_, .i32⟩
  | 68 => ⟨S2000000, .i32⟩
  | 69 => ⟨S2000000, .i1⟩
  | 70 => ⟨S_, .i32⟩
  | 71 => ⟨S2000000, .i32⟩
  | 72 => ⟨S2000000, .i32⟩
  | 73 => ⟨S2000000, .i32⟩
  | 74 => ⟨S2000000x1, .i32⟩
  | 75 => ⟨S2000000x3, .f32⟩
  | 76 => ⟨S2000000x3, .f32⟩
  | 77 => ⟨S2000000x3, .f32⟩
  | 78 => ⟨S_, .f32⟩
  | 79 => ⟨S100000x3, .f32⟩
  | 80 => ⟨S2000000x1, .i32⟩
  | 81 => ⟨S100000x3, .f32⟩
  | 82 => ⟨S_, .f32⟩
  | 83 => ⟨S100000x3, .f32⟩
  | 84 => ⟨S100000x3, .f32⟩
  | 85 => ⟨S100000x3, .f32⟩
  | 86 => ⟨S1x3x16, .f32⟩
  | 87 => ⟨S3x16, .f32⟩
  | 88 => ⟨S1x3x16, .f32⟩
  | 89 => ⟨S3x16, .f32⟩
  | 90 => ⟨S1x3x16, .f32⟩
  | 91 => ⟨S3x16, .f32⟩
  | 92 => ⟨S1x16, .f32⟩
  | 93 => ⟨S100000x16, .f32⟩
  | 94 => ⟨S2000000x1, .f32⟩
  | 95 => ⟨S_, .i32⟩
  | 96 => ⟨S2000000, .i32⟩
  | 97 => ⟨S2000000, .i1⟩
  | 98 => ⟨S_, .i32⟩
  | 99 => ⟨S2000000, .i32⟩
  | 100 => ⟨S2000000, .i32⟩
  | 101 => ⟨S2000000, .i32⟩
  | 102 => ⟨S2000000x1, .i32⟩
  | 103 => ⟨S2000000x16, .f32⟩
  | 104 => ⟨S2000000x16, .f32⟩
  | 105 => ⟨S2000000x16, .f32⟩
  | 106 => ⟨S_, .f32⟩
  | 107 => ⟨S100000x16, .f32⟩
  | 108 => ⟨S2000000x1, .i32⟩
  | 109 => ⟨S100000x16, .f32⟩
  | 110 => ⟨S2000000x1, .f32⟩
  | 111 => ⟨S_, .i32⟩
  | 112 => ⟨S2000000, .i32⟩
  | 113 => ⟨S2000000, .i1⟩
  | 114 => ⟨S_, .i32⟩
  | 115 => ⟨S2000000, .i32⟩
  | 116 => ⟨S2000000, .i32⟩
  | 117 => ⟨S2000000, .i32⟩
  | 118 => ⟨S2000000x1, .i32⟩
  | 119 => ⟨S2000000x16, .f32⟩
  | 120 => ⟨S2000000x16, .f32⟩
  | 121 => ⟨S2000000x16, .f32⟩
  | 122 => ⟨S_, .f32⟩
  | 123 => ⟨S100000x16, .f32⟩
  | 124 => ⟨S2000000x1, .i32⟩
  | 125 => ⟨S100000x16, .f32⟩
  | 126 => ⟨S_, .f32⟩
  | 127 => ⟨S100000x16, .f32⟩
  | _ => ⟨S100000x3, .f32⟩

abbrev hbmTy0_1 (i : Nat) : BufTy := match i % 128 with
  | 0 => ⟨S100000x16, .f32⟩
  | 1 => ⟨S100000x16, .f32⟩
  | 2 => ⟨S1x16x32, .f32⟩
  | 3 => ⟨S16x32, .f32⟩
  | 4 => ⟨S1x16x32, .f32⟩
  | 5 => ⟨S16x32, .f32⟩
  | 6 => ⟨S1x16x32, .f32⟩
  | 7 => ⟨S16x32, .f32⟩
  | 8 => ⟨S1x32, .f32⟩
  | 9 => ⟨S100000x32, .f32⟩
  | 10 => ⟨S2000000x1, .f32⟩
  | 11 => ⟨S_, .i32⟩
  | 12 => ⟨S2000000, .i32⟩
  | 13 => ⟨S2000000, .i1⟩
  | 14 => ⟨S_, .i32⟩
  | 15 => ⟨S2000000, .i32⟩
  | 16 => ⟨S2000000, .i32⟩
  | 17 => ⟨S2000000, .i32⟩
  | 18 => ⟨S2000000x1, .i32⟩
  | 19 => ⟨S2000000x32, .f32⟩
  | 20 => ⟨S2000000x32, .f32⟩
  | 21 => ⟨S2000000x32, .f32⟩
  | 22 => ⟨S_, .f32⟩
  | 23 => ⟨S100000x32, .f32⟩
  | 24 => ⟨S2000000x1, .i32⟩
  | 25 => ⟨S100000x32, .f32⟩
  | 26 => ⟨S2000000x1, .f32⟩
  | 27 => ⟨S_, .i32⟩
  | 28 => ⟨S2000000, .i32⟩
  | 29 => ⟨S2000000, .i1⟩
  | 30 => ⟨S_, .i32⟩
  | 31 => ⟨S2000000, .i32⟩
  | 32 => ⟨S2000000, .i32⟩
  | 33 => ⟨S2000000, .i32⟩
  | 34 => ⟨S2000000x1, .i32⟩
  | 35 => ⟨S2000000x32, .f32⟩
  | 36 => ⟨S2000000x32, .f32⟩
  | 37 => ⟨S2000000x32, .f32⟩
  | 38 => ⟨S_, .f32⟩
  | 39 => ⟨S100000x32, .f32⟩
  | 40 => ⟨S2000000x1, .i32⟩
  | 41 => ⟨S100000x32, .f32⟩
  | 42 => ⟨S_, .f32⟩
  | 43 => ⟨S100000x32, .f32⟩
  | 44 => ⟨S100000x32, .f32⟩
  | 45 => ⟨S100000x32, .f32⟩
  | 46 => ⟨S1x32x64, .f32⟩
  | 47 => ⟨S32x64, .f32⟩
  | 48 => ⟨S1x32x64, .f32⟩
  | 49 => ⟨S32x64, .f32⟩
  | 50 => ⟨S1x32x64, .f32⟩
  | 51 => ⟨S32x64, .f32⟩
  | 52 => ⟨S1x64, .f32⟩
  | 53 => ⟨S100000x64, .f32⟩
  | 54 => ⟨S100000x1, .i32⟩
  | 55 => ⟨S256x64, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S2000x3, .f32⟩
  | .local _ .vmem, ⟨1, _⟩ => ⟨S2000x3, .f32⟩
  | .local _ .vmem, ⟨2, _⟩ => ⟨S2000x3, .f32⟩
  | .local _ .vmem, ⟨3, _⟩ => ⟨S2000x3, .f32⟩
  | .local _ .vmem, ⟨4, _⟩ => ⟨S2000x3, .f32⟩
  | .local _ .vmem, ⟨5, _⟩ => ⟨S2000x3, .f32⟩
  | .local _ .vmem, ⟨6, _⟩ => ⟨S3x16, .f32⟩
  | .local _ .vmem, ⟨7, _⟩ => ⟨S3x16, .f32⟩
  | .local _ .vmem, ⟨8, _⟩ => ⟨S3x16, .f32⟩
  | .local _ .vmem, ⟨9, _⟩ => ⟨S1x16, .f32⟩
  | .local _ .vmem, ⟨10, _⟩ => ⟨S2000x16, .f32⟩
  | .local _ .vmem, ⟨11, _⟩ => ⟨S2000x16, .f32⟩
  | .local _ .vmem, ⟨12, _⟩ => ⟨S2000x16, .f32⟩
  | .local _ .vmem, ⟨13, _⟩ => ⟨S2000x16, .f32⟩
  | .local _ .vmem, ⟨14, _⟩ => ⟨S2000x16, .f32⟩
  | .local _ .vmem, ⟨15, _⟩ => ⟨S2000x16, .f32⟩
  | .local _ .vmem, ⟨16, _⟩ => ⟨S2000x16, .f32⟩
  | .local _ .vmem, ⟨17, _⟩ => ⟨S2000x16, .f32⟩
  | .local _ .vmem, ⟨18, _⟩ => ⟨S16x32, .f32⟩
  | .local _ .vmem, ⟨19, _⟩ => ⟨S16x32, .f32⟩
  | .local _ .vmem, ⟨20, _⟩ => ⟨S16x32, .f32⟩
  | .local _ .vmem, ⟨21, _⟩ => ⟨S1x32, .f32⟩
  | .local _ .vmem, ⟨22, _⟩ => ⟨S2000x32, .f32⟩
  | .local _ .vmem, ⟨23, _⟩ => ⟨S2000x32, .f32⟩
  | .local _ .vmem, ⟨24, _⟩ => ⟨S2000x32, .f32⟩
  | .local _ .vmem, ⟨25, _⟩ => ⟨S2000x32, .f32⟩
  | .local _ .vmem, ⟨26, _⟩ => ⟨S2000x32, .f32⟩
  | .local _ .vmem, ⟨27, _⟩ => ⟨S2000x32, .f32⟩
  | .local _ .vmem, ⟨28, _⟩ => ⟨S2000x32, .f32⟩
  | .local _ .vmem, ⟨29, _⟩ => ⟨S2000x32, .f32⟩
  | .local _ .vmem, ⟨30, _⟩ => ⟨S32x64, .f32⟩
  | .local _ .vmem, ⟨31, _⟩ => ⟨S32x64, .f32⟩
  | .local _ .vmem, ⟨32, _⟩ => ⟨S32x64, .f32⟩
  | .local _ .vmem, ⟨33, _⟩ => ⟨S1x64, .f32⟩
  | .local _ .vmem, ⟨34, _⟩ => ⟨S2000x64, .f32⟩
  | .local _ .vmem, ⟨35, _⟩ => ⟨S2000x64, .f32⟩
  | .local _ .vmem, ⟨36, _⟩ => ⟨S2000x1, .i32⟩
  | .local _ .vmem, ⟨37, _⟩ => ⟨S2000x1, .i32⟩
  | .local _ .vmem, ⟨38, _⟩ => ⟨S2000x64, .f32⟩
  | .local _ .vmem, ⟨39, _⟩ => ⟨S2000x64, .f32⟩
  | .local _ .vmem, ⟨40, _⟩ => ⟨S256x64, .f32⟩
  | .local _ .vmem, ⟨41, _⟩ => ⟨S256x64, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_14 : Ref sig .tc := ⟨.hbm, 95, rfl⟩
abbrev main_v68 : Ref sig .tc := ⟨.hbm, 96, rfl⟩
abbrev main_v69 : Ref sig .tc := ⟨.hbm, 97, rfl⟩
abbrev main_c_15 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_17 : Ref sig .tc := ⟨.hbm, 111, rfl⟩
abbrev main_v81 : Ref sig .tc := ⟨.hbm, 112, rfl⟩
abbrev main_v82 : Ref sig .tc := ⟨.hbm, 113, rfl⟩
abbrev main_c_18 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_19 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_20 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_c_21 : Ref sig .tc := ⟨.hbm, 139, rfl⟩
abbrev main_v105 : Ref sig .tc := ⟨.hbm, 140, rfl⟩
abbrev main_v106 : Ref sig .tc := ⟨.hbm, 141, rfl⟩
abbrev main_c_22 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_23 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_c_24 : Ref sig .tc := ⟨.hbm, 155, rfl⟩
abbrev main_v118 : Ref sig .tc := ⟨.hbm, 156, rfl⟩
abbrev main_v119 : Ref sig .tc := ⟨.hbm, 157, rfl⟩
abbrev main_c_25 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_26 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_27 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![50], ![false]⟩

def k3_cond2 (i : grid3.Coords) : BitVec 1 :=
  let arg0 : BitVec 32 := BitVec.ofNat 32 (i 0).val
  let c49_i32 : BitVec 32 := 49#32
  let v21 : BitVec 1 := Scalar.cmpi .eq arg0 c49_i32
  let v22 : BitVec 32 := Scalar.extui v21
  let c0_i32_8 : BitVec 32 := 0#32
  let v23 : BitVec 1 := Scalar.cmpi .ne v22 c0_i32_8
  v23

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S100000 : S_.BroadcastsInDim S100000 (![] : Fin 0 → Fin S100000.rank)
  bcast_S2000000_S2000000x1_0 : S2000000.BroadcastsInDim S2000000x1 (![0] : Fin 1 → Fin S2000000x1.rank)
  bcast_S2000000x1_S2000000x3_0_1 : S2000000x1.BroadcastsInDim S2000000x3 (![0, 1] : Fin 2 → Fin S2000000x3.rank)
  bcast_S_S100000x3 : S_.BroadcastsInDim S100000x3 (![] : Fin 0 → Fin S100000x3.rank)
  slices_S3x3x16_S1x3x16_0_0_0 : S3x3x16.Slices ![0, 0, 0] S1x3x16
  shapeCasts_S1x3x16_S3x16 : S1x3x16.ShapeCasts S3x16
  slices_S3x3x16_S1x3x16_1_0_0 : S3x3x16.Slices ![1, 0, 0] S1x3x16
  slices_S3x3x16_S1x3x16_2_0_0 : S3x3x16.Slices ![2, 0, 0] S1x3x16
  shapeCasts_S16_S1x16 : S16.ShapeCasts S1x16
  inb_S2000x3_S2000x3_0_0 : ∀ a, (![0, 0] : Fin 2 → Nat) a + S2000x3.size a ≤ S2000x3.size a
  h_S2000x3 : 0 < S2000x3.numel
  bitsLt_bf16_f32 : FTy.bits .bf16 < FTy.bits .f32
  shapeCasts_S2000x3_S2000x3 : S2000x3.ShapeCasts S2000x3
  inb_S3x16_S3x16_0_0 : ∀ a, (![0, 0] : Fin 2 → Nat) a + S3x16.size a ≤ S3x16.size a
  h_S3x16 : 0 < S3x16.numel
  shapeCasts_S3x16_S3x16 : S3x16.ShapeCasts S3x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  bcast_S2000000x1_S2000000x16_0_1 : S2000000x1.BroadcastsInDim S2000000x16 (![0, 1] : Fin 2 → Fin S2000000x16.rank)
  bcast_S_S100000x16 : S_.BroadcastsInDim S100000x16 (![] : Fin 0 → Fin S100000x16.rank)
  slices_S3x16x32_S1x16x32_0_0_0 : S3x16x32.Slices ![0, 0, 0] S1x16x32
  shapeCasts_S1x16x32_S16x32 : S1x16x32.ShapeCasts S16x32
  slices_S3x16x32_S1x16x32_1_0_0 : S3x16x32.Slices ![1, 0, 0] S1x16x32
  slices_S3x16x32_S1x16x32_2_0_0 : S3x16x32.Slices ![2, 0, 0] S1x16x32
  shapeCasts_S32_S1x32 : S32.ShapeCasts S1x32
  shapeCasts_S2000x16_S2000x16 : S2000x16.ShapeCasts S2000x16
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  bcast_S2000000x1_S2000000x32_0_1 : S2000000x1.BroadcastsInDim S2000000x32 (![0, 1] : Fin 2 → Fin S2000000x32.rank)
  bcast_S_S100000x32 : S_.BroadcastsInDim S100000x32 (![] : Fin 0 → Fin S100000x32.rank)
  slices_S3x32x64_S1x32x64_0_0_0 : S3x32x64.Slices ![0, 0, 0] S1x32x64
  shapeCasts_S1x32x64_S32x64 : S1x32x64.ShapeCasts S32x64
  slices_S3x32x64_S1x32x64_1_0_0 : S3x32x64.Slices ![1, 0, 0] S1x32x64
  slices_S3x32x64_S1x32x64_2_0_0 : S3x32x64.Slices ![2, 0, 0] S1x32x64
  shapeCasts_S64_S1x64 : S64.ShapeCasts S1x64
  shapeCasts_S2000x32_S2000x32 : S2000x32.ShapeCasts S2000x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  shapeCasts_S100000_S100000x1 : S100000.ShapeCasts S100000x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  iota_S2000x256_d1_w32 : S2000x256.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  natLt_1_32 : 1 < 32
  transposes_S2000x256_p1_0_S256x2000 : S2000x256.Transposes [1, 0] S256x2000
  shapeCasts_S2000x64_S2000x64 : S2000x64.ShapeCasts S2000x64
  scatter_S100000_S2000000x1_S2000000_n_0_0_1_wf : ScatterDims.WF S100000 S2000000x1 S2000000 [] [0] [0] 1
  gather_S100000_S2000000x1_S2000000_n_0_n_n_0_1_1_wf : GatherDims.WF S100000 S2000000x1 S2000000 [] [0] [] [0] [] 1 ![1]
  gather_S100000x3_S2000000x1_S2000000x3_1_0_n_n_0_1_13_wf : GatherDims.WF S100000x3 S2000000x1 S2000000x3 [1] [0] [] [0] [] 1 ![1, 3]
  scatter_S100000x3_S2000000x1_S2000000x3_1_0_0_1_wf : ScatterDims.WF S100000x3 S2000000x1 S2000000x3 [1] [0] [0] 1
  dot_S2000x3_S3x16_S2000x16_1_0_0_1_n_n_wf : DotDims.WF S2000x3 S3x16 S2000x16 [1] [0] [0] [1] [] []
  gather_S100000x16_S2000000x1_S2000000x16_1_0_n_n_0_1_116_wf : GatherDims.WF S100000x16 S2000000x1 S2000000x16 [1] [0] [] [0] [] 1 ![1, 16]
  scatter_S100000x16_S2000000x1_S2000000x16_1_0_0_1_wf : ScatterDims.WF S100000x16 S2000000x1 S2000000x16 [1] [0] [0] 1
  dot_S2000x16_S16x32_S2000x32_1_0_0_1_n_n_wf : DotDims.WF S2000x16 S16x32 S2000x32 [1] [0] [0] [1] [] []
  gather_S100000x32_S2000000x1_S2000000x32_1_0_n_n_0_1_132_wf : GatherDims.WF S100000x32 S2000000x1 S2000000x32 [1] [0] [] [0] [] 1 ![1, 32]
  scatter_S100000x32_S2000000x1_S2000000x32_1_0_0_1_wf : ScatterDims.WF S100000x32 S2000000x1 S2000000x32 [1] [0] [0] 1
  dot_S2000x32_S32x64_S2000x64_1_0_0_1_n_n_wf : DotDims.WF S2000x32 S32x64 S2000x64 [1] [0] [0] [1] [] []
  dot_S256x2000_S2000x64_S256x64_1_0_0_1_n_n_wf : DotDims.WF S256x2000 S2000x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S100000x3.size a
  hwx0_0 : ∀ i : grid0.Coords, EltTy.bits .f32 = 32 ∨ (Rect.block (s := S100000x3) S2000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3.size a ≤ S100000x3.size a
  hwx0_1 : ∀ i : grid0.Coords, EltTy.bits .f32 = 32 ∨ (Rect.block (s := S100000x3) S2000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x3.size a ≤ S100000x3.size a
  hwx0_2 : ∀ i : grid0.Coords, EltTy.bits .f32 = 32 ∨ (Rect.block (s := S100000x3) S2000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x16.size a ≤ S3x16.size a
  hwx0_3 : ∀ i : grid0.Coords, EltTy.bits .f32 = 32 ∨ (Rect.block (s := S3x16) S3x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x16.size a ≤ S3x16.size a
  hwx0_4 : ∀ i : grid0.Coords, EltTy.bits .f32 = 32 ∨ (Rect.block (s := S3x16) S3x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x16.size a ≤ S3x16.size a
  hwx0_5 : ∀ i : grid0.Coords, EltTy.bits .f32 = 32 ∨ (Rect.block (s := S3x16) S3x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x16.size a ≤ S100000x16.size a
  hwx0_7 : ∀ i : grid0.Coords, EltTy.bits .f32 = 32 ∨ (Rect.block (s := S100000x16) S2000x16.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x16.size a ≤ S100000x16.size a
  hwx1_1 : ∀ i : grid1.Coords, EltTy.bits .f32 = 32 ∨ (Rect.block (s := S100000x16) S2000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x32.size a ≤ S16x32.size a
  hwx1_3 : ∀ i : grid1.Coords, EltTy.bits .f32 = 32 ∨ (Rect.block (s := S16x32) S16x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x32.size a ≤ S16x32.size a
  hwx1_4 : ∀ i : grid1.Coords, EltTy.bits .f32 = 32 ∨ (Rect.block (s := S16x32) S16x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x32.size a ≤ S16x32.size a
  hwx1_5 : ∀ i : grid1.Coords, EltTy.bits .f32 = 32 ∨ (Rect.block (s := S16x32) S16x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x32.size a ≤ S100000x32.size a
  hwx1_7 : ∀ i : grid1.Coords, EltTy.bits .f32 = 32 ∨ (Rect.block (s := S100000x32) S2000x32.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x32.size a ≤ S100000x32.size a
  hwx2_1 : ∀ i : grid2.Coords, EltTy.bits .f32 = 32 ∨ (Rect.block (s := S100000x32) S2000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x32.size a ≤ S100000x32.size a
  hwx2_2 : ∀ i : grid2.Coords, EltTy.bits .f32 = 32 ∨ (Rect.block (s := S100000x32) S2000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x64.size a ≤ S32x64.size a
  hwx2_3 : ∀ i : grid2.Coords, EltTy.bits .f32 = 32 ∨ (Rect.block (s := S32x64) S32x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x64.size a ≤ S32x64.size a
  hwx2_4 : ∀ i : grid2.Coords, EltTy.bits .f32 = 32 ∨ (Rect.block (s := S32x64) S32x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x64.size a ≤ S32x64.size a
  hwx2_5 : ∀ i : grid2.Coords, EltTy.bits .f32 = 32 ∨ (Rect.block (s := S32x64) S32x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x64.size a ≤ S100000x64.size a
  hwx2_7 : ∀ i : grid2.Coords, EltTy.bits .f32 = 32 ∨ (Rect.block (s := S100000x64) S2000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x1.size a ≤ S100000x1.size a
  hwx3_0 : ∀ i : grid3.Coords, EltTy.bits .i32 = 32 ∨ (Rect.block (s := S100000x1) S2000x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x64.size a ≤ S256x64.size a
  hwx3_2 : ∀ i : grid3.Coords, EltTy.bits .f32 = 32 ∨ (Rect.block (s := S256x64) S256x64.size (cc3_transform_2 i) (hinb3_2 i)).WholeWords (EltTy.packing .f32)

variable [Facts₀]

def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def gather_S100000x3_S2000000x1_S2000000x3_1_0_n_n_0_1_13 : GatherDims S100000x3 S2000000x1 S2000000x3 where
  offsetDims := [1]
  collapsedSliceDims := [0]
  operandBatchingDims := []
  startIndicesBatchingDims := []
  startIndexMap := [0]
  indexVectorDim := 1
  sliceSizes := ![1, 3]
  wf := gather_S100000x3_S2000000x1_S2000000x3_1_0_n_n_0_1_13_wf
def scatter_S100000x3_S2000000x1_S2000000x3_1_0_0_1 : ScatterDims S100000x3 S2000000x1 S2000000x3 where
  updateWindowDims := [1]
  insertedWindowDims := [0]
  scatterDimsToOperandDims := [0]
  indexVectorDim := 1
  wf := scatter_S100000x3_S2000000x1_S2000000x3_1_0_0_1_wf
def dot_S2000x3_S3x16_S2000x16_1_0_0_1_n_n : DotDims S2000x3 S3x16 S2000x16 where
  lhsContracting := [1]
  rhsContracting := [0]
  lhsNonContracting := [0]
  rhsNonContracting := [1]
  lhsBatch := []
  rhsBatch := []
  wf := dot_S2000x3_S3x16_S2000x16_1_0_0_1_n_n_wf
def gather_S100000x16_S2000000x1_S2000000x16_1_0_n_n_0_1_116 : GatherDims S100000x16 S2000000x1 S2000000x16 where
  offsetDims := [1]
  collapsedSliceDims := [0]
  operandBatchingDims := []
  startIndicesBatchingDims := []
  startIndexMap := [0]
  indexVectorDim := 1
  sliceSizes := ![1, 16]
  wf := gather_S100000x16_S2000000x1_S2000000x16_1_0_n_n_0_1_116_wf
def scatter_S100000x16_S2000000x1_S2000000x16_1_0_0_1 : ScatterDims S100000x16 S2000000x1 S2000000x16 where
  updateWindowDims := [1]
  insertedWindowDims := [0]
  scatterDimsToOperandDims := [0]
  indexVectorDim := 1
  wf := scatter_S100000x16_S2000000x1_S2000000x16_1_0_0_1_wf
def dot_S2000x16_S16x32_S2000x32_1_0_0_1_n_n : DotDims S2000x16 S16x32 S2000x32 where
  lhsContracting := [1]
  rhsContracting := [0]
  lhsNonContracting := [0]
  rhsNonContracting := [1]
  lhsBatch := []
  rhsBatch := []
  wf := dot_S2000x16_S16x32_S2000x32_1_0_0_1_n_n_wf
def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def scatter_S100000x32_S2000000x1_S2000000x32_1_0_0_1 : ScatterDims S100000x32 S2000000x1 S2000000x32 where
  updateWindowDims := [1]
  insertedWindowDims := [0]
  scatterDimsToOperandDims := [0]
  indexVectorDim := 1
  wf := scatter_S100000x32_S2000000x1_S2000000x32_1_0_0_1_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def dot_S256x2000_S2000x64_S256x64_1_0_0_1_n_n : DotDims S256x2000 S2000x64 S256x64 where
  lhsContracting := [1]
  rhsContracting := [0]
  lhsNonContracting := [0]
  rhsNonContracting := [1]
  lhsBatch := []
  rhsBatch := []
  wf := dot_S256x2000_S2000x64_S256x64_1_0_0_1_n_n_wf

abbrev win0_0 : Pipeline.Window sig grid0 :=
  Pipeline.Window.ofSpec (Memref.whole main_arg0) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S2000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S2000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v60) S3x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v62) S3x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v64) S3x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v65) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v66) S2000x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v66) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v79) S2000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v95) S2000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v97) S16x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v99) S16x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v101) S16x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v102) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v103) S2000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v103) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v116) S2000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v132) S2000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v134) S32x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v136) S32x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v138) S32x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v139) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v140) S2000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v141) S2000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v140) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v142) S256x64.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S100000x3 : Shape := ⟨2, ![100000, 3]⟩
abbrev S2x2000000 : Shape := ⟨2, ![2, 2000000]⟩
abbrev S100000 : Shape := ⟨1, ![100000]⟩
abbrev S3x3x16 : Shape := ⟨3, ![3, 3, 16]⟩
abbrev S16 : Shape := ⟨1, ![16]⟩
abbrev S3x16x32 : Shape := ⟨3, ![3, 16, 32]⟩
abbrev S32 : Shape := ⟨1, ![32]⟩
abbrev S3x32x64 : Shape := ⟨3, ![3, 32, 64]⟩
abbrev S64 : Shape := ⟨1, ![64]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x3 : Shape := ⟨2, ![2000000, 3]⟩
abbrev S1x3x16 : Shape := ⟨3, ![1, 3, 16]⟩
abbrev S3x16 : Shape := ⟨2, ![3, 16]⟩
abbrev S100000x16 : Shape := ⟨2, ![100000, 16]⟩
abbrev S1x16 : Shape := ⟨2, ![1, 16]⟩
abbrev S2000000x16 : Shape := ⟨2, ![2000000, 16]⟩
abbrev S1x16x32 : Shape := ⟨3, ![1, 16, 32]⟩
abbrev S16x32 : Shape := ⟨2, ![16, 32]⟩
abbrev S100000x32 : Shape := ⟨2, ![100000, 32]⟩
abbrev S1x32 : Shape := ⟨2, ![1, 32]⟩
abbrev S2000000x32 : Shape := ⟨2, ![2000000, 32]⟩
abbrev S1x32x64 : Shape := ⟨3, ![1, 32, 64]⟩
abbrev S32x64 : Shape := ⟨2, ![32, 64]⟩
abbrev S100000x64 : Shape := ⟨2, ![100000, 64]⟩
abbrev S1x64 : Shape := ⟨2, ![1, 64]⟩
abbrev S256x64 : Shape := ⟨2, ![256, 64]⟩
abbrev S100000x1 : Shape := ⟨2, ![100000, 1]⟩

abbrev nBuf : Space → Nat
  | .hbm => 219
  | .vmem => 0
  | .smem => 0
  | _ => 0

abbrev hbmTy0_0 (i : Nat) : BufTy := match i % 128 with
  | 0 => ⟨S100000x3, .f32⟩
  | 1 => ⟨S2x2000000, .i32⟩
  | 2 => ⟨S100000, .i32⟩
  | 3 => ⟨S3x3x16, .f32⟩
  | 4 => ⟨S16, .f32⟩
  | 5 => ⟨S3x16x32, .f32⟩
  | 6 => ⟨S32, .f32⟩
  | 7 => ⟨S3x32x64, .f32⟩
  | 8 => ⟨S64, .f32⟩
  | 9 => ⟨S1x2000000, .i32⟩
  | 10 => ⟨S2000000, .i32⟩
  | 11 => ⟨S1x2000000, .i32⟩
  | 12 => ⟨S2000000, .i32⟩
  | 13 => ⟨S_, .f32⟩
  | 14 => ⟨S2000000, .f32⟩
  | 15 => ⟨S_, .f32⟩
  | 16 => ⟨S100000, .f32⟩
  | 17 => ⟨S2000000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S2000000, .i32⟩
  | 32 => ⟨S2000000, .i1⟩
  | 33 => ⟨S_, .i32⟩
  | 34 => ⟨S2000000, .i32⟩
  | 35 => ⟨S2000000, .i32⟩
  | 36 => ⟨S2000000, .i32⟩
  | 37 => ⟨S2000000x1, .i32⟩
  | 38 => ⟨S2000000, .f32⟩
  | 39 => ⟨S2000000, .f32⟩
  | 40 => ⟨S_, .i32⟩
  | 41 => ⟨S2000000, .i32⟩
  | 42 => ⟨S2000000, .i1⟩
  | 43 => ⟨S_, .i32⟩
  | 44 => ⟨S2000000, .i32⟩
  | 45 => ⟨S2000000, .i32⟩
  | 46 => ⟨S2000000, .i32⟩
  | 47 => ⟨S2000000x1, .i32⟩
  | 48 => ⟨S2000000, .f32⟩
  | 49 => ⟨S2000000, .f32⟩
  | 50 => ⟨S2000000x1, .f32⟩
  | 51 => ⟨S_, .i32⟩
  | 52 => ⟨S2000000, .i32⟩
  | 53 => ⟨S2000000, .i1⟩
  | 54 => ⟨S_, .i32⟩
  | 55 => ⟨S2000000, .i32⟩
  | 56 => ⟨S2000000, .i32⟩
  | 57 => ⟨S2000000, .i32⟩
  | 58 => ⟨S2000000x1, .i32⟩
  | 59 => ⟨S2000000x3, .f32⟩
  | 60 => ⟨S2000000x3, .f32⟩
  | 61 => ⟨S2000000x3, .f32⟩
  | 62 => ⟨S_, .f32⟩
  | 63 => ⟨S100000x3, .f32⟩
  | 64 => ⟨S2000000x1, .i32⟩
  | 65 => ⟨S100000x3, .f32⟩
  | 66 => ⟨S2000000x1, .f32⟩
  | 67 => ⟨S_, .i32⟩
  | 68 => ⟨S2000000, .i32⟩
  | 69 => ⟨S2000000, .i1⟩
  | 70 => ⟨S_, .i32⟩
  | 71 => ⟨S2000000, .i32⟩
  | 72 => ⟨S2000000, .i32⟩
  | 73 => ⟨S2000000, .i32⟩
  | 74 => ⟨S2000000x1, .i32⟩
  | 75 => ⟨S2000000x3, .f32⟩
  | 76 => ⟨S2000000x3, .f32⟩
  | 77 => ⟨S2000000x3, .f32⟩
  | 78 => ⟨S_, .f32⟩
  | 79 => ⟨S100000x3, .f32⟩
  | 80 => ⟨S2000000x1, .i32⟩
  | 81 => ⟨S100000x3, .f32⟩
  | 82 => ⟨S_, .f32⟩
  | 83 => ⟨S100000x3, .f32⟩
  | 84 => ⟨S100000x3, .f32⟩
  | 85 => ⟨S100000x3, .f32⟩
  | 86 => ⟨S1x3x16, .f32⟩
  | 87 => ⟨S3x16, .f32⟩
  | 88 => ⟨S100000x16, .f32⟩
  | 89 => ⟨S1x3x16, .f32⟩
  | 90 => ⟨S3x16, .f32⟩
  | 91 => ⟨S100000x16, .f32⟩
  | 92 => ⟨S100000x16, .f32⟩
  | 93 => ⟨S1x3x16, .f32⟩
  | 94 => ⟨S3x16, .f32⟩
  | 95 => ⟨S100000x16, .f32⟩
  | 96 => ⟨S100000x16, .f32⟩
  | 97 => ⟨S1x16, .f32⟩
  | 98 => ⟨S100000x16, .f32⟩
  | 99 => ⟨S100000x16, .f32⟩
  | 100 => ⟨S_, .f32⟩
  | 101 => ⟨S100000x16, .f32⟩
  | 102 => ⟨S100000x16, .i1⟩
  | 103 => ⟨S_, .f32⟩
  | 104 => ⟨S100000x16, .f32⟩
  | 105 => ⟨S100000x16, .f32⟩
  | 106 => ⟨S100000x16, .f32⟩
  | 107 => ⟨S2000000x1, .f32⟩
  | 108 => ⟨S_, .i32⟩
  | 109 => ⟨S2000000, .i32⟩
  | 110 => ⟨S2000000, .i1⟩
  | 111 => ⟨S_, .i32⟩
  | 112 => ⟨S2000000, .i32⟩
  | 113 => ⟨S2000000, .i32⟩
  | 114 => ⟨S2000000, .i32⟩
  | 115 => ⟨S2000000x1, .i32⟩
  | 116 => ⟨S2000000x16, .f32⟩
  | 117 => ⟨S2000000x16, .f32⟩
  | 118 => ⟨S2000000x16, .f32⟩
  | 119 => ⟨S_, .f32⟩
  | 120 => ⟨S100000x16, .f32⟩
  | 121 => ⟨S2000000x1, .i32⟩
  | 122 => ⟨S100000x16, .f32⟩
  | 123 => ⟨S2000000x1, .f32⟩
  | 124 => ⟨S_, .i32⟩
  | 125 => ⟨S2000000, .i32⟩
  | 126 => ⟨S2000000, .i1⟩
  | 127 => ⟨S_, .i32⟩
  | _ => ⟨S100000x3, .f32⟩

abbrev hbmTy0_1 (i : Nat) : BufTy := match i % 128 with
  | 0 => ⟨S2000000, .i32⟩
  | 1 => ⟨S2000000, .i32⟩
  | 2 => ⟨S2000000, .i32⟩
  | 3 => ⟨S2000000x1, .i32⟩
  | 4 => ⟨S2000000x16, .f32⟩
  | 5 => ⟨S2000000x16, .f32⟩
  | 6 => ⟨S2000000x16, .f32⟩
  | 7 => ⟨S_, .f32⟩
  | 8 => ⟨S100000x16, .f32⟩
  | 9 => ⟨S2000000x1, .i32⟩
  | 10 => ⟨S100000x16, .f32⟩
  | 11 => ⟨S_, .f32⟩
  | 12 => ⟨S100000x16, .f32⟩
  | 13 => ⟨S100000x16, .f32⟩
  | 14 => ⟨S100000x16, .f32⟩
  | 15 => ⟨S1x16x32, .f32⟩
  | 16 => ⟨S16x32, .f32⟩
  | 17 => ⟨S100000x32, .f32⟩
  | 18 => ⟨S1x16x32, .f32⟩
  | 19 => ⟨S16x32, .f32⟩
  | 20 => ⟨S100000x32, .f32⟩
  | 21 => ⟨S100000x32, .f32⟩
  | 22 => ⟨S1x16x32, .f32⟩
  | 23 => ⟨S16x32, .f32⟩
  | 24 => ⟨S100000x32, .f32⟩
  | 25 => ⟨S100000x32, .f32⟩
  | 26 => ⟨S1x32, .f32⟩
  | 27 => ⟨S100000x32, .f32⟩
  | 28 => ⟨S100000x32, .f32⟩
  | 29 => ⟨S_, .f32⟩
  | 30 => ⟨S100000x32, .f32⟩
  | 31 => ⟨S100000x32, .i1⟩
  | 32 => ⟨S_, .f32⟩
  | 33 => ⟨S100000x32, .f32⟩
  | 34 => ⟨S100000x32, .f32⟩
  | 35 => ⟨S100000x32, .f32⟩
  | 36 => ⟨S2000000x1, .f32⟩
  | 37 => ⟨S_, .i32⟩
  | 38 => ⟨S2000000, .i32⟩
  | 39 => ⟨S2000000, .i1⟩
  | 40 => ⟨S_, .i32⟩
  | 41 => ⟨S2000000, .i32⟩
  | 42 => ⟨S2000000, .i32⟩
  | 43 => ⟨S2000000, .i32⟩
  | 44 => ⟨S2000000x1, .i32⟩
  | 45 => ⟨S2000000x32, .f32⟩
  | 46 => ⟨S2000000x32, .f32⟩
  | 47 => ⟨S2000000x32, .f32⟩
  | 48 => ⟨S_, .f32⟩
  | 49 => ⟨S100000x32, .f32⟩
  | 50 => ⟨S2000000x1, .i32⟩
  | 51 => ⟨S100000x32, .f32⟩
  | 52 => ⟨S2000000x1, .f32⟩
  | 53 => ⟨S_, .i32⟩
  | 54 => ⟨S2000000, .i32⟩
  | 55 => ⟨S2000000, .i1⟩
  | 56 => ⟨S_, .i32⟩
  | 57 => ⟨S2000000, .i32⟩
  | 58 => ⟨S2000000, .i32⟩
  | 59 => ⟨S2000000, .i32⟩
  | 60 => ⟨S2000000x1, .i32⟩
  | 61 => ⟨S2000000x32, .f32⟩
  | 62 => ⟨S2000000x32, .f32⟩
  | 63 => ⟨S2000000x32, .f32⟩
  | 64 => ⟨S_, .f32⟩
  | 65 => ⟨S100000x32, .f32⟩
  | 66 => ⟨S2000000x1, .i32⟩
  | 67 => ⟨S100000x32, .f32⟩
  | 68 => ⟨S_, .f32⟩
  | 69 => ⟨S100000x32, .f32⟩
  | 70 => ⟨S100000x32, .f32⟩
  | 71 => ⟨S100000x32, .f32⟩
  | 72 => ⟨S1x32x64, .f32⟩
  | 73 => ⟨S32x64, .f32⟩
  | 74 => ⟨S100000x64, .f32⟩
  | 75 => ⟨S1x32x64, .f32⟩
  | 76 => ⟨S32x64, .f32⟩
  | 77 => ⟨S100000x64, .f32⟩
  | 78 => ⟨S100000x64, .f32⟩
  | 79 => ⟨S1x32x64, .f32⟩
  | 80 => ⟨S32x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S100000x64, .f32⟩
  | 87 => ⟨S_, .f32⟩
  | 88 => ⟨S256x64, .f32⟩
  | 89 => ⟨S100000x1, .i32⟩
  | 90 => ⟨S256x64, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_16 : Ref sig .tc := ⟨.hbm, 108, rfl⟩
abbrev main_v79 : Ref sig .tc := ⟨.hbm, 109, rfl⟩
abbrev main_v80 : Ref sig .tc := ⟨.hbm, 110, rfl⟩
abbrev main_c_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_18 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_c_19 : Ref sig .tc := ⟨.hbm, 124, rfl⟩
abbrev main_v92 : Ref sig .tc := ⟨.hbm, 125, rfl⟩
abbrev main_v93 : Ref sig .tc := ⟨.hbm, 126, rfl⟩
abbrev main_c_20 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_21 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_22 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_cst_23 : Ref sig .tc := ⟨.hbm, 157, rfl⟩
abbrev main_v121 : Ref sig .tc := ⟨.hbm, 158, rfl⟩
abbrev main_v122 : Ref sig .tc := ⟨.hbm, 159, rfl⟩
abbrev main_cst_24 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_c_25 : Ref sig .tc := ⟨.hbm, 165, rfl⟩
abbrev main_v127 : Ref sig .tc := ⟨.hbm, 166, rfl⟩
abbrev main_v128 : Ref sig .tc := ⟨.hbm, 167, rfl⟩
abbrev main_c_26 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_27 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_c_28 : Ref sig .tc := ⟨.hbm, 181, rfl⟩
abbrev main_v140 : Ref sig .tc := ⟨.hbm, 182, rfl⟩
abbrev main_v141 : Ref sig .tc := ⟨.hbm, 183, rfl⟩
abbrev main_c_29 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_cst_30 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_cst_31 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_cst_32 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S100000 : S_.BroadcastsInDim S100000 (![] : Fin 0 → Fin S100000.rank)
  bcast_S2000000_S2000000x1_0 : S2000000.BroadcastsInDim S2000000x1 (![0] : Fin 1 → Fin S2000000x1.rank)
  bcast_S2000000x1_S2000000x3_0_1 : S2000000x1.BroadcastsInDim S2000000x3 (![0, 1] : Fin 2 → Fin S2000000x3.rank)
  bcast_S_S100000x3 : S_.BroadcastsInDim S100000x3 (![] : Fin 0 → Fin S100000x3.rank)
  slices_S3x3x16_S1x3x16_0_0_0 : S3x3x16.Slices ![0, 0, 0] S1x3x16
  shapeCasts_S1x3x16_S3x16 : S1x3x16.ShapeCasts S3x16
  slices_S3x3x16_S1x3x16_1_0_0 : S3x3x16.Slices ![1, 0, 0] S1x3x16
  slices_S3x3x16_S1x3x16_2_0_0 : S3x3x16.Slices ![2, 0, 0] S1x3x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S2000000x1_S2000000x16_0_1 : S2000000x1.BroadcastsInDim S2000000x16 (![0, 1] : Fin 2 → Fin S2000000x16.rank)
  slices_S3x16x32_S1x16x32_0_0_0 : S3x16x32.Slices ![0, 0, 0] S1x16x32
  shapeCasts_S1x16x32_S16x32 : S1x16x32.ShapeCasts S16x32
  slices_S3x16x32_S1x16x32_1_0_0 : S3x16x32.Slices ![1, 0, 0] S1x16x32
  slices_S3x16x32_S1x16x32_2_0_0 : S3x16x32.Slices ![2, 0, 0] S1x16x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S2000000x1_S2000000x32_0_1 : S2000000x1.BroadcastsInDim S2000000x32 (![0, 1] : Fin 2 → Fin S2000000x32.rank)
  slices_S3x32x64_S1x32x64_0_0_0 : S3x32x64.Slices ![0, 0, 0] S1x32x64
  shapeCasts_S1x32x64_S32x64 : S1x32x64.ShapeCasts S32x64
  slices_S3x32x64_S1x32x64_1_0_0 : S3x32x64.Slices ![1, 0, 0] S1x32x64
  slices_S3x32x64_S1x32x64_2_0_0 : S3x32x64.Slices ![2, 0, 0] S1x32x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  scatter_S100000_S2000000x1_S2000000_n_0_0_1_wf : ScatterDims.WF S100000 S2000000x1 S2000000 [] [0] [0] 1
  gather_S100000_S2000000x1_S2000000_n_0_n_n_0_1_1_wf : GatherDims.WF S100000 S2000000x1 S2000000 [] [0] [] [0] [] 1 ![1]
  gather_S100000x3_S2000000x1_S2000000x3_1_0_n_n_0_1_13_wf : GatherDims.WF S100000x3 S2000000x1 S2000000x3 [1] [0] [] [0] [] 1 ![1, 3]
  scatter_S100000x3_S2000000x1_S2000000x3_1_0_0_1_wf : ScatterDims.WF S100000x3 S2000000x1 S2000000x3 [1] [0] [0] 1
  dot_S100000x3_S3x16_S100000x16_1_0_0_1_n_n_wf : DotDims.WF S100000x3 S3x16 S100000x16 [1] [0] [0] [1] [] []
  gather_S100000x16_S2000000x1_S2000000x16_1_0_n_n_0_1_116_wf : GatherDims.WF S100000x16 S2000000x1 S2000000x16 [1] [0] [] [0] [] 1 ![1, 16]
  scatter_S100000x16_S2000000x1_S2000000x16_1_0_0_1_wf : ScatterDims.WF S100000x16 S2000000x1 S2000000x16 [1] [0] [0] 1
  dot_S100000x16_S16x32_S100000x32_1_0_0_1_n_n_wf : DotDims.WF S100000x16 S16x32 S100000x32 [1] [0] [0] [1] [] []
  gather_S100000x32_S2000000x1_S2000000x32_1_0_n_n_0_1_132_wf : GatherDims.WF S100000x32 S2000000x1 S2000000x32 [1] [0] [] [0] [] 1 ![1, 32]
  scatter_S100000x32_S2000000x1_S2000000x32_1_0_0_1_wf : ScatterDims.WF S100000x32 S2000000x1 S2000000x32 [1] [0] [0] 1
  dot_S100000x32_S32x64_S100000x64_1_0_0_1_n_n_wf : DotDims.WF S100000x32 S32x64 S100000x64 [1] [0] [0] [1] [] []
  scatter_S256x64_S100000x1_S100000x64_1_0_0_1_wf : ScatterDims.WF S256x64 S100000x1 S100000x64 [1] [0] [0] 1

variable [Facts₀]

def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def gather_S100000x3_S2000000x1_S2000000x3_1_0_n_n_0_1_13 : GatherDims S100000x3 S2000000x1 S2000000x3 where
  offsetDims := [1]
  collapsedSliceDims := [0]
  operandBatchingDims := []
  startIndicesBatchingDims := []
  startIndexMap := [0]
  indexVectorDim := 1
  sliceSizes := ![1, 3]
  wf := gather_S100000x3_S2000000x1_S2000000x3_1_0_n_n_0_1_13_wf
def scatter_S100000x3_S2000000x1_S2000000x3_1_0_0_1 : ScatterDims S100000x3 S2000000x1 S2000000x3 where
  updateWindowDims := [1]
  insertedWindowDims := [0]
  scatterDimsToOperandDims := [0]
  indexVectorDim := 1
  wf := scatter_S100000x3_S2000000x1_S2000000x3_1_0_0_1_wf
def dot_S100000x3_S3x16_S100000x16_1_0_0_1_n_n : DotDims S100000x3 S3x16 S100000x16 where
  lhsContracting := [1]
  rhsContracting := [0]
  lhsNonContracting := [0]
  rhsNonContracting := [1]
  lhsBatch := []
  rhsBatch := []
  wf := dot_S100000x3_S3x16_S100000x16_1_0_0_1_n_n_wf
def gather_S100000x16_S2000000x1_S2000000x16_1_0_n_n_0_1_116 : GatherDims S100000x16 S2000000x1 S2000000x16 where
  offsetDims := [1]
  collapsedSliceDims := [0]
  operandBatchingDims := []
  startIndicesBatchingDims := []
  startIndexMap := [0]
  indexVectorDim := 1
  sliceSizes := ![1, 16]
  wf := gather_S100000x16_S2000000x1_S2000000x16_1_0_n_n_0_1_116_wf
def scatter_S100000x16_S2000000x1_S2000000x16_1_0_0_1 : ScatterDims S100000x16 S2000000x1 S2000000x16 where
  updateWindowDims := [1]
  insertedWindowDims := [0]
  scatterDimsToOperandDims := [0]
  indexVectorDim := 1
  wf := scatter_S100000x16_S2000000x1_S2000000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def scatter_S100000x32_S2000000x1_S2000000x32_1_0_0_1 : ScatterDims S100000x32 S2000000x1 S2000000x32 where
  updateWindowDims := [1]
  insertedWindowDims := [0]
  scatterDimsToOperandDims := [0]
  indexVectorDim := 1
  wf := scatter_S100000x32_S2000000x1_S2000000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf

class Facts : Prop extends Facts₀ where

variable [Facts]
-- ==== Proof.Kernel.Layer0.lean ====
/-
  Region 0 of @main (one Chebyshev layer: 2000 rows of the three feature arrays, the three weight matrices and the
  bias row in, 2000 rows of the layer's output out), at the buffer contents `V` the region is entered from.

  At every grid point the body loads its seven input blocks whole, computes one value from them and stores it over the
  whole output block; so the output block after the body is that value of the input blocks at the point, and each input
  block is found in place whether or not the pipeline fetched it there (the weights and the bias are fetched at the
  first point only, their block never moving).
-/
import proofs.«417683_j790273983042_2_alg».proof.Proof.Gen.Kernel.Launch
import proofs.«417683_j790273983042_2_alg».proof.Proof.Gen.Kernel.Skeleton
import proofs.«417683_j790273983042_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every block whole -/

abbrev rx0 : Rect S2000x3 := Rect.unit (s := S2000x3) ![0, 0] S2000x3.size inb_S2000x3_S2000x3_0_0
abbrev rw0 : Rect S3x16 := Rect.unit (s := S3x16) ![0, 0] S3x16.size inb_S3x16_S3x16_0_0
abbrev rb0 : Rect S1x16 := Rect.unit (s := S1x16) ![0, 0] S1x16.size inb_S1x16_S1x16_0_0
abbrev ro0 : Rect S2000x16 := Rect.unit (s := S2000x16) ![0, 0] S2000x16.size inb_S2000x16_S2000x16_0_0

/-! ## What the body leaves in the output window's buffer -/

/-- The output block after the body, from the seven input blocks: its one store, over the whole block. -/
def out0_7 (x0 x1 x2 : Vec F S2000x3 .f32) (x3 x4 x5 : Vec F S3x16 .f32) (x6 : Vec F S1x16 .f32) : Vec F S2000x16 .f32 :=
  View.canon [⟨ro0, k0_pay1 (View.ld x0 rx0) (View.ld x1 rx0) (View.ld x2 rx0) (View.ld x3 rw0) (View.ld x4 rw0) (View.ld x5 rw0) (View.ld x6 rb0)⟩]

/-- The one store covers the block. -/
theorem cover0_7 (p0 : Vec F S2000x16 .f32) (y : S2000x16.Idx) :
    ∃ pc ∈ ([⟨ro0, p0⟩] : List (View.Piece (Elt F) S2000x16 .f32)), y ∈ pc.1.set :=
  View.cover_of_tiled [⟨ro0, p0⟩] S2000x16.size (by rfl) y

/-! ## The body's triple -/

set_option maxHeartbeats 4000000 in
/-- The body on whole staging memrefs, the inputs' at read contents `xW` and the output's at anything, runs to the
    continuation holding the inputs' as they were and the output's at `out0_7` of the inputs'. -/
theorem sound_kernel0 (c : Dev nD) (E : Set ℕ) (i : grid0.Coords)
    (arg1 : Memref sig .tc .vmem S2000x3 .f32) (harg1 : arg1.IsWhole) (arg2 : Memref sig .tc .vmem S2000x3 .f32) (harg2 : arg2.IsWhole)
    (arg3 : Memref sig .tc .vmem S2000x3 .f32) (harg3 : arg3.IsWhole) (arg4 : Memref sig .tc .vmem S3x16 .f32) (harg4 : arg4.IsWhole)
    (arg5 : Memref sig .tc .vmem S3x16 .f32) (harg5 : arg5.IsWhole) (arg6 : Memref sig .tc .vmem S3x16 .f32) (harg6 : arg6.IsWhole)
    (arg7 : Memref sig .tc .vmem S1x16 .f32) (harg7 : arg7.IsWhole) (arg8 : Memref sig .tc .vmem S2000x16 .f32) (harg8 : arg8.IsWhole)
    (x0 x1 x2 : Vec F S2000x3 .f32) (x3 x4 x5 : Vec F S3x16 .f32) (x6 : Vec F S1x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0_kernel i arg1 harg1 arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them; after the body at point `t` each
    input's buffer at its block and the output's at `out0_7` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Layer1.lean ====
/-
  Region 1 of @main (one Chebyshev layer: 2000 rows of the three feature arrays, the three weight matrices and the
  bias row in, 2000 rows of the layer's output out), at the buffer contents `V` the region is entered from.

  At every grid point the body loads its seven input blocks whole, computes one value from them and stores it over the
  whole output block; so the output block after the body is that value of the input blocks at the point, and each input
  block is found in place whether or not the pipeline fetched it there (the weights and the bias are fetched at the
  first point only, their block never moving).
-/
import proofs.«417683_j790273983042_2_alg».proof.Proof.Gen.Kernel.Launch
import proofs.«417683_j790273983042_2_alg».proof.Proof.Gen.Kernel.Skeleton
import proofs.«417683_j790273983042_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every block whole -/

abbrev rx1 : Rect S2000x16 := Rect.unit (s := S2000x16) ![0, 0] S2000x16.size inb_S2000x16_S2000x16_0_0
abbrev rw1 : Rect S16x32 := Rect.unit (s := S16x32) ![0, 0] S16x32.size inb_S16x32_S16x32_0_0
abbrev rb1 : Rect S1x32 := Rect.unit (s := S1x32) ![0, 0] S1x32.size inb_S1x32_S1x32_0_0
abbrev ro1 : Rect S2000x32 := Rect.unit (s := S2000x32) ![0, 0] S2000x32.size inb_S2000x32_S2000x32_0_0

/-! ## What the body leaves in the output window's buffer -/

/-- The output block after the body, from the seven input blocks: its one store, over the whole block. -/
def out1_7 (x0 x1 x2 : Vec F S2000x16 .f32) (x3 x4 x5 : Vec F S16x32 .f32) (x6 : Vec F S1x32 .f32) : Vec F S2000x32 .f32 :=
  View.canon [⟨ro1, k1_pay1 (View.ld x0 rx1) (View.ld x1 rx1) (View.ld x2 rx1) (View.ld x3 rw1) (View.ld x4 rw1) (View.ld x5 rw1) (View.ld x6 rb1)⟩]

/-- The one store covers the block. -/
theorem cover1_7 (p0 : Vec F S2000x32 .f32) (y : S2000x32.Idx) :
    ∃ pc ∈ ([⟨ro1, p0⟩] : List (View.Piece (Elt F) S2000x32 .f32)), y ∈ pc.1.set :=
  View.cover_of_tiled [⟨ro1, p0⟩] S2000x32.size (by rfl) y

/-! ## The body's triple -/

set_option maxHeartbeats 4000000 in
/-- The body on whole staging memrefs, the inputs' at read contents `xW` and the output's at anything, runs to the
    continuation holding the inputs' as they were and the output's at `out1_7` of the inputs'. -/
theorem sound_kernel1 (c : Dev nD) (E : Set ℕ) (i : grid1.Coords)
    (arg1 : Memref sig .tc .vmem S2000x16 .f32) (harg1 : arg1.IsWhole) (arg2 : Memref sig .tc .vmem S2000x16 .f32) (harg2 : arg2.IsWhole)
    (arg3 : Memref sig .tc .vmem S2000x16 .f32) (harg3 : arg3.IsWhole) (arg4 : Memref sig .tc .vmem S16x32 .f32) (harg4 : arg4.IsWhole)
    (arg5 : Memref sig .tc .vmem S16x32 .f32) (harg5 : arg5.IsWhole) (arg6 : Memref sig .tc .vmem S16x32 .f32) (harg6 : arg6.IsWhole)
    (arg7 : Memref sig .tc .vmem S1x32 .f32) (harg7 : arg7.IsWhole) (arg8 : Memref sig .tc .vmem S2000x32 .f32) (harg8 : arg8.IsWhole)
    (x0 x1 x2 : Vec F S2000x16 .f32) (x3 x4 x5 : Vec F S16x32 .f32) (x6 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them; after the body at point `t` each
    input's buffer at its block and the output's at `out1_7` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Layer2.lean ====
/-
  Region 2 of @main (one Chebyshev layer: 2000 rows of the three feature arrays, the three weight matrices and the
  bias row in, 2000 rows of the layer's output out), at the buffer contents `V` the region is entered from.

  At every grid point the body loads its seven input blocks whole, computes one value from them and stores it over the
  whole output block; so the output block after the body is that value of the input blocks at the point, and each input
  block is found in place whether or not the pipeline fetched it there (the weights and the bias are fetched at the
  first point only, their block never moving).
-/
import proofs.«417683_j790273983042_2_alg».proof.Proof.Gen.Kernel.Launch
import proofs.«417683_j790273983042_2_alg».proof.Proof.Gen.Kernel.Skeleton
import proofs.«417683_j790273983042_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every block whole -/

abbrev rx2 : Rect S2000x32 := Rect.unit (s := S2000x32) ![0, 0] S2000x32.size inb_S2000x32_S2000x32_0_0
abbrev rw2 : Rect S32x64 := Rect.unit (s := S32x64) ![0, 0] S32x64.size inb_S32x64_S32x64_0_0
abbrev rb2 : Rect S1x64 := Rect.unit (s := S1x64) ![0, 0] S1x64.size inb_S1x64_S1x64_0_0
abbrev ro2 : Rect S2000x64 := Rect.unit (s := S2000x64) ![0, 0] S2000x64.size inb_S2000x64_S2000x64_0_0

/-! ## What the body leaves in the output window's buffer -/

/-- The output block after the body, from the seven input blocks: its one store, over the whole block. -/
def out2_7 (x0 x1 x2 : Vec F S2000x32 .f32) (x3 x4 x5 : Vec F S32x64 .f32) (x6 : Vec F S1x64 .f32) : Vec F S2000x64 .f32 :=
  View.canon [⟨ro2, k2_pay1 (View.ld x0 rx2) (View.ld x1 rx2) (View.ld x2 rx2) (View.ld x3 rw2) (View.ld x4 rw2) (View.ld x5 rw2) (View.ld x6 rb2)⟩]

/-- The one store covers the block. -/
theorem cover2_7 (p0 : Vec F S2000x64 .f32) (y : S2000x64.Idx) :
    ∃ pc ∈ ([⟨ro2, p0⟩] : List (View.Piece (Elt F) S2000x64 .f32)), y ∈ pc.1.set :=
  View.cover_of_tiled [⟨ro2, p0⟩] S2000x64.size (by rfl) y

/-! ## The body's triple -/

set_option maxHeartbeats 4000000 in
/-- The body on whole staging memrefs, the inputs' at read contents `xW` and the output's at anything, runs to the
    continuation holding the inputs' as they were and the output's at `out2_7` of the inputs'. -/
theorem sound_kernel2 (c : Dev nD) (E : Set ℕ) (i : grid2.Coords)
    (arg1 : Memref sig .tc .vmem S2000x32 .f32) (harg1 : arg1.IsWhole) (arg2 : Memref sig .tc .vmem S2000x32 .f32) (harg2 : arg2.IsWhole)
    (arg3 : Memref sig .tc .vmem S2000x32 .f32) (harg3 : arg3.IsWhole) (arg4 : Memref sig .tc .vmem S32x64 .f32) (harg4 : arg4.IsWhole)
    (arg5 : Memref sig .tc .vmem S32x64 .f32) (harg5 : arg5.IsWhole) (arg6 : Memref sig .tc .vmem S32x64 .f32) (harg6 : arg6.IsWhole)
    (arg7 : Memref sig .tc .vmem S1x64 .f32) (harg7 : arg7.IsWhole) (arg8 : Memref sig .tc .vmem S2000x64 .f32) (harg8 : arg8.IsWhole)
    (x0 x1 x2 : Vec F S2000x32 .f32) (x3 x4 x5 : Vec F S32x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2_kernel i arg1 harg1 arg2 harg2 arg3 harg3 arg4 harg4 arg5 harg5 arg6 harg6 arg7 harg7 arg8 harg8) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of pipeline 2 on core `c`: the arrays as the region finds them; after the body at point `t` each
    input's buffer at its block and the output's at `out2_7` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 4000000 in
/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.PoolDat.lean ====
/-
  Region 3 of @main (the pooling: at each of 50 grid points 2000 graph numbers and 2000 rows of the last layer's output
  in; a 256 x 64 scratch accumulator carried from point to point; the 256 x 64 result stored at the last point only),
  at the buffer contents `V` the region is entered from: the proof data.

  The accumulator after point n is the body's second payload of the point's two input blocks and of what the accumulator
  held before: the zero array at the first point (the body has just stored it there), what point n - 1 left otherwise.
  The output block is written, and written back, at the last point only, with the accumulator's contents.
-/
import proofs.«417683_j790273983042_2_alg».proof.Proof.Gen.Kernel.Launch
import proofs.«417683_j790273983042_2_alg».proof.Proof.Gen.Kernel.Skeleton
import proofs.«417683_j790273983042_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator -/

/-- What the scratch accumulator holds after the body at point `n`: the body's accumulation of the point's graph
    numbers and rows onto the zero array (first point) or onto what the point before left. -/
def acc3 (c : Dev nD) : (n : ℕ) → n < cfg3.N → Vec F S256x64 .f32
  | 0, hn => k3_pay2 (iblk3 V c 0 ⟨0, hn⟩) (iblk3 V c 1 ⟨0, hn⟩) (k3_pay1 (F := F))
  | n + 1, hn => k3_pay2 (iblk3 V c 0 ⟨n + 1, hn⟩) (iblk3 V c 1 ⟨n + 1, hn⟩) (acc3 c n (Nat.lt_of_succ_lt hn))

theorem acc3_zero (c : Dev nD) (hn : 0 < cfg3.N) :
    acc3 V c 0 hn = k3_pay2 (iblk3 V c 0 ⟨0, hn⟩) (iblk3 V c 1 ⟨0, hn⟩) (k3_pay1 (F := F)) := rfl

theorem acc3_succ (c : Dev nD) (n : ℕ) (hn : n + 1 < cfg3.N) :
    acc3 V c (n + 1) hn = k3_pay2 (iblk3 V c 0 ⟨n + 1, hn⟩) (iblk3 V c 1 ⟨n + 1, hn⟩) (acc3 V c n (Nat.lt_of_succ_lt hn)) := rfl

/-- At a point that is not the first: over what the point before left. -/
theorem acc3_pos (c : Dev nD) (t : Fin cfg3.N) (ht : t.val ≠ 0) :
    acc3 V c t.val t.isLt = k3_pay2 (iblk3 V c 0 t) (iblk3 V c 1 t) (acc3 V c (t.val - 1) (Nat.lt_of_le_of_lt (Nat.sub_le _ _) t.isLt)) := by
  obtain ⟨n, hn⟩ := t
  cases n with
  | zero => exact absurd rfl ht
  | succ n => rfl

/-- The scratch operand: a whole scoped buffer of the kernel's own, passed beside the windows. -/
abbrev scM3 : Memref sig .tc .vmem S256x64 .f32 := Memref.whole cc3_scratch0

/-- The region invariant before position `n`: before the first point the scoped rest and the generator register,
    untouched; afterwards the same with the scratch accumulator at what the point before left in it. -/
def PhiS3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of pipeline 3 on core `c`: the arrays as the region finds them; after the body at point `t` each
    input's buffer at its block and the output's at the accumulator's contents (consulted at the last point only: the
    window is idle and not written back at the others); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

end Cert.Kernel.Hand

end
-- ==== Proof.LibWhole.lean ====
/-
  Two facts about a two-axis buffer accessed only through its whole rectangle (offset zero on both axes, the buffer's
  own extents): reading back after a list of stores whose LAST one went through the whole rectangle gives that store's
  payload, whatever the earlier stores and the prior contents were; and a load through the whole rectangle — of the
  contents, or of what one such store left — is the contents, respectively that store's payload.
-/
import Idealize.ShloMosaic.Lib.Pipeline.FrameBody
import Idealize.ShloMosaic.Lib.Pipeline.Value

noncomputable section

namespace Cert.Whole

open Idealize.ShloMosaic

variable {Val : EltTy → Type} [∀ e, Nonempty (Val e)] {sig : RefSig} {κ : Kind} {sp : Space} {e : EltTy} {n0 n1 : ℕ}

/-- Both offsets of the whole rectangle are zero. -/
theorem hz : (![0, 0] : Fin 2 → ℕ) = fun _ => 0 := by
  funext a
  match a with
  | ⟨0, _⟩ => rfl
  | ⟨1, _⟩ => rfl

/-- After stores the last of which covers the buffer, the buffer reads as that store's payload. -/
theorem read_writes_cons (v : View sig κ sp ⟨2, ![n0, n1]⟩ e) (f : v.ty.Contents Val)
    (inb : ∀ a, (![0, 0] : Fin (⟨2, ![n0, n1]⟩ : Shape).rank → ℕ) a + (⟨2, ![n0, n1]⟩ : Shape).size a ≤ (⟨2, ![n0, n1]⟩ : Shape).size a)
    (w : (⟨2, ![n0, n1]⟩ : Shape).Idx → Val e) (L : List (View.Piece Val ⟨2, ![n0, n1]⟩ e)) :
    v.read Val (v.writes Val f ((⟨Rect.unit (s := ⟨2, ![n0, n1]⟩) ![0, 0] (⟨2, ![n0, n1]⟩ : Shape).size inb, w⟩ : View.Piece Val ⟨2, ![n0, n1]⟩ e) :: L)) = w := by
  rw [View.read_writes_eq_canon _ _ _ (fun y => ⟨_, List.mem_cons_self, by
    have h := hz
    show y ∈ (Rect.unit (s := ⟨2, ![n0, n1]⟩) ![0, 0] (⟨2, ![n0, n1]⟩ : Shape).size inb).set
    rw [Rect.mem_set_unit]
    intro a
    constructor
    · rw [congrFun h a]; exact Nat.zero_le _
    · rw [congrFun h a, Nat.zero_add]; exact (y a).isLt⟩), View.canon_cons_unit_zero hz]

/-- A load through the whole rectangle reads the contents. -/
theorem readAt_whole (v : View sig κ sp ⟨2, ![n0, n1]⟩ e) (f : v.ty.Contents Val)
    (inb : ∀ a, (![0, 0] : Fin (⟨2, ![n0, n1]⟩ : Shape).rank → ℕ) a + (⟨2, ![n0, n1]⟩ : Shape).size a ≤ (⟨2, ![n0, n1]⟩ : Shape).size a) :
    v.readAt Val (Rect.unit (s := ⟨2, ![n0, n1]⟩) ![0, 0] (⟨2, ![n0, n1]⟩ : Shape).size inb).toLoadRect f = v.read Val f := by
  rw [View.readAt_eq_ld, View.ld_unit_zero hz]

/-- A load through the whole rectangle of what one store through it left reads that store's payload. -/
theorem readCov_whole (v : View sig κ sp ⟨2, ![n0, n1]⟩ e)
    (inb : ∀ a, (![0, 0] : Fin (⟨2, ![n0, n1]⟩ : Shape).rank → ℕ) a + (⟨2, ![n0, n1]⟩ : Shape).size a ≤ (⟨2, ![n0, n1]⟩ : Shape).size a)
    (w : (⟨2, ![n0, n1]⟩ : Shape).Idx → Val e) :
    v.readCov [(⟨Rect.unit (s := ⟨2, ![n0, n1]⟩) ![0, 0] (⟨2, ![n0, n1]⟩ : Shape).size inb, w⟩ : View.Piece Val ⟨2, ![n0, n1]⟩ e)]
      (Rect.unit (s := ⟨2, ![n0, n1]⟩) ![0, 0] (⟨2, ![n0, n1]⟩ : Shape).size inb).toLoadRect = w :=
  View.readCov_unit_zero v hz inb w

end Cert.Whole

end
-- ==== Proof.Kernel.PoolBody.lean ====
/-
  Region 3 of @main (the pooling), the body: at each grid point the body run on the staging buffers and the scratch
  accumulator leaves what the proof data (PoolDat) says.

  The body has two conditionals on the grid coordinate. At the first point it stores the zero array over the whole
  accumulator; at every point it loads the two input blocks and the accumulator whole and stores the accumulation over
  the whole accumulator; at the last point it loads the accumulator again and stores it over the whole output block.
  So three cases: first point (accumulate onto the zero array, the output untouched), a middle point (accumulate onto
  what the point before left, the output untouched), the last point (the same, and the output block at the result).
-/
import proofs.«417683_j790273983042_2_alg».proof.Proof.Gen.Kernel.Launch
import proofs.«417683_j790273983042_2_alg».proof.Proof.Gen.Kernel.Skeleton
import proofs.«417683_j790273983042_2_alg».proof.Proof.Gen.Kernel.Points
import proofs.«417683_j790273983042_2_alg».proof.Proof.Kernel.PoolDat
import proofs.«417683_j790273983042_2_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's branch conditions -/

/-- The condition of the body's first conditional, from the grid coordinates: the point is the first. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 50 = 0 :=
  (by decide +kernel : ∀ t : Fin grid3.N, cond3_0 (grid3.coords t) ↔ t.val % 50 = 0)

/-- The condition of the body's second conditional, from the grid coordinates: the point is the last. -/
abbrev cond3_1 (i : grid3.Coords) : Prop := k3_cond2 i = 1#1
/-- It holds at the last point only. -/
theorem hcond3_1 : ∀ t : Fin cfg3.N, cond3_1 (grid3.coords t) ↔ t.val % 50 = 49 :=
  (by decide +kernel : ∀ t : Fin grid3.N, cond3_1 (grid3.coords t) ↔ t.val % 50 = 49)

/-! ## Where the windows are idle -/

/-- Window 0 is never idle (an input). -/
theorem liveAt3_0 : ∀ t : Fin cfg3.N, cfg3.idle 0 (grid3.coords t) = false := by decide +kernel
/-- Window 1 is never idle (an input). -/
theorem liveAt3_1 : ∀ t : Fin cfg3.N, cfg3.idle 1 (grid3.coords t) = false := by decide +kernel
/-- At every point but the last the output window is idle: the body stores nothing into it. -/
theorem idleAt3_2 : ∀ t : Fin cfg3.N, ¬cond3_1 (grid3.coords t) → cfg3.idle 2 (grid3.coords t) = true := by decide +kernel
/-- At every point but the last the output block is not written back. -/
theorem noFlush3_2 : ∀ t : Fin cfg3.N, ¬cond3_1 (grid3.coords t) → (cfg3.win 2).flush t = false := by decide +kernel
/-- At the last point the output window is live: the body stores into it. -/
theorem liveAt3_2 : ∀ t : Fin cfg3.N, cond3_1 (grid3.coords t) → cfg3.idle 2 (grid3.coords t) = false := by decide +kernel

/-! ## The class invariant, the accumulator split off -/

/-- The class invariant with the scratch accumulator as a memref owned at some contents. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body's triple, case by case -/

set_option maxHeartbeats 4000000 in
/-- First point: the accumulator, whatever it held, is first stored at the zero array, so the accumulation is onto
    that; the output's memref is not touched. -/
theorem run3_first (c : Dev nD) (E : Set ℕ) (i : grid3.Coords)
    (arg1 : Memref sig .tc .vmem S2000x1 .i32) (harg1 : arg1.IsWhole) (arg2 : Memref sig .tc .vmem S2000x64 .f32) (harg2 : arg2.IsWhole)
    (arg3 : Memref sig .tc .vmem S256x64 .f32) (harg3 : arg3.IsWhole) (arg4 : Memref sig .tc .vmem S256x64 .f32) (harg4 : arg4.IsWhole)
    (hc0 : cond3_0 i) (hc1 : ¬cond3_1 i)
    (x0 : Vec F S2000x1 .i32) (x1 : Vec F S2000x64 .f32) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1
            ∗ owns (c : Thread nD τ) arg4 fullShare (k3_pay2 x0 x1 (k3_pay1 (F := F)))) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%ds, %fs, -, HS⟩, Hk⟩
  subst hf0; subst hf1
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [Cert.Whole.read_writes_cons, Cert.Whole.readAt_whole, Cert.Whole.readAt_whole, Cert.Whole.readCov_whole]

set_option maxHeartbeats 4000000 in
/-- A middle point: the accumulation is onto what the accumulator held; the output's memref is not touched. -/
theorem run3_mid (c : Dev nD) (E : Set ℕ) (i : grid3.Coords)
    (arg1 : Memref sig .tc .vmem S2000x1 .i32) (harg1 : arg1.IsWhole) (arg2 : Memref sig .tc .vmem S2000x64 .f32) (harg2 : arg2.IsWhole)
    (arg3 : Memref sig .tc .vmem S256x64 .f32) (harg3 : arg3.IsWhole) (arg4 : Memref sig .tc .vmem S256x64 .f32) (harg4 : arg4.IsWhole)
    (hc0 : ¬cond3_0 i) (hc1 : ¬cond3_1 i)
    (x0 : Vec F S2000x1 .i32) (x1 : Vec F S2000x64 .f32) (xs : Vec F S256x64 .f32) (K : PUnit → sProp 𝕄) :
    iprop(owns (c : Thread nD τ) arg1 fullShare x0 ∗ owns (c : Thread nD τ) arg2 fullShare x1 ∗ owns (c : Thread nD τ) arg4 fullShare xs
        ∗ (iprop(owns (c : Thread nD τ) arg1 fullShare x0 ∗ owns (c : Thread nD τ) arg2 fullShare x1
            ∗ owns (c : Thread nD τ) arg4 fullShare (k3_pay2 x0 x1 xs)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%fs, %hfs, HS⟩, Hk⟩
  subst hf0; subst hf1; subst hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [Cert.Whole.read_writes_cons, Cert.Whole.readAt_whole, Cert.Whole.readAt_whole, Cert.Whole.readAt_whole]

set_option maxHeartbeats 4000000 in
/-- The last point: the accumulation is onto what the accumulator held, and the output block, whatever it held, is
    stored at the accumulator's new contents. -/
theorem run3_last (c : Dev nD) (E : Set ℕ) (i : grid3.Coords)
    (arg1 : Memref sig .tc .vmem S2000x1 .i32) (harg1 : arg1.IsWhole) (arg2 : Memref sig .tc .vmem S2000x64 .f32) (harg2 : arg2.IsWhole)
    (arg3 : Memref sig .tc .vmem S256x64 .f32) (harg3 : arg3.IsWhole) (arg4 : Memref sig .tc .vmem S256x64 .f32) (harg4 : arg4.IsWhole)
    (hc0 : ¬cond3_0 i) (hc1 : cond3_1 i)
    (x0 : Vec F S2000x1 .i32) (x1 : Vec F S2000x64 .f32) (xs : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k3_pay2 x0 x1 xs) ∗ owns (c : Thread nD τ) arg4 fullShare (k3_pay2 x0 x1 xs)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%d3, %f3, -, H3⟩, ⟨%fs, %hfs, HS⟩, Hk⟩
  subst hf0; subst hf1; subst hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_words
    rw [Cert.Whole.read_writes_cons, Cert.Whole.readCov_whole, Cert.Whole.readAt_whole, Cert.Whole.readAt_whole, Cert.Whole.readAt_whole]
  iexists _; isplitr
  swap; · iexact HS
  ipureintro
  sl_unfold_words
  rw [Cert.Whole.read_writes_cons, Cert.Whole.readAt_whole, Cert.Whole.readAt_whole, Cert.Whole.readAt_whole]

/-! ## The accumulator at the first point -/

/-- At the first point: over the zero array. -/
theorem acc3_first (c : Dev nD) (t : Fin cfg3.N) (ht : t.val = 0) :
    acc3 V c t.val t.isLt = k3_pay2 (iblk3 V c 0 t) (iblk3 V c 1 t) (k3_pay1 (F := F)) := by
  obtain ⟨n, hn⟩ := t
  cases n with
  | zero => rfl
  | succ n => exact absurd ht (Nat.succ_ne_zero n)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' memrefs hold their blocks; the closed forms say which case the point is in, so
    that case's run applies; the invariant hands the body the accumulator at what the point before left (at anything at
    the first point) together with the other scoped buffers and the generator register, and takes the accumulator back
    at this point's contents; the output's memref passes through untouched except at the last point, where it is left at
    the accumulator's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 50 := lt_of_lt_of_eq t.isLt (show cfg3.N = 50 from N_3)
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  by_cases h1 : t.val % 50 = 49
  · have h0 : ¬t.val % 50 = 0 := by omega
    have hz : t.val ≠ 0 := by omega
    rw [show (dat3 V c).leavesExact 2 t = owns (c : Thread nD τ) (st3_2 t) fullShare ((dat3 V c).after 2 t) from by
      unfold Dat.leavesExact; rw [liveAt3_2 t ((hcond3_1 t).mpr h1)], after3_2]
    rw [acc3_pos V c t hz]
    rw [PhiS3_castSucc V c t, PhiS3_pos V c _ _ hz]
    iintro ⟨⟨⟨HS, Hrest⟩, Hg⟩, Ho, ⟨%d0, H0⟩, ⟨%d1, H1⟩, ⟨%d2, H2⟩⟩
    iapply (run3_last c Set.univ (grid3.coords t) _ _ _ _ _ _ _ _ (fun h => h0 ((hcond3_0 t).mp h)) ((hcond3_1 t).mpr h1) (iblk3 V c 0 t) (iblk3 V c 1 t) _ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat3 V c) 2 t (idleAt3_2 t (fun h => h1 ((hcond3_1 t).mp h))) (noFlush3_2 t (fun h => h1 ((hcond3_1 t).mp h)))]
    by_cases hz : t.val = 0
    · have h0 : t.val % 50 = 0 := by omega
      rw [acc3_first V c t hz]
      rw [PhiS3_castSucc V c t, PhiS3_zero V c _ _ hz, PhiA3_eq]
      iintro ⟨⟨⟨HS, Hrest⟩, Hg⟩, Ho, ⟨%d0, H0⟩, ⟨%d1, H1⟩, H2⟩
      iapply (run3_first c Set.univ (grid3.coords t) _ _ _ _ _ _ _ _ ((hcond3_0 t).mpr h0) (fun h => h1 ((hcond3_1 t).mp h)) (iblk3 V c 0 t) (iblk3 V c 1 t) _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · have h0 : ¬t.val % 50 = 0 := by omega
      rw [acc3_pos V c t hz]
      rw [PhiS3_castSucc V c t, PhiS3_pos V c _ _ hz]
      iintro ⟨⟨⟨HS, Hrest⟩, Hg⟩, Ho, ⟨%d0, H0⟩, ⟨%d1, H1⟩, H2⟩
      iapply (run3_mid c Set.univ (grid3.coords t) _ _ _ _ _ _ _ _ (fun h => h0 ((hcond3_0 t).mp h)) (fun h => h1 ((hcond3_1 t).mp h)) (iblk3 V c 0 t) (iblk3 V c 1 t) _ _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends -/

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the class invariant back: the accumulator's contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, Hrest⟩, Hg⟩
  isplitl [HS Hrest]
  · isplitl [HS]
    · iexists _; iexact HS
    iexact Hrest
  iexact Hg

/-- After the last point the invariant gives the class invariant back: the accumulator's contents are forgotten. -/
theorem hout3 (c : Dev nD) : (dat3 V c).Φ (Fin.last cfg3.N) ⊢ Pipeline.ΦA spec3 c := by
  exact Phi_out3 V c _ (by rw [Fin.val_last]; have : cfg3.N = 50 := N_3; omega)

end Cert.Kernel.Hand

end
-- ==== Proof.KernelIdeal.Layer0.lean ====
/-
  Region 0 of @main (one Chebyshev layer: 2000 rows of the three feature arrays, the three weight matrices and the
  bias row in, 2000 rows of the layer's output out), at the buffer contents `V` the region is entered from.

  At every grid point the body loads its seven input blocks whole, computes one value from them and stores it over the
  whole output block; so the output block after the body is that value of the input blocks at the point, and each input
  block is found in place whether or not the pipeline fetched it there (the weights and the bias are fetched at the
  first point only, their block never moving).
-/
import proofs.«417683_j790273983042_2_alg».proof.Proof.Gen.KernelIdeal.Launch
import proofs.«417683_j790273983042_2_alg».proof.Proof.Gen.KernelIdeal.Skeleton
import proofs.«417683_j790273983042_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every block whole -/

abbrev rx0 : Rect S2000x3 := Rect.unit (s := S2000x3) ![0, 0] S2000x3.size inb_S2000x3_S2000x3_0_0
abbrev rw0 : Rect S3x16 := Rect.unit (s := S3x16) ![0, 0] S3x16.size inb_S3x16_S3x16_0_0
abbrev rb0 : Rect S1x16 := Rect.unit (s := S1x16) ![0, 0] S1x16.size inb_S1x16_S1x16_0_0
abbrev ro0 : Rect S2000x16 := Rect.unit (s := S2000x16) ![0, 0] S2000x16.size inb_S2000x16_S2000x16_0_0

/-! ## What the body leaves in the output window's buffer -/

/-- The output block after the body, from the seven input blocks: its one store, over the whole block. -/
def out0_7 (x0 x1 x2 : Vec F S2000x3 .f32) (x3 x4 x5 : Vec F S3x16 .f32) (x6 : Vec F S1x16 .f32) : Vec F S2000x16 .f32 :=
  View.canon [⟨ro0, k0_pay1 (View.ld x0 rx0) (View.ld x1 rx0) (View.ld x2 rx0) (View.ld x3 rw0) (View.ld x4 rw0) (View.ld x5 rw0) (View.ld x6 rb0)⟩]

/-- The one store covers the block. -/
theorem cover0_7 (p0 : Vec F S2000x16 .f32) (y : S2000x16.Idx) :
    ∃ pc ∈ ([⟨ro0, p0⟩] : List (View.Piece (Elt F) S2000x16 .f32)), y ∈ pc.1.set :=
  View.cover_of_tiled [⟨ro0, p0⟩] S2000x16.size (by rfl) y

/-! ## The body's triple -/

set_option maxHeartbeats 4000000 in
/-- The body on whole staging memrefs, the inputs' at read contents `xW` and the output's at anything, runs to the
    continuation holding the inputs' as they were and the output's at `out0_7` of the inputs'. -/
theorem sound_kernel0 (c : Dev nD) (E : Set ℕ) (i : grid0.Coords)
    (arg1 : Memref sig .tc .vmem S2000x3 .f32) (harg1 : arg1.IsWhole) (arg2 : Memref sig .tc .vmem S2000x3 .f32) (harg2 : arg2.IsWhole)
    (arg3 : Memref sig .tc .vmem S2000x3 .f32) (harg3 : arg3.IsWhole) (arg4 : Memref sig .tc .vmem S3x16 .f32) (harg4 : arg4.IsWhole)
    (arg5 : Memref sig .tc .vmem S3x16 .f32) (harg5 : arg5.IsWhole) (arg6 : Memref sig .tc .vmem S3x16 .f32) (harg6 : arg6.IsWhole)
    (arg7 : Memref sig .tc .vmem S1x16 .f32) (harg7 : arg7.IsWhole) (arg8 : Memref sig .tc .vmem S2000x16 .f32) (harg8 : arg8.IsWhole)
    (x0 x1 x2 : Vec F S2000x3 .f32) (x3 x4 x5 : Vec F S3x16 .f32) (x6 : Vec F S1x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0_kernel i arg1 harg1 arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them; after the body at point `t` each
    input's buffer at its block and the output's at `out0_7` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Layer1.lean ====
/-
  Region 1 of @main (one Chebyshev layer: 2000 rows of the three feature arrays, the three weight matrices and the
  bias row in, 2000 rows of the layer's output out), at the buffer contents `V` the region is entered from.

  At every grid point the body loads its seven input blocks whole, computes one value from them and stores it over the
  whole output block; so the output block after the body is that value of the input blocks at the point, and each input
  block is found in place whether or not the pipeline fetched it there (the weights and the bias are fetched at the
  first point only, their block never moving).
-/
import proofs.«417683_j790273983042_2_alg».proof.Proof.Gen.KernelIdeal.Launch
import proofs.«417683_j790273983042_2_alg».proof.Proof.Gen.KernelIdeal.Skeleton
import proofs.«417683_j790273983042_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every block whole -/

abbrev rx1 : Rect S2000x16 := Rect.unit (s := S2000x16) ![0, 0] S2000x16.size inb_S2000x16_S2000x16_0_0
abbrev rw1 : Rect S16x32 := Rect.unit (s := S16x32) ![0, 0] S16x32.size inb_S16x32_S16x32_0_0
abbrev rb1 : Rect S1x32 := Rect.unit (s := S1x32) ![0, 0] S1x32.size inb_S1x32_S1x32_0_0
abbrev ro1 : Rect S2000x32 := Rect.unit (s := S2000x32) ![0, 0] S2000x32.size inb_S2000x32_S2000x32_0_0

/-! ## What the body leaves in the output window's buffer -/

/-- The output block after the body, from the seven input blocks: its one store, over the whole block. -/
def out1_7 (x0 x1 x2 : Vec F S2000x16 .f32) (x3 x4 x5 : Vec F S16x32 .f32) (x6 : Vec F S1x32 .f32) : Vec F S2000x32 .f32 :=
  View.canon [⟨ro1, k1_pay1 (View.ld x0 rx1) (View.ld x1 rx1) (View.ld x2 rx1) (View.ld x3 rw1) (View.ld x4 rw1) (View.ld x5 rw1) (View.ld x6 rb1)⟩]

/-- The one store covers the block. -/
theorem cover1_7 (p0 : Vec F S2000x32 .f32) (y : S2000x32.Idx) :
    ∃ pc ∈ ([⟨ro1, p0⟩] : List (View.Piece (Elt F) S2000x32 .f32)), y ∈ pc.1.set :=
  View.cover_of_tiled [⟨ro1, p0⟩] S2000x32.size (by rfl) y

/-! ## The body's triple -/

set_option maxHeartbeats 4000000 in
/-- The body on whole staging memrefs, the inputs' at read contents `xW` and the output's at anything, runs to the
    continuation holding the inputs' as they were and the output's at `out1_7` of the inputs'. -/
theorem sound_kernel1 (c : Dev nD) (E : Set ℕ) (i : grid1.Coords)
    (arg1 : Memref sig .tc .vmem S2000x16 .f32) (harg1 : arg1.IsWhole) (arg2 : Memref sig .tc .vmem S2000x16 .f32) (harg2 : arg2.IsWhole)
    (arg3 : Memref sig .tc .vmem S2000x16 .f32) (harg3 : arg3.IsWhole) (arg4 : Memref sig .tc .vmem S16x32 .f32) (harg4 : arg4.IsWhole)
    (arg5 : Memref sig .tc .vmem S16x32 .f32) (harg5 : arg5.IsWhole) (arg6 : Memref sig .tc .vmem S16x32 .f32) (harg6 : arg6.IsWhole)
    (arg7 : Memref sig .tc .vmem S1x32 .f32) (harg7 : arg7.IsWhole) (arg8 : Memref sig .tc .vmem S2000x32 .f32) (harg8 : arg8.IsWhole)
    (x0 x1 x2 : Vec F S2000x16 .f32) (x3 x4 x5 : Vec F S16x32 .f32) (x6 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1_kernel i arg1 harg1 arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them; after the body at point `t` each
    input's buffer at its block and the output's at `out1_7` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Layer2.lean ====
/-
  Region 2 of @main (one Chebyshev layer: 2000 rows of the three feature arrays, the three weight matrices and the
  bias row in, 2000 rows of the layer's output out), at the buffer contents `V` the region is entered from.

  At every grid point the body loads its seven input blocks whole, computes one value from them and stores it over the
  whole output block; so the output block after the body is that value of the input blocks at the point, and each input
  block is found in place whether or not the pipeline fetched it there (the weights and the bias are fetched at the
  first point only, their block never moving).
-/
import proofs.«417683_j790273983042_2_alg».proof.Proof.Gen.KernelIdeal.Launch
import proofs.«417683_j790273983042_2_alg».proof.Proof.Gen.KernelIdeal.Skeleton
import proofs.«417683_j790273983042_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every block whole -/

abbrev rx2 : Rect S2000x32 := Rect.unit (s := S2000x32) ![0, 0] S2000x32.size inb_S2000x32_S2000x32_0_0
abbrev rw2 : Rect S32x64 := Rect.unit (s := S32x64) ![0, 0] S32x64.size inb_S32x64_S32x64_0_0
abbrev rb2 : Rect S1x64 := Rect.unit (s := S1x64) ![0, 0] S1x64.size inb_S1x64_S1x64_0_0
abbrev ro2 : Rect S2000x64 := Rect.unit (s := S2000x64) ![0, 0] S2000x64.size inb_S2000x64_S2000x64_0_0

/-! ## What the body leaves in the output window's buffer -/

/-- The output block after the body, from the seven input blocks: its one store, over the whole block. -/
def out2_7 (x0 x1 x2 : Vec F S2000x32 .f32) (x3 x4 x5 : Vec F S32x64 .f32) (x6 : Vec F S1x64 .f32) : Vec F S2000x64 .f32 :=
  View.canon [⟨ro2, k2_pay1 (View.ld x0 rx2) (View.ld x1 rx2) (View.ld x2 rx2) (View.ld x3 rw2) (View.ld x4 rw2) (View.ld x5 rw2) (View.ld x6 rb2)⟩]

/-- The one store covers the block. -/
theorem cover2_7 (p0 : Vec F S2000x64 .f32) (y : S2000x64.Idx) :
    ∃ pc ∈ ([⟨ro2, p0⟩] : List (View.Piece (Elt F) S2000x64 .f32)), y ∈ pc.1.set :=
  View.cover_of_tiled [⟨ro2, p0⟩] S2000x64.size (by rfl) y

/-! ## The body's triple -/

set_option maxHeartbeats 4000000 in
/-- The body on whole staging memrefs, the inputs' at read contents `xW` and the output's at anything, runs to the
    continuation holding the inputs' as they were and the output's at `out2_7` of the inputs'. -/
theorem sound_kernel2 (c : Dev nD) (E : Set ℕ) (i : grid2.Coords)
    (arg1 : Memref sig .tc .vmem S2000x32 .f32) (harg1 : arg1.IsWhole) (arg2 : Memref sig .tc .vmem S2000x32 .f32) (harg2 : arg2.IsWhole)
    (arg3 : Memref sig .tc .vmem S2000x32 .f32) (harg3 : arg3.IsWhole) (arg4 : Memref sig .tc .vmem S32x64 .f32) (harg4 : arg4.IsWhole)
    (arg5 : Memref sig .tc .vmem S32x64 .f32) (harg5 : arg5.IsWhole) (arg6 : Memref sig .tc .vmem S32x64 .f32) (harg6 : arg6.IsWhole)
    (arg7 : Memref sig .tc .vmem S1x64 .f32) (harg7 : arg7.IsWhole) (arg8 : Memref sig .tc .vmem S2000x64 .f32) (harg8 : arg8.IsWhole)
    (x0 x1 x2 : Vec F S2000x32 .f32) (x3 x4 x5 : Vec F S32x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2_kernel i arg1 harg1 arg2 harg2 arg3 harg3 arg4 harg4 arg5 harg5 arg6 harg6 arg7 harg7 arg8 harg8) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of pipeline 2 on core `c`: the arrays as the region finds them; after the body at point `t` each
    input's buffer at its block and the output's at `out2_7` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 4000000 in
/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.PoolDat.lean ====
/-
  Region 3 of @main (the pooling: at each of 50 grid points 2000 graph numbers and 2000 rows of the last layer's output
  in; a 256 x 64 scratch accumulator carried from point to point; the 256 x 64 result stored at the last point only),
  at the buffer contents `V` the region is entered from: the proof data.

  The accumulator after point n is the body's second payload of the point's two input blocks and of what the accumulator
  held before: the zero array at the first point (the body has just stored it there), what point n - 1 left otherwise.
  The output block is written, and written back, at the last point only, with the accumulator's contents.
-/
import proofs.«417683_j790273983042_2_alg».proof.Proof.Gen.KernelIdeal.Launch
import proofs.«417683_j790273983042_2_alg».proof.Proof.Gen.KernelIdeal.Skeleton
import proofs.«417683_j790273983042_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator -/

/-- What the scratch accumulator holds after the body at point `n`: the body's accumulation of the point's graph
    numbers and rows onto the zero array (first point) or onto what the point before left. -/
def acc3 (c : Dev nD) : (n : ℕ) → n < cfg3.N → Vec F S256x64 .f32
  | 0, hn => k3_pay2 (iblk3 V c 0 ⟨0, hn⟩) (iblk3 V c 1 ⟨0, hn⟩) (k3_pay1 (F := F))
  | n + 1, hn => k3_pay2 (iblk3 V c 0 ⟨n + 1, hn⟩) (iblk3 V c 1 ⟨n + 1, hn⟩) (acc3 c n (Nat.lt_of_succ_lt hn))

theorem acc3_zero (c : Dev nD) (hn : 0 < cfg3.N) :
    acc3 V c 0 hn = k3_pay2 (iblk3 V c 0 ⟨0, hn⟩) (iblk3 V c 1 ⟨0, hn⟩) (k3_pay1 (F := F)) := rfl

theorem acc3_succ (c : Dev nD) (n : ℕ) (hn : n + 1 < cfg3.N) :
    acc3 V c (n + 1) hn = k3_pay2 (iblk3 V c 0 ⟨n + 1, hn⟩) (iblk3 V c 1 ⟨n + 1, hn⟩) (acc3 V c n (Nat.lt_of_succ_lt hn)) := rfl

/-- At a point that is not the first: over what the point before left. -/
theorem acc3_pos (c : Dev nD) (t : Fin cfg3.N) (ht : t.val ≠ 0) :
    acc3 V c t.val t.isLt = k3_pay2 (iblk3 V c 0 t) (iblk3 V c 1 t) (acc3 V c (t.val - 1) (Nat.lt_of_le_of_lt (Nat.sub_le _ _) t.isLt)) := by
  obtain ⟨n, hn⟩ := t
  cases n with
  | zero => exact absurd rfl ht
  | succ n => rfl

/-- The scratch operand: a whole scoped buffer of the kernel's own, passed beside the windows. -/
abbrev scM3 : Memref sig .tc .vmem S256x64 .f32 := Memref.whole cc3_scratch0

/-- The region invariant before position `n`: before the first point the scoped rest and the generator register,
    untouched; afterwards the same with the scratch accumulator at what the point before left in it. -/
def PhiS3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of pipeline 3 on core `c`: the arrays as the region finds them; after the body at point `t` each
    input's buffer at its block and the output's at the accumulator's contents (consulted at the last point only: the
    window is idle and not written back at the others); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

end Cert.KernelIdeal.Hand

end
-- ==== Proof.KernelIdeal.PoolBody.lean ====
/-
  Region 3 of @main (the pooling), the body: at each grid point the body run on the staging buffers and the scratch
  accumulator leaves what the proof data (PoolDat) says.

  The body has two conditionals on the grid coordinate. At the first point it stores the zero array over the whole
  accumulator; at every point it loads the two input blocks and the accumulator whole and stores the accumulation over
  the whole accumulator; at the last point it loads the accumulator again and stores it over the whole output block.
  So three cases: first point (accumulate onto the zero array, the output untouched), a middle point (accumulate onto
  what the point before left, the output untouched), the last point (the same, and the output block at the result).
-/
import proofs.«417683_j790273983042_2_alg».proof.Proof.Gen.KernelIdeal.Launch
import proofs.«417683_j790273983042_2_alg».proof.Proof.Gen.KernelIdeal.Skeleton
import proofs.«417683_j790273983042_2_alg».proof.Proof.Gen.KernelIdeal.Points
import proofs.«417683_j790273983042_2_alg».proof.Proof.KernelIdeal.PoolDat
import proofs.«417683_j790273983042_2_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's branch conditions -/

/-- The condition of the body's first conditional, from the grid coordinates: the point is the first. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 50 = 0 :=
  (by decide +kernel : ∀ t : Fin grid3.N, cond3_0 (grid3.coords t) ↔ t.val % 50 = 0)

/-- The condition of the body's second conditional, from the grid coordinates: the point is the last. -/
abbrev cond3_1 (i : grid3.Coords) : Prop := k3_cond2 i = 1#1
/-- It holds at the last point only. -/
theorem hcond3_1 : ∀ t : Fin cfg3.N, cond3_1 (grid3.coords t) ↔ t.val % 50 = 49 :=
  (by decide +kernel : ∀ t : Fin grid3.N, cond3_1 (grid3.coords t) ↔ t.val % 50 = 49)

/-! ## Where the windows are idle -/

/-- Window 0 is never idle (an input). -/
theorem liveAt3_0 : ∀ t : Fin cfg3.N, cfg3.idle 0 (grid3.coords t) = false := by decide +kernel
/-- Window 1 is never idle (an input). -/
theorem liveAt3_1 : ∀ t : Fin cfg3.N, cfg3.idle 1 (grid3.coords t) = false := by decide +kernel
/-- At every point but the last the output window is idle: the body stores nothing into it. -/
theorem idleAt3_2 : ∀ t : Fin cfg3.N, ¬cond3_1 (grid3.coords t) → cfg3.idle 2 (grid3.coords t) = true := by decide +kernel
/-- At every point but the last the output block is not written back. -/
theorem noFlush3_2 : ∀ t : Fin cfg3.N, ¬cond3_1 (grid3.coords t) → (cfg3.win 2).flush t = false := by decide +kernel
/-- At the last point the output window is live: the body stores into it. -/
theorem liveAt3_2 : ∀ t : Fin cfg3.N, cond3_1 (grid3.coords t) → cfg3.idle 2 (grid3.coords t) = false := by decide +kernel

/-! ## The class invariant, the accumulator split off -/

/-- The class invariant with the scratch accumulator as a memref owned at some contents. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body's triple, case by case -/

set_option maxHeartbeats 4000000 in
/-- First point: the accumulator, whatever it held, is first stored at the zero array, so the accumulation is onto
    that; the output's memref is not touched. -/
theorem run3_first (c : Dev nD) (E : Set ℕ) (i : grid3.Coords)
    (arg1 : Memref sig .tc .vmem S2000x1 .i32) (harg1 : arg1.IsWhole) (arg2 : Memref sig .tc .vmem S2000x64 .f32) (harg2 : arg2.IsWhole)
    (arg3 : Memref sig .tc .vmem S256x64 .f32) (harg3 : arg3.IsWhole) (arg4 : Memref sig .tc .vmem S256x64 .f32) (harg4 : arg4.IsWhole)
    (hc0 : cond3_0 i) (hc1 : ¬cond3_1 i)
    (x0 : Vec F S2000x1 .i32) (x1 : Vec F S2000x64 .f32) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1
            ∗ owns (c : Thread nD τ) arg4 fullShare (k3_pay2 x0 x1 (k3_pay1 (F := F)))) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%ds, %fs, -, HS⟩, Hk⟩
  subst hf0; subst hf1
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [Cert.Whole.read_writes_cons, Cert.Whole.readAt_whole, Cert.Whole.readAt_whole, Cert.Whole.readCov_whole]

set_option maxHeartbeats 4000000 in
/-- A middle point: the accumulation is onto what the accumulator held; the output's memref is not touched. -/
theorem run3_mid (c : Dev nD) (E : Set ℕ) (i : grid3.Coords)
    (arg1 : Memref sig .tc .vmem S2000x1 .i32) (harg1 : arg1.IsWhole) (arg2 : Memref sig .tc .vmem S2000x64 .f32) (harg2 : arg2.IsWhole)
    (arg3 : Memref sig .tc .vmem S256x64 .f32) (harg3 : arg3.IsWhole) (arg4 : Memref sig .tc .vmem S256x64 .f32) (harg4 : arg4.IsWhole)
    (hc0 : ¬cond3_0 i) (hc1 : ¬cond3_1 i)
    (x0 : Vec F S2000x1 .i32) (x1 : Vec F S2000x64 .f32) (xs : Vec F S256x64 .f32) (K : PUnit → sProp 𝕄) :
    iprop(owns (c : Thread nD τ) arg1 fullShare x0 ∗ owns (c : Thread nD τ) arg2 fullShare x1 ∗ owns (c : Thread nD τ) arg4 fullShare xs
        ∗ (iprop(owns (c : Thread nD τ) arg1 fullShare x0 ∗ owns (c : Thread nD τ) arg2 fullShare x1
            ∗ owns (c : Thread nD τ) arg4 fullShare (k3_pay2 x0 x1 xs)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%fs, %hfs, HS⟩, Hk⟩
  subst hf0; subst hf1; subst hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [Cert.Whole.read_writes_cons, Cert.Whole.readAt_whole, Cert.Whole.readAt_whole, Cert.Whole.readAt_whole]

set_option maxHeartbeats 4000000 in
/-- The last point: the accumulation is onto what the accumulator held, and the output block, whatever it held, is
    stored at the accumulator's new contents. -/
theorem run3_last (c : Dev nD) (E : Set ℕ) (i : grid3.Coords)
    (arg1 : Memref sig .tc .vmem S2000x1 .i32) (harg1 : arg1.IsWhole) (arg2 : Memref sig .tc .vmem S2000x64 .f32) (harg2 : arg2.IsWhole)
    (arg3 : Memref sig .tc .vmem S256x64 .f32) (harg3 : arg3.IsWhole) (arg4 : Memref sig .tc .vmem S256x64 .f32) (harg4 : arg4.IsWhole)
    (hc0 : ¬cond3_0 i) (hc1 : cond3_1 i)
    (x0 : Vec F S2000x1 .i32) (x1 : Vec F S2000x64 .f32) (xs : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k3_pay2 x0 x1 xs) ∗ owns (c : Thread nD τ) arg4 fullShare (k3_pay2 x0 x1 xs)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%d3, %f3, -, H3⟩, ⟨%fs, %hfs, HS⟩, Hk⟩
  subst hf0; subst hf1; subst hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_words
    rw [Cert.Whole.read_writes_cons, Cert.Whole.readCov_whole, Cert.Whole.readAt_whole, Cert.Whole.readAt_whole, Cert.Whole.readAt_whole]
  iexists _; isplitr
  swap; · iexact HS
  ipureintro
  sl_unfold_words
  rw [Cert.Whole.read_writes_cons, Cert.Whole.readAt_whole, Cert.Whole.readAt_whole, Cert.Whole.readAt_whole]

/-! ## The accumulator at the first point -/

/-- At the first point: over the zero array. -/
theorem acc3_first (c : Dev nD) (t : Fin cfg3.N) (ht : t.val = 0) :
    acc3 V c t.val t.isLt = k3_pay2 (iblk3 V c 0 t) (iblk3 V c 1 t) (k3_pay1 (F := F)) := by
  obtain ⟨n, hn⟩ := t
  cases n with
  | zero => rfl
  | succ n => exact absurd ht (Nat.succ_ne_zero n)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' memrefs hold their blocks; the closed forms say which case the point is in, so
    that case's run applies; the invariant hands the body the accumulator at what the point before left (at anything at
    the first point) together with the other scoped buffers and the generator register, and takes the accumulator back
    at this point's contents; the output's memref passes through untouched except at the last point, where it is left at
    the accumulator's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 50 := lt_of_lt_of_eq t.isLt (show cfg3.N = 50 from N_3)
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  by_cases h1 : t.val % 50 = 49
  · have h0 : ¬t.val % 50 = 0 := by omega
    have hz : t.val ≠ 0 := by omega
    rw [show (dat3 V c).leavesExact 2 t = owns (c : Thread nD τ) (st3_2 t) fullShare ((dat3 V c).after 2 t) from by
      unfold Dat.leavesExact; rw [liveAt3_2 t ((hcond3_1 t).mpr h1)], after3_2]
    rw [acc3_pos V c t hz]
    rw [PhiS3_castSucc V c t, PhiS3_pos V c _ _ hz]
    iintro ⟨⟨⟨HS, Hrest⟩, Hg⟩, Ho, ⟨%d0, H0⟩, ⟨%d1, H1⟩, ⟨%d2, H2⟩⟩
    iapply (run3_last c Set.univ (grid3.coords t) _ _ _ _ _ _ _ _ (fun h => h0 ((hcond3_0 t).mp h)) ((hcond3_1 t).mpr h1) (iblk3 V c 0 t) (iblk3 V c 1 t) _ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat3 V c) 2 t (idleAt3_2 t (fun h => h1 ((hcond3_1 t).mp h))) (noFlush3_2 t (fun h => h1 ((hcond3_1 t).mp h)))]
    by_cases hz : t.val = 0
    · have h0 : t.val % 50 = 0 := by omega
      rw [acc3_first V c t hz]
      rw [PhiS3_castSucc V c t, PhiS3_zero V c _ _ hz, PhiA3_eq]
      iintro ⟨⟨⟨HS, Hrest⟩, Hg⟩, Ho, ⟨%d0, H0⟩, ⟨%d1, H1⟩, H2⟩
      iapply (run3_first c Set.univ (grid3.coords t) _ _ _ _ _ _ _ _ ((hcond3_0 t).mpr h0) (fun h => h1 ((hcond3_1 t).mp h)) (iblk3 V c 0 t) (iblk3 V c 1 t) _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · have h0 : ¬t.val % 50 = 0 := by omega
      rw [acc3_pos V c t hz]
      rw [PhiS3_castSucc V c t, PhiS3_pos V c _ _ hz]
      iintro ⟨⟨⟨HS, Hrest⟩, Hg⟩, Ho, ⟨%d0, H0⟩, ⟨%d1, H1⟩, H2⟩
      iapply (run3_mid c Set.univ (grid3.coords t) _ _ _ _ _ _ _ _ (fun h => h0 ((hcond3_0 t).mp h)) (fun h => h1 ((hcond3_1 t).mp h)) (iblk3 V c 0 t) (iblk3 V c 1 t) _ _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends -/

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the class invariant back: the accumulator's contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, Hrest⟩, Hg⟩
  isplitl [HS Hrest]
  · isplitl [HS]
    · iexists _; iexact HS
    iexact Hrest
  iexact Hg

/-- After the last point the invariant gives the class invariant back: the accumulator's contents are forgotten. -/
theorem hout3 (c : Dev nD) : (dat3 V c).Φ (Fin.last cfg3.N) ⊢ Pipeline.ΦA spec3 c := by
  exact Phi_out3 V c _ (by rw [Fin.val_last]; have : cfg3.N = 50 := N_3; omega)

end Cert.KernelIdeal.Hand

end
-- ==== Proof.KernelIdeal.HostA.lean ====
/-
  The kernel program's host lines before region 0, read back: the buffers region 0 and the later host lines take over
  hold what the same operations of the reference hold (the two programs spell the degree normalisation, the edge weights
  and the two propagations of the node features with the same operations of the same arguments), each named by the
  reference's stage function of the argument arrays.

  Each of the three stretches is first read over arbitrary starting contents: a buffer the stretch writes holds the
  reference's stage function of what the stretch reads, given that the buffers it reads from earlier stretches hold
  their stage functions.  The statements at the fold's boundaries are then these lemmas at the fold's contents.
-/
import proofs.«417683_j790273983042_2_alg».proof.Proof.KernelIdeal.Fold
import proofs.«417683_j790273983042_2_alg».proof.Proof.RefRead
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F] (m : (ℓ : Loc nD τ sig) → Buf (Elt F) ℓ) (c : Dev nD)

open Cert.ReferenceIdeal.ReadP

/-! ## The first stretch: the edge endpoints, the degree test and the inverse square root of the degree -/

section Stretch0
variable (V : Valuation τ sig (Elt F))

theorem s0_v1 : StableHlo.after hostOps0 V (Proc.devRef .tc main_v1) = val_main_v1 (F := F) (V (Proc.devRef .tc main_arg1)) := by
  after_results; rfl
theorem s0_v3 : StableHlo.after hostOps0 V (Proc.devRef .tc main_v3) = val_main_v3 (F := F) (V (Proc.devRef .tc main_arg1)) := by
  after_results; rfl
theorem s0_v9 : StableHlo.after hostOps0 V (Proc.devRef .tc main_v9) = val_main_v9 (F := F) (V (Proc.devRef .tc main_arg1)) := by
  after_results; rfl
theorem s0_v12 : StableHlo.after hostOps0 V (Proc.devRef .tc main_v12) = val_main_v12 (F := F) (V (Proc.devRef .tc main_arg1)) := by
  after_results; rfl
theorem s0_cst_3 : StableHlo.after hostOps0 V (Proc.devRef .tc main_cst_3) = val_main_cst_3 (F := F) := by
  after_results; rfl

end Stretch0

/-! ## The second stretch: the normalisation, zero where the degree is zero -/

theorem s1_v13 (V : Valuation τ sig (Elt F)) (x1 : (⟨Cert.ReferenceIdeal.S2x2000000, .i32⟩ : BufTy).Contents (Elt F))
    (h9 : V (Proc.devRef .tc main_v9) = val_main_v9 (F := F) x1)
    (h12 : V (Proc.devRef .tc main_v12) = val_main_v12 (F := F) x1)
    (hc : V (Proc.devRef .tc main_cst_3) = val_main_cst_3 (F := F)) :
    StableHlo.after hostOps0_1 V (Proc.devRef .tc main_v13) = val_main_v13 (F := F) x1 := by
  after_results
  rw [h9, h12, hc]
  rfl

/-! ## The third stretch: the edge weights, the two propagations, the weight slices and the bias row -/

section Stretch2
variable (V : Valuation τ sig (Elt F)) (x1 : (⟨Cert.ReferenceIdeal.S2x2000000, .i32⟩ : BufTy).Contents (Elt F))
  (h1 : V (Proc.devRef .tc main_v1) = val_main_v1 (F := F) x1)
  (h3 : V (Proc.devRef .tc main_v3) = val_main_v3 (F := F) x1)
  (h13 : V (Proc.devRef .tc main_v13) = val_main_v13 (F := F) x1)
include h1 h3 h13

set_option maxHeartbeats 1000000 in
theorem s2_v29 : StableHlo.after hostOps0_2 V (Proc.devRef .tc main_v29) = val_main_v29 (F := F) x1 := by
  after_results_simp
  rw [h1, h3, h13]
  rfl

set_option maxHeartbeats 1000000 in
theorem s2_v42 : StableHlo.after hostOps0_2 V (Proc.devRef .tc main_v42)
    = val_main_v42 (F := F) (V (Proc.devRef .tc main_arg0)) x1 := by
  after_results_simp
  rw [h1, h3, h13]
  rfl

set_option maxHeartbeats 1000000 in
theorem s2_v58 : StableHlo.after hostOps0_2 V (Proc.devRef .tc main_v58)
    = val_main_v58 (F := F) (V (Proc.devRef .tc main_arg0)) x1 := by
  after_results_simp
  rw [h1, h3, h13]
  rfl

end Stretch2

section Stretch2Weights
variable (V : Valuation τ sig (Elt F))

set_option maxHeartbeats 1000000 in
theorem s2_v60 : StableHlo.after hostOps0_2 V (Proc.devRef .tc main_v60) = val_main_v60 (F := F) (V (Proc.devRef .tc main_arg3)) := by
  after_results_simp
  rfl

set_option maxHeartbeats 1000000 in
theorem s2_v62 : StableHlo.after hostOps0_2 V (Proc.devRef .tc main_v62) = val_main_v63 (F := F) (V (Proc.devRef .tc main_arg3)) := by
  after_results_simp
  rfl

set_option maxHeartbeats 1000000 in
theorem s2_v64 : StableHlo.after hostOps0_2 V (Proc.devRef .tc main_v64) = val_main_v67 (F := F) (V (Proc.devRef .tc main_arg3)) := by
  after_results_simp
  rfl

/-- A vector of sixteen made a row by a cast and by a broadcast along the second axis: the same row, entry by entry. -/
theorem row_cast_eq_bcast (x4 : (⟨Cert.ReferenceIdeal.S16, .f32⟩ : BufTy).Contents (Elt F))
    (h : Cert.ReferenceIdeal.S16.ShapeCasts Cert.ReferenceIdeal.S1x16) :
    shapeCast Cert.ReferenceIdeal.S1x16 x4 h = val_main_v70 (F := F) x4 := by
  funext i
  rw [val_main_v70_apply]
  refine shapeCast_apply x4 h i (idx_main_v70 i) ?_
  rw [Shape.rowMajor_val_one, Shape.rowMajor_val_two]
  have h0 : (i 0).val < 1 := (i 0).isLt
  show (i 1).val = (i 0).val * 16 + (i 1).val
  omega

set_option maxHeartbeats 1000000 in
theorem s2_v65 : StableHlo.after hostOps0_2 V (Proc.devRef .tc main_v65) = val_main_v70 (F := F) (V (Proc.devRef .tc main_arg4)) := by
  after_results_simp
  exact row_cast_eq_bcast (V (Proc.devRef .tc main_arg4)) _

end Stretch2Weights

/-! ## The boundaries: each stretch's lemma at the fold's contents -/

theorem W1_v1 : W1 m c (Proc.devRef .tc main_v1) = val_main_v1 (F := F) (m ((c : Thread nD τ).loc main_arg1)) :=
  s0_v1 (W0 m c)
theorem W1_v3 : W1 m c (Proc.devRef .tc main_v3) = val_main_v3 (F := F) (m ((c : Thread nD τ).loc main_arg1)) :=
  s0_v3 (W0 m c)
theorem W1_v9 : W1 m c (Proc.devRef .tc main_v9) = val_main_v9 (F := F) (m ((c : Thread nD τ).loc main_arg1)) :=
  s0_v9 (W0 m c)
theorem W1_v12 : W1 m c (Proc.devRef .tc main_v12) = val_main_v12 (F := F) (m ((c : Thread nD τ).loc main_arg1)) :=
  s0_v12 (W0 m c)
theorem W1_cst_3 : W1 m c (Proc.devRef .tc main_cst_3) = val_main_cst_3 (F := F) :=
  s0_cst_3 (W0 m c)

theorem W2_v1 : W2 m c (Proc.devRef .tc main_v1) = val_main_v1 (F := F) (m ((c : Thread nD τ).loc main_arg1)) :=
  (W2_of m c main_v1 (by decide)).trans (W1_v1 m c)
theorem W2_v3 : W2 m c (Proc.devRef .tc main_v3) = val_main_v3 (F := F) (m ((c : Thread nD τ).loc main_arg1)) :=
  (W2_of m c main_v3 (by decide)).trans (W1_v3 m c)
theorem W2_v13 : W2 m c (Proc.devRef .tc main_v13) = val_main_v13 (F := F) (m ((c : Thread nD τ).loc main_arg1)) :=
  s1_v13 (W1 m c) _ (W1_v9 m c) (W1_v12 m c) (W1_cst_3 m c)
theorem W2_arg0 : W2 m c (Proc.devRef .tc main_arg0) = m ((c : Thread nD τ).loc main_arg0) :=
  (W2_of m c main_arg0 (by decide)).trans (W1_of m c main_arg0 (by decide))
theorem W2_arg3 : W2 m c (Proc.devRef .tc main_arg3) = m ((c : Thread nD τ).loc main_arg3) :=
  (W2_of m c main_arg3 (by decide)).trans (W1_of m c main_arg3 (by decide))
theorem W2_arg4 : W2 m c (Proc.devRef .tc main_arg4) = m ((c : Thread nD τ).loc main_arg4) :=
  (W2_of m c main_arg4 (by decide)).trans (W1_of m c main_arg4 (by decide))

/-- Source and destination node of every edge. -/
theorem W3_v1 :
    W3 m c (Proc.devRef .tc main_v1) = Cert.ReferenceIdeal.ReadP.val_main_v1 (F := F) (m ((c : Thread nD τ).loc main_arg1)) :=
  (W3_of m c main_v1 (by decide)).trans (W2_v1 m c)

theorem W3_v3 :
    W3 m c (Proc.devRef .tc main_v3) = Cert.ReferenceIdeal.ReadP.val_main_v3 (F := F) (m ((c : Thread nD τ).loc main_arg1)) :=
  (W3_of m c main_v3 (by decide)).trans (W2_v3 m c)

/-- The edge weights. -/
theorem W3_v29 :
    W3 m c (Proc.devRef .tc main_v29) = Cert.ReferenceIdeal.ReadP.val_main_v29 (F := F) (m ((c : Thread nD τ).loc main_arg1)) :=
  s2_v29 (W2 m c) _ (W2_v1 m c) (W2_v3 m c) (W2_v13 m c)

/-- The first and the combined second propagation of the node features. -/
theorem W3_v42 :
    W3 m c (Proc.devRef .tc main_v42) = Cert.ReferenceIdeal.ReadP.val_main_v42 (F := F) (m ((c : Thread nD τ).loc main_arg0)) (m ((c : Thread nD τ).loc main_arg1)) :=
  (s2_v42 (W2 m c) _ (W2_v1 m c) (W2_v3 m c) (W2_v13 m c)).trans (by rw [W2_arg0])

theorem W3_v58 :
    W3 m c (Proc.devRef .tc main_v58) = Cert.ReferenceIdeal.ReadP.val_main_v58 (F := F) (m ((c : Thread nD τ).loc main_arg0)) (m ((c : Thread nD τ).loc main_arg1)) :=
  (s2_v58 (W2 m c) _ (W2_v1 m c) (W2_v3 m c) (W2_v13 m c)).trans (by rw [W2_arg0])

/-- The first layer's three weight matrices. -/
theorem W3_v60 :
    W3 m c (Proc.devRef .tc main_v60) = Cert.ReferenceIdeal.ReadP.val_main_v60 (F := F) (m ((c : Thread nD τ).loc main_arg3)) :=
  (s2_v60 (W2 m c)).trans (by rw [W2_arg3])

theorem W3_v62 :
    W3 m c (Proc.devRef .tc main_v62) = Cert.ReferenceIdeal.ReadP.val_main_v63 (F := F) (m ((c : Thread nD τ).loc main_arg3)) :=
  (s2_v62 (W2 m c)).trans (by rw [W2_arg3])

theorem W3_v64 :
    W3 m c (Proc.devRef .tc main_v64) = Cert.ReferenceIdeal.ReadP.val_main_v67 (F := F) (m ((c : Thread nD τ).loc main_arg3)) :=
  (s2_v64 (W2 m c)).trans (by rw [W2_arg3])

/-- The first layer's bias as a row: the kernel program reshapes the bias vector, the reference broadcasts it; the same
    row. -/
theorem W3_v65 :
    W3 m c (Proc.devRef .tc main_v65) = Cert.ReferenceIdeal.ReadP.val_main_v70 (F := F) (m ((c : Thread nD τ).loc main_arg4)) :=
  (s2_v65 (W2 m c)).trans (by rw [W2_arg4])

/-- The node features, untouched. -/
theorem W3_arg0 :
    W3 m c (Proc.devRef .tc main_arg0) = (m ((c : Thread nD τ).loc main_arg0)) :=
  (W3_of m c main_arg0 (by decide)).trans (W2_arg0 m c)

end Cert.KernelIdeal.Hand

end
-- ==== Proof.KernelIdeal.HostB.lean ====
/-
  The kernel program's host lines between the regions, read back: GIVEN that a region left the reference's layer
  output in its result array, the buffers the next region takes over hold the reference's stages (the propagations of
  that output, the next layer's weights and bias row, and at the end the graph numbers as a column).
-/
import proofs.«417683_j790273983042_2_alg».proof.Proof.KernelIdeal.HostA
import proofs.«417683_j790273983042_2_alg».proof.Proof.KernelIdeal.Fold
import proofs.«417683_j790273983042_2_alg».proof.Proof.RefRead
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F] (m : (ℓ : Loc nD τ sig) → Buf (Elt F) ℓ) (c : Dev nD)

/-! ## The launch contents of the later layers' parameters, read through the earlier boundaries -/

/-- No host line and no earlier region writes an argument array. -/
private theorem W3_launch (b : Ref sig .tc) (h2 : b ∉ hostOps0_2_W) (h1 : b ∉ hostOps0_1_W) (h0 : b ∉ hostOps0_W) :
    W3 m c (Proc.devRef .tc b) = m ((c : Thread nD τ).loc b) :=
  calc W3 m c (Proc.devRef .tc b)
    _ = W2 m c (Proc.devRef .tc b) := W3_of m c b h2
    _ = W1 m c (Proc.devRef .tc b) := W2_of m c b h1
    _ = W0 m c (Proc.devRef .tc b) := W1_of m c b h0
    _ = m ((c : Thread nD τ).loc b) := rfl

theorem W4_arg5 : W4 m c (Proc.devRef .tc main_arg5) = m ((c : Thread nD τ).loc main_arg5) :=
  (W4_of_ne m c main_arg5 (by decide)).trans (W3_launch m c main_arg5 (by decide) (by decide) (by decide))
theorem W4_arg6 : W4 m c (Proc.devRef .tc main_arg6) = m ((c : Thread nD τ).loc main_arg6) :=
  (W4_of_ne m c main_arg6 (by decide)).trans (W3_launch m c main_arg6 (by decide) (by decide) (by decide))
theorem W6_arg7 : W6 m c (Proc.devRef .tc main_arg7) = m ((c : Thread nD τ).loc main_arg7) :=
  (W6_of_ne m c main_arg7 (by decide)).trans ((W5_of m c main_arg7 (by decide)).trans
    ((W4_of_ne m c main_arg7 (by decide)).trans (W3_launch m c main_arg7 (by decide) (by decide) (by decide))))
theorem W6_arg8 : W6 m c (Proc.devRef .tc main_arg8) = m ((c : Thread nD τ).loc main_arg8) :=
  (W6_of_ne m c main_arg8 (by decide)).trans ((W5_of m c main_arg8 (by decide)).trans
    ((W4_of_ne m c main_arg8 (by decide)).trans (W3_launch m c main_arg8 (by decide) (by decide) (by decide))))
theorem W8_arg2 : W8 m c (Proc.devRef .tc main_arg2) = m ((c : Thread nD τ).loc main_arg2) :=
  (W8_of_ne m c main_arg2 (by decide)).trans ((W7_of m c main_arg2 (by decide)).trans
    ((W6_of_ne m c main_arg2 (by decide)).trans ((W5_of m c main_arg2 (by decide)).trans
      ((W4_of_ne m c main_arg2 (by decide)).trans (W3_launch m c main_arg2 (by decide) (by decide) (by decide))))))

/-! ## The edge list and the edge weights, read through the regions: no region and no later host line writes them -/

theorem W4_v1 : W4 m c (Proc.devRef .tc main_v1) = Cert.ReferenceIdeal.ReadP.val_main_v1 (F := F) (m ((c : Thread nD τ).loc main_arg1)) :=
  (W4_of_ne m c main_v1 (by decide)).trans (W3_v1 m c)
theorem W4_v3 : W4 m c (Proc.devRef .tc main_v3) = Cert.ReferenceIdeal.ReadP.val_main_v3 (F := F) (m ((c : Thread nD τ).loc main_arg1)) :=
  (W4_of_ne m c main_v3 (by decide)).trans (W3_v3 m c)
theorem W4_v29 : W4 m c (Proc.devRef .tc main_v29) = Cert.ReferenceIdeal.ReadP.val_main_v29 (F := F) (m ((c : Thread nD τ).loc main_arg1)) :=
  (W4_of_ne m c main_v29 (by decide)).trans (W3_v29 m c)
theorem W6_v1 : W6 m c (Proc.devRef .tc main_v1) = Cert.ReferenceIdeal.ReadP.val_main_v1 (F := F) (m ((c : Thread nD τ).loc main_arg1)) :=
  (W6_of_ne m c main_v1 (by decide)).trans ((W5_of m c main_v1 (by decide)).trans (W4_v1 m c))
theorem W6_v3 : W6 m c (Proc.devRef .tc main_v3) = Cert.ReferenceIdeal.ReadP.val_main_v3 (F := F) (m ((c : Thread nD τ).loc main_arg1)) :=
  (W6_of_ne m c main_v3 (by decide)).trans ((W5_of m c main_v3 (by decide)).trans (W4_v3 m c))
theorem W6_v29 : W6 m c (Proc.devRef .tc main_v29) = Cert.ReferenceIdeal.ReadP.val_main_v29 (F := F) (m ((c : Thread nD τ).loc main_arg1)) :=
  (W6_of_ne m c main_v29 (by decide)).trans ((W5_of m c main_v29 (by decide)).trans (W4_v29 m c))

/-! ## After region 0: the host lines before region 1 -/

section after0
variable (h66 : W4 m c (Proc.devRef .tc main_v66) = Cert.ReferenceIdeal.ReadP.val_main_v77 (F := F) (m ((c : Thread nD τ).loc main_arg0)) (m ((c : Thread nD τ).loc main_arg1)) (m ((c : Thread nD τ).loc main_arg3)) (m ((c : Thread nD τ).loc main_arg4)))
include h66
theorem W5_v66 :
    W5 m c (Proc.devRef .tc main_v66) = Cert.ReferenceIdeal.ReadP.val_main_v77 (F := F) (m ((c : Thread nD τ).loc main_arg0)) (m ((c : Thread nD τ).loc main_arg1)) (m ((c : Thread nD τ).loc main_arg3)) (m ((c : Thread nD τ).loc main_arg4)) := by
  rw [← h66]; exact W5_of m c main_v66 (by decide)

/-- The propagation of the first layer's output: gathered by source node, weighted, summed by destination node. -/
theorem W5_v79 :
    W5 m c (Proc.devRef .tc main_v79) = Cert.ReferenceIdeal.ReadP.val_main_v90 (F := F) (m ((c : Thread nD τ).loc main_arg0)) (m ((c : Thread nD τ).loc main_arg1)) (m ((c : Thread nD τ).loc main_arg3)) (m ((c : Thread nD τ).loc main_arg4)) := by
  show StableHlo.after hostOps1 (W4 m c) (Proc.devRef .tc main_v79) = _
  after_results_simp
  rw [h66, W4_v1, W4_v3, W4_v29]
  rfl

/-- Twice the propagation of the propagation, less the output itself. -/
theorem W5_v95 :
    W5 m c (Proc.devRef .tc main_v95) = Cert.ReferenceIdeal.ReadP.val_main_v106 (F := F) (m ((c : Thread nD τ).loc main_arg0)) (m ((c : Thread nD τ).loc main_arg1)) (m ((c : Thread nD τ).loc main_arg3)) (m ((c : Thread nD τ).loc main_arg4)) := by
  show StableHlo.after hostOps1 (W4 m c) (Proc.devRef .tc main_v95) = _
  after_results_simp
  rw [h66, W4_v1, W4_v3, W4_v29]
  rfl

end after0
/-- The second layer's three weight matrices. -/
theorem W5_v97 :
    W5 m c (Proc.devRef .tc main_v97) = Cert.ReferenceIdeal.ReadP.val_main_v108 (F := F) (m ((c : Thread nD τ).loc main_arg5)) := by
  show StableHlo.after hostOps1 (W4 m c) (Proc.devRef .tc main_v97) = _
  after_results_simp
  rw [W4_arg5]
  rfl

theorem W5_v99 :
    W5 m c (Proc.devRef .tc main_v99) = Cert.ReferenceIdeal.ReadP.val_main_v111 (F := F) (m ((c : Thread nD τ).loc main_arg5)) := by
  show StableHlo.after hostOps1 (W4 m c) (Proc.devRef .tc main_v99) = _
  after_results_simp
  rw [W4_arg5]
  rfl

theorem W5_v101 :
    W5 m c (Proc.devRef .tc main_v101) = Cert.ReferenceIdeal.ReadP.val_main_v115 (F := F) (m ((c : Thread nD τ).loc main_arg5)) := by
  show StableHlo.after hostOps1 (W4 m c) (Proc.devRef .tc main_v101) = _
  after_results_simp
  rw [W4_arg5]
  rfl

/-- The second layer's bias as a row: the vector reshaped and the vector broadcast are the same row. -/
theorem W5_v102 :
    W5 m c (Proc.devRef .tc main_v102) = Cert.ReferenceIdeal.ReadP.val_main_v118 (F := F) (m ((c : Thread nD τ).loc main_arg6)) := by
  show StableHlo.after hostOps1 (W4 m c) (Proc.devRef .tc main_v102) = _
  after_results_simp
  rw [W4_arg6]
  funext i
  rw [Cert.ReferenceIdeal.ReadP.val_main_v118_apply]
  refine shapeCast_apply (m ((c : Thread nD τ).loc main_arg6)) shapeCasts_S32_S1x32 i _ ?_
  show ((S32 : Shape).rowMajor (Cert.ReferenceIdeal.ReadP.idx_main_v118 i)).val = ((S1x32 : Shape).rowMajor i).val
  rw [Shape.rowMajor_val_one, Shape.rowMajor_val_two]
  have h0 : (i 0).val < 1 := (i 0).isLt
  show (i 1).val = (i 0).val * 32 + (i 1).val
  omega

/-! ## After region 1: the host lines before region 2 -/

section after1
variable (h103 : W6 m c (Proc.devRef .tc main_v103) = Cert.ReferenceIdeal.ReadP.val_main_v125 (F := F) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))
include h103
theorem W7_v103 :
    W7 m c (Proc.devRef .tc main_v103) = Cert.ReferenceIdeal.ReadP.val_main_v125 (F := F) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [← h103]; exact W7_of m c main_v103 (by decide)

/-- The propagation of the second layer's output. -/
theorem W7_v116 :
    W7 m c (Proc.devRef .tc main_v116) = Cert.ReferenceIdeal.ReadP.val_main_v138 (F := F) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps2 (W6 m c) (Proc.devRef .tc main_v116) = _
  after_results_simp
  rw [h103, W6_v1, W6_v3, W6_v29]
  rfl

/-- Twice the propagation of the propagation, less the output itself. -/
theorem W7_v132 :
    W7 m c (Proc.devRef .tc main_v132) = Cert.ReferenceIdeal.ReadP.val_main_v154 (F := F) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps2 (W6 m c) (Proc.devRef .tc main_v132) = _
  after_results_simp
  rw [h103, W6_v1, W6_v3, W6_v29]
  rfl

end after1
/-- The third layer's three weight matrices. -/
theorem W7_v134 :
    W7 m c (Proc.devRef .tc main_v134) = Cert.ReferenceIdeal.ReadP.val_main_v156 (F := F) (m ((c : Thread nD τ).loc main_arg7)) := by
  show StableHlo.after hostOps2 (W6 m c) (Proc.devRef .tc main_v134) = _
  after_results_simp
  rw [W6_arg7]
  rfl

theorem W7_v136 :
    W7 m c (Proc.devRef .tc main_v136) = Cert.ReferenceIdeal.ReadP.val_main_v159 (F := F) (m ((c : Thread nD τ).loc main_arg7)) := by
  show StableHlo.after hostOps2 (W6 m c) (Proc.devRef .tc main_v136) = _
  after_results_simp
  rw [W6_arg7]
  rfl

theorem W7_v138 :
    W7 m c (Proc.devRef .tc main_v138) = Cert.ReferenceIdeal.ReadP.val_main_v163 (F := F) (m ((c : Thread nD τ).loc main_arg7)) := by
  show StableHlo.after hostOps2 (W6 m c) (Proc.devRef .tc main_v138) = _
  after_results_simp
  rw [W6_arg7]
  rfl

/-- The third layer's bias as a row: the vector reshaped and the vector broadcast are the same row. -/
theorem W7_v139 :
    W7 m c (Proc.devRef .tc main_v139) = Cert.ReferenceIdeal.ReadP.val_main_v166 (F := F) (m ((c : Thread nD τ).loc main_arg8)) := by
  show StableHlo.after hostOps2 (W6 m c) (Proc.devRef .tc main_v139) = _
  after_results_simp
  rw [W6_arg8]
  funext i
  rw [Cert.ReferenceIdeal.ReadP.val_main_v166_apply]
  refine shapeCast_apply (m ((c : Thread nD τ).loc main_arg8)) shapeCasts_S64_S1x64 i _ ?_
  show ((S64 : Shape).rowMajor (Cert.ReferenceIdeal.ReadP.idx_main_v166 i)).val = ((S1x64 : Shape).rowMajor i).val
  rw [Shape.rowMajor_val_one, Shape.rowMajor_val_two]
  have h0 : (i 0).val < 1 := (i 0).isLt
  show (i 1).val = (i 0).val * 64 + (i 1).val
  omega

/-! ## After region 2: the host line before region 3 -/

section after2
variable (h140 : W8 m c (Proc.devRef .tc main_v140) = Cert.ReferenceIdeal.ReadP.val_main_v169 (F := F) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
include h140
theorem W9_v140 :
    W9 m c (Proc.devRef .tc main_v140) = Cert.ReferenceIdeal.ReadP.val_main_v169 (F := F) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [← h140]; exact W9_of m c main_v140 (by decide)

end after2
/-- The graph numbers as a column: the kernel program reshapes the vector, the reference broadcasts it; the same
    column. -/
theorem W9_v141 :
    W9 m c (Proc.devRef .tc main_v141) = Cert.ReferenceIdeal.ReadP.val_main_v171 (F := F) (m ((c : Thread nD τ).loc main_arg2)) := by
  show StableHlo.after hostOps3 (W8 m c) (Proc.devRef .tc main_v141) = _
  after_results_simp
  rw [W8_arg2]
  funext i
  rw [Cert.ReferenceIdeal.ReadP.val_main_v171_apply]
  refine shapeCast_apply (m ((c : Thread nD τ).loc main_arg2)) shapeCasts_S100000_S100000x1 i _ ?_
  show ((S100000 : Shape).rowMajor (Cert.ReferenceIdeal.ReadP.idx_main_v171 i)).val = ((S100000x1 : Shape).rowMajor i).val
  rw [Shape.rowMajor_val_one, Shape.rowMajor_val_two]
  have h1 : (i 1).val < 1 := (i 1).isLt
  show (i 0).val = (i 0).val * 1 + (i 1).val
  omega

end Cert.KernelIdeal.Hand

end
-- ==== Proof.LibDense.lean ====
/-
  The plain matrix product of two rank-2 arrays of extended reals, and the two places a program meets it: a
  contraction's sum over its one contracted axis, for dimension numbers that contract the left operand's columns
  with the right operand's rows and have no batch axis, re-indexed by that axis's coordinate; and, at the ideal
  values, a matmul into a zero accumulator whose operands pass through a narrower float format, and a host
  dot_general.
-/
import Idealize.ShloMosaic.PureOps.Ideal
import Idealize.ShloMosaic.PureOps.Ideal.Laws
import Idealize.ShloMosaic.Lib.ValueIdx

noncomputable section

open scoped BigOperators

namespace Cert.Lib

open Idealize.ShloMosaic Idealize.ShloMosaic.ValueIdx

/-- The matrix product x · w of an M × K by a K × N array: entry (p, q) is the sum over k of x (p, k) · w (k, q). -/
def dense {M K N : Nat} (x : (⟨2, ![M, K]⟩ : Shape).Idx → EReal) (w : (⟨2, ![K, N]⟩ : Shape).Idx → EReal) :
    (⟨2, ![M, N]⟩ : Shape).Idx → EReal :=
  fun j => ∑ k : Fin K, x (ValueIdx.ix2 (j 0) k) * w (ValueIdx.ix2 k (j 1))

/-- The product read at an entry. -/
theorem dense_apply {M K N : Nat} (x : (⟨2, ![M, K]⟩ : Shape).Idx → EReal) (w : (⟨2, ![K, N]⟩ : Shape).Idx → EReal)
    (j : (⟨2, ![M, N]⟩ : Shape).Idx) :
    dense x w j = ∑ k : Fin K, x (ValueIdx.ix2 (j 0) k) * w (ValueIdx.ix2 k (j 1)) := rfl

/-- A row of the product depends on that row of the left factor alone: if row p' of x' is row p of x, and w' is w,
    then entry (p', q) of x' · w' is entry (p, q) of x · w. -/
theorem dense_row {M M' K N : Nat} (x : (⟨2, ![M, K]⟩ : Shape).Idx → EReal) (x' : (⟨2, ![M', K]⟩ : Shape).Idx → EReal)
    (w w' : (⟨2, ![K, N]⟩ : Shape).Idx → EReal) (p : Fin M) (p' : Fin M')
    (hx : ∀ k : Fin K, x' (ValueIdx.ix2 p' k) = x (ValueIdx.ix2 p k)) (hw : ∀ i, w' i = w i) (q : Fin N) :
    dense x' w' (ValueIdx.ix2 p' q) = dense x w (ValueIdx.ix2 p q) := by
  show ∑ k : Fin K, x' (ValueIdx.ix2 p' k) * w' (ValueIdx.ix2 k q) = ∑ k : Fin K, x (ValueIdx.ix2 p k) * w (ValueIdx.ix2 k q)
  exact Finset.sum_congr rfl fun k _ => by rw [hx k, hw]

section Plain

variable {M K N : Nat} (d : DotDims ⟨2, ![M, K]⟩ ⟨2, ![K, N]⟩ ⟨2, ![M, N]⟩)

/-- Dimension numbers that contract one axis have a contraction shape of rank one. -/
theorem contr_rank (hlc : d.lhsContracting = [1]) : d.contr.rank = 1 := by
  rw [d.rank_contr, hlc]; rfl

/-- When the contracted axis is the left operand's second, the contraction shape's one extent is K. -/
theorem contr_size (hlc : d.lhsContracting = [1]) :
    d.contr.size ⟨0, by rw [contr_rank d hlc]; exact Nat.one_pos⟩ = K := by
  have hp : 0 < d.lhsContracting.length := by rw [hlc]; exact Nat.one_pos
  have h1 : d.lhsContracting[0]'hp = 1 := by simp [hlc]
  rw [d.size_contr 0 hp, h1]
  rfl

/-- Reading two coordinates of a rank-2 index at equal axis numbers gives equal values. -/
theorem coord_congr {n : Fin 2 → Nat} (j : (⟨2, n⟩ : Shape).Idx) (p q : Nat) (hp : p < 2) (hq : q < 2) (h : p = q) :
    (j ⟨p, hp⟩).val = (j ⟨q, hq⟩).val := by subst h; rfl

/-- The left operand's row is the result's row: axis 0 of the left operand is its one free axis, the first of the
    result's axes. -/
theorem lhsIdx_0 (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (show ¬(0 : Fin (⟨2, ![M, K]⟩ : Shape).rank) ∈ d.lhsBatch by rw [hlb]; exact List.not_mem_nil),
    dif_pos (show (0 : Fin (⟨2, ![M, K]⟩ : Shape).rank) ∈ d.lhsNonContracting by rw [hln]; exact List.mem_singleton.mpr rfl)]
  simp only [Fin.val_cast]
  exact coord_congr j _ _ _ _ (by simp [hlb, hln])

/-- The left operand's column is the contracted coordinate: axis 1 of the left operand is the contracted one. -/
theorem lhsIdx_1 (hlc : d.lhsContracting = [1]) (j : (⟨2, ![M, N]⟩ : Shape).Idx) (q : d.contr.Idx) :
    (d.lhsIdx j q 1).val = (q ⟨0, by rw [contr_rank d hlc]; exact Nat.one_pos⟩).val :=
  d.lhsIdx_val_of_single hlc j q

/-- The right operand's row is the contracted coordinate: axis 0 of the right operand is the contracted one. -/
theorem rhsIdx_0 (hlc : d.lhsContracting = [1]) (hrc : d.rhsContracting = [0]) (j : (⟨2, ![M, N]⟩ : Shape).Idx)
    (q : d.contr.Idx) : (d.rhsIdx j q 0).val = (q ⟨0, by rw [contr_rank d hlc]; exact Nat.one_pos⟩).val :=
  d.rhsIdx_val_of_single hrc j q

/-- The right operand's column is the result's column: axis 1 of the right operand is its one free axis, which
    comes after the left operand's one free axis among the result's axes. -/
theorem rhsIdx_1 (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (show ¬(1 : Fin (⟨2, ![K, N]⟩ : Shape).rank) ∈ d.rhsBatch by rw [hrb]; exact List.not_mem_nil),
    dif_pos (show (1 : Fin (⟨2, ![K, N]⟩ : Shape).rank) ∈ d.rhsNonContracting by rw [hrn]; exact List.mem_singleton.mpr rfl)]
  simp only [Fin.val_cast]
  exact coord_congr j _ _ _ _ (by simp [hlb, hln, hrn])

/-- THE CONTRACTION IS THE MATRIX PRODUCT. For dimension numbers contracting the left operand's columns with the
    right operand's rows, one free axis each and no batch axis, the sum over the contraction index of the operands'
    products at the dot's operand indices is the matrix product's entry: re-index the sum by the contracted axis's
    coordinate; the operand indices at result entry (p, q) and coordinate k are then (p, k) and (k, q). -/
theorem sum_contr_eq_dense (hlc : d.lhsContracting = [1]) (hrc : d.rhsContracting = [0])
    (hln : d.lhsNonContracting = [0]) (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = dense l r j := by
  rw [dense_apply, ← Equiv.sum_comp (ValueIdx.contrEquiv1 d K (contr_rank d hlc) (contr_size d hlc)).symm]
  refine Finset.sum_congr rfl fun k _ => ?_
  have hk := ValueIdx.contrEquiv1_symm_val d K (contr_rank d hlc) (contr_size d hlc) k
  have el : d.lhsIdx j ((ValueIdx.contrEquiv1 d K (contr_rank d hlc) (contr_size d hlc)).symm k)
      = (ValueIdx.ix2 (j 0) k : (⟨2, ![M, K]⟩ : Shape).Idx) := funext fun a => Fin.ext (by
    match a with
    | ⟨0, _⟩ => exact lhsIdx_0 d hln hlb _ _
    | ⟨1, _⟩ => exact (lhsIdx_1 d hlc _ _).trans hk)
  have er : d.rhsIdx j ((ValueIdx.contrEquiv1 d K (contr_rank d hlc) (contr_size d hlc)).symm k)
      = (ValueIdx.ix2 k (j 1) : (⟨2, ![K, N]⟩ : Shape).Idx) := funext fun a => Fin.ext (by
    match a with
    | ⟨0, _⟩ => exact (rhsIdx_0 d hlc hrc _ _).trans hk
    | ⟨1, _⟩ => exact rhsIdx_1 d hln hrn hlb hrb _ _)
  rw [el, er]

/-- At the ideal values a matmul into the zero accumulator, its two f32 operands first passed through bf16 (the
    identity on extended reals), is the matrix product of the operands. -/
theorem matmul_truncf_eq_dense (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32)
    (h₁ : FTy.bf16.bits < FTy.f32.bits) (h₂ : FTy.bf16.bits < FTy.f32.bits) :
    FloatOps.matmul d prec (truncf .bf16 l h₁ : FVec Ideal ⟨2, ![M, K]⟩ .bf16)
        (truncf .bf16 r h₂ : FVec Ideal ⟨2, ![K, N]⟩ .bf16) (constant (F := Ideal) ⟨2, ![M, N]⟩ .f32 0x00000000#32)
      = dense l r := by
  funext j
  rw [Ideal.matmul_constant_zero_apply]
  exact sum_contr_eq_dense d hlc hrc hln hrn hlb hrb l r j

/-- At the ideal values the host's dot_general is the matrix product of its operands, whatever the precision. -/
theorem dotGeneral_eq_dense (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32) :
    Host.dotGeneral d prec l r = dense l r := by
  funext j
  simp only [Host.dotGeneral]
  rw [Ideal.dotGeneral_apply]
  exact sum_contr_eq_dense d hlc hrc hln hrn hlb hrb l r j

end Plain

end Cert.Lib

end
-- ==== Proof.Spec.lean ====
/-
  What one Chebyshev layer and the final pooling compute, on arrays of extended reals.

  A layer takes the node features x, their first propagation t1 and the combination t2, three weight matrices and a
  bias row, and returns, entry by entry, an activation of  x·w0 + t1·w1 + t2·w2 + b  (the three matrix products added
  from the left, then the bias of the entry's column).  The activation is the leaky rectifier with slope 0.2 (the
  entry itself when it is at least zero, one fifth of it otherwise) or the hyperbolic tangent.
  The pooling adds, for every graph number g, the rows of the last layer's output whose node carries that number.
-/
import proofs.«417683_j790273983042_2_alg».proof.Proof.LibDense
import Idealize.ShloMosaic.PureOps.Ideal
import Idealize.ShloMosaic.Lib.ValueIdx

noncomputable section

open scoped BigOperators

namespace Cert.Spec

open Idealize.ShloMosaic Cert.Lib

/-- A two-axis array of extended reals. -/
abbrev Mat (m n : Nat) : Type := (⟨2, ![m, n]⟩ : Shape).Idx → EReal

/-- x·w0 + t1·w1 + t2·w2 + b: the three products added from the left, then the bias row's entry of the column. -/
def cheb {N cin cout : Nat} (x t1 t2 : Mat N cin) (w0 w1 w2 : Mat cin cout) (b : Mat 1 cout) : Mat N cout :=
  fun i => FloatOps.addf (F := Ideal) (φ := .f32)
    (FloatOps.addf (F := Ideal) (φ := .f32) (FloatOps.addf (F := Ideal) (φ := .f32) (dense x w0 i) (dense t1 w1 i)) (dense t2 w2 i))
    (b (ValueIdx.ix2 (⟨0, Nat.one_pos⟩ : Fin 1) (i 1)))

/-- The leaky rectifier with slope 0.2 (the float nearest one fifth), entry by entry: y where y ≥ 0, else 0.2·y. -/
def prelu {N M : Nat} (y : Mat N M) : Mat N M :=
  fun i => Scalar.select (FloatOps.cmpf (F := Ideal) (φ := .f32) .oge (y i) (FloatOps.ofBits .f32 0x00000000#32)) (y i)
    (FloatOps.mulf (F := Ideal) (φ := .f32) (FloatOps.ofBits .f32 0x3E4CCCCD#32) (y i))

/-- The hyperbolic tangent, entry by entry. -/
def tanhA {N M : Nat} (y : Mat N M) : Mat N M := fun i => Ideal.tanh (y i)

/-- One layer with the leaky rectifier. -/
def layerPrelu {N cin cout : Nat} (x t1 t2 : Mat N cin) (w0 w1 w2 : Mat cin cout) (b : Mat 1 cout) : Mat N cout :=
  prelu (cheb x t1 t2 w0 w1 w2 b)

/-- One layer with the hyperbolic tangent. -/
def layerTanh {N cin cout : Nat} (x t1 t2 : Mat N cin) (w0 w1 w2 : Mat cin cout) (b : Mat 1 cout) : Mat N cout :=
  tanhA (cheb x t1 t2 w0 w1 w2 b)

/-- The pooled sums: entry (g, k) is the sum of h (n, k) over the nodes n whose graph number, a 32-bit word read as a
    signed integer, is g. -/
def pool {N G C : Nat} (batch : (⟨2, ![N, 1]⟩ : Shape).Idx → BitVec 32) (h : Mat N C) : Mat G C :=
  fun j => ∑ n : Fin N, if (batch (ValueIdx.ix2 n (⟨0, Nat.one_pos⟩ : Fin 1))).toInt = ((j 0).val : Int) then h (ValueIdx.ix2 n (j 1)) else 0

end Cert.Spec

end
-- ==== Proof.KernelIdeal.LayerValLib.lean ====
/-
  One Chebyshev layer at the exact-real reading, apart from any one region: what a body that multiplies three
  pairs of operands rounded to a narrower format into zero accumulators, adds the products from the left, adds the bias
  row spread over the rows and applies an activation entry by entry stores — the layer function of its blocks —, and
  that a row of the layer depends on that row of the three feature arrays alone (and on the weights and the bias whole).
-/
import proofs.«417683_j790273983042_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic

/-! ## The linear part on one block -/

/-- The bias row spread over the rows, read at an entry: the row's entry of that column. -/
theorem biasRow_apply {N cout : Nat} (b : FVec Ideal ⟨2, ![1, cout]⟩ .f32)
    (hb : (⟨2, ![1, cout]⟩ : Shape).Broadcasts ⟨2, ![N, cout]⟩) (j : (⟨2, ![N, cout]⟩ : Shape).Idx) :
    broadcastTo ⟨2, ![N, cout]⟩ b hb j = b (ValueIdx.ix2 (⟨0, Nat.one_pos⟩ : Fin 1) (j 1)) := by
  refine broadcastTo_apply b hb j _ fun a => ?_
  match a with
  | ⟨0, _⟩ => exact (if_pos rfl).symm
  | ⟨1, _⟩ =>
    show (j 1).val = if cout = 1 then 0 else (j 1).val
    have hj : (j 1).val < cout := ValueIdx.idx2_lt1 j
    split_ifs with h
    · omega
    · rfl

/-- The three products of the rounded operands into zero accumulators, added from the left, plus the bias row spread
    over the rows, is the layer's linear part: each product is the plain matrix product at the exact reals. -/
theorem lin_eq {N cin cout : Nat} (d : DotDims ⟨2, ![N, cin]⟩ ⟨2, ![cin, cout]⟩ ⟨2, ![N, cout]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (hbits : FTy.bf16.bits < FTy.f32.bits)
    (hb : (⟨2, ![1, cout]⟩ : Shape).Broadcasts ⟨2, ![N, cout]⟩)
    (x0 x1 x2 : FVec Ideal ⟨2, ![N, cin]⟩ .f32) (w0 w1 w2 : FVec Ideal ⟨2, ![cin, cout]⟩ .f32)
    (b : FVec Ideal ⟨2, ![1, cout]⟩ .f32) :
    addf (addf (addf
        (matmul d prec (truncf .bf16 x0 hbits) (truncf .bf16 w0 hbits) (constant ⟨2, ![N, cout]⟩ .f32 0x00000000#32))
        (matmul d prec (truncf .bf16 x1 hbits) (truncf .bf16 w1 hbits) (constant ⟨2, ![N, cout]⟩ .f32 0x00000000#32)))
        (matmul d prec (truncf .bf16 x2 hbits) (truncf .bf16 w2 hbits) (constant ⟨2, ![N, cout]⟩ .f32 0x00000000#32)))
        (broadcastTo ⟨2, ![N, cout]⟩ b hb)
      = Cert.Spec.cheb x0 x1 x2 w0 w1 w2 b := by
  rw [show matmul d prec (truncf .bf16 x0 hbits) (truncf .bf16 w0 hbits) (constant ⟨2, ![N, cout]⟩ .f32 0x00000000#32) = Cert.Lib.dense x0 w0
      from Cert.Lib.matmul_truncf_eq_dense d hlc hrc hln hrn hlb hrb prec x0 w0 hbits hbits,
    show matmul d prec (truncf .bf16 x1 hbits) (truncf .bf16 w1 hbits) (constant ⟨2, ![N, cout]⟩ .f32 0x00000000#32) = Cert.Lib.dense x1 w1
      from Cert.Lib.matmul_truncf_eq_dense d hlc hrc hln hrn hlb hrb prec x1 w1 hbits hbits,
    show matmul d prec (truncf .bf16 x2 hbits) (truncf .bf16 w2 hbits) (constant ⟨2, ![N, cout]⟩ .f32 0x00000000#32) = Cert.Lib.dense x2 w2
      from Cert.Lib.matmul_truncf_eq_dense d hlc hrc hln hrn hlb hrb prec x2 w2 hbits hbits]
  funext j
  show FloatOps.addf (F := Ideal) (φ := .f32) (FloatOps.addf (F := Ideal) (φ := .f32) (FloatOps.addf (F := Ideal) (φ := .f32)
      (Cert.Lib.dense x0 w0 j) (Cert.Lib.dense x1 w1 j)) (Cert.Lib.dense x2 w2 j)) (broadcastTo ⟨2, ![N, cout]⟩ b hb j) = _
  rw [biasRow_apply b hb j]
  rfl

/-! ## The two activations, as a body spells them on a whole block -/

/-- The leaky rectifier: where the entry is at least zero the entry, elsewhere the slope's float times it. -/
theorem prelu_eq {N M : Nat} (y : FVec Ideal ⟨2, ![N, M]⟩ .f32) :
    select (cmpf .oge y (broadcast ⟨2, ![N, M]⟩ (Scalar.ofBits (F := Ideal) .f32 0x00000000#32))) y
        (mulf (broadcast ⟨2, ![N, M]⟩ (Scalar.ofBits (F := Ideal) .f32 0x3E4CCCCD#32)) y)
      = Cert.Spec.prelu y := rfl

/-- The hyperbolic tangent. -/
theorem tanhA_eq {N M : Nat} (y : FVec Ideal ⟨2, ![N, M]⟩ .f32) : tanh y = Cert.Spec.tanhA y := rfl

/-- A body that applies the leaky rectifier to the linear part stores the layer with the leaky rectifier. -/
theorem layerPrelu_of_lin {N cin cout : Nat} (x t1 t2 : Cert.Spec.Mat N cin) (w0 w1 w2 : Cert.Spec.Mat cin cout)
    (b : Cert.Spec.Mat 1 cout) (y : FVec Ideal ⟨2, ![N, cout]⟩ .f32) (h : y = Cert.Spec.cheb x t1 t2 w0 w1 w2 b) :
    select (cmpf .oge y (broadcast ⟨2, ![N, cout]⟩ (Scalar.ofBits (F := Ideal) .f32 0x00000000#32))) y
        (mulf (broadcast ⟨2, ![N, cout]⟩ (Scalar.ofBits (F := Ideal) .f32 0x3E4CCCCD#32)) y)
      = Cert.Spec.layerPrelu x t1 t2 w0 w1 w2 b :=
  (prelu_eq y).trans (congrArg Cert.Spec.prelu h)

/-- A body that applies the hyperbolic tangent to the linear part stores the layer with the hyperbolic tangent. -/
theorem layerTanh_of_lin {N cin cout : Nat} (x t1 t2 : Cert.Spec.Mat N cin) (w0 w1 w2 : Cert.Spec.Mat cin cout)
    (b : Cert.Spec.Mat 1 cout) (y : FVec Ideal ⟨2, ![N, cout]⟩ .f32) (h : y = Cert.Spec.cheb x t1 t2 w0 w1 w2 b) :
    tanh y = Cert.Spec.layerTanh x t1 t2 w0 w1 w2 b :=
  (tanhA_eq y).trans (congrArg Cert.Spec.tanhA h)

/-- The leaky rectifier's entry depends on the entry alone. -/
theorem prelu_congr {N M N' M' : Nat} (y : Cert.Spec.Mat N M) (y' : Cert.Spec.Mat N' M') (i : (⟨2, ![N, M]⟩ : Shape).Idx)
    (i' : (⟨2, ![N', M']⟩ : Shape).Idx) (h : y' i' = y i) : Cert.Spec.prelu y' i' = Cert.Spec.prelu y i := by
  unfold Cert.Spec.prelu
  rw [h]

/-- The hyperbolic tangent's entry depends on the entry alone. -/
theorem tanhA_congr {N M N' M' : Nat} (y : Cert.Spec.Mat N M) (y' : Cert.Spec.Mat N' M') (i : (⟨2, ![N, M]⟩ : Shape).Idx)
    (i' : (⟨2, ![N', M']⟩ : Shape).Idx) (h : y' i' = y i) : Cert.Spec.tanhA y' i' = Cert.Spec.tanhA y i := by
  unfold Cert.Spec.tanhA
  rw [h]

/-! ## A row of the layer -/

/-- A row of the layer's linear part depends on that row of the three feature arrays alone: if row p' of each primed
    feature array is row p of the unprimed one, and the weights and the bias agree, then entry (p', q) of the one is
    entry (p, q) of the other. -/
theorem cheb_row {N N' cin cout : Nat} (x t1 t2 : Cert.Spec.Mat N cin) (x' t1' t2' : Cert.Spec.Mat N' cin)
    (w0 w1 w2 w0' w1' w2' : Cert.Spec.Mat cin cout) (b b' : Cert.Spec.Mat 1 cout) (p : Fin N) (p' : Fin N')
    (hx : ∀ k : Fin cin, x' (ValueIdx.ix2 p' k) = x (ValueIdx.ix2 p k))
    (ht1 : ∀ k : Fin cin, t1' (ValueIdx.ix2 p' k) = t1 (ValueIdx.ix2 p k))
    (ht2 : ∀ k : Fin cin, t2' (ValueIdx.ix2 p' k) = t2 (ValueIdx.ix2 p k))
    (hw0 : ∀ i, w0' i = w0 i) (hw1 : ∀ i, w1' i = w1 i) (hw2 : ∀ i, w2' i = w2 i) (hb : ∀ i, b' i = b i) (q : Fin cout) :
    Cert.Spec.cheb x' t1' t2' w0' w1' w2' b' (ValueIdx.ix2 p' q) = Cert.Spec.cheb x t1 t2 w0 w1 w2 b (ValueIdx.ix2 p q) := by
  show FloatOps.addf (F := Ideal) (φ := .f32) (FloatOps.addf (F := Ideal) (φ := .f32) (FloatOps.addf (F := Ideal) (φ := .f32)
        (Cert.Lib.dense x' w0' (ValueIdx.ix2 p' q)) (Cert.Lib.dense t1' w1' (ValueIdx.ix2 p' q))) (Cert.Lib.dense t2' w2' (ValueIdx.ix2 p' q)))
        (b' (ValueIdx.ix2 (⟨0, Nat.one_pos⟩ : Fin 1) q))
      = FloatOps.addf (F := Ideal) (φ := .f32) (FloatOps.addf (F := Ideal) (φ := .f32) (FloatOps.addf (F := Ideal) (φ := .f32)
        (Cert.Lib.dense x w0 (ValueIdx.ix2 p q)) (Cert.Lib.dense t1 w1 (ValueIdx.ix2 p q))) (Cert.Lib.dense t2 w2 (ValueIdx.ix2 p q)))
        (b (ValueIdx.ix2 (⟨0, Nat.one_pos⟩ : Fin 1) q))
  rw [Cert.Lib.dense_row x x' w0 w0' p p' hx hw0 q, Cert.Lib.dense_row t1 t1' w1 w1' p p' ht1 hw1 q,
    Cert.Lib.dense_row t2 t2' w2 w2' p p' ht2 hw2 q, hb]

/-- The same at two entries given by their indices: entry i' of the primed linear part is entry i of the unprimed one
    when the columns agree and row (i' 0) of each primed feature array is row (i 0) of the unprimed one. -/
theorem cheb_at {N N' cin cout : Nat} (x t1 t2 : Cert.Spec.Mat N cin) (x' t1' t2' : Cert.Spec.Mat N' cin)
    (w0 w1 w2 w0' w1' w2' : Cert.Spec.Mat cin cout) (b b' : Cert.Spec.Mat 1 cout)
    (i : (⟨2, ![N, cout]⟩ : Shape).Idx) (i' : (⟨2, ![N', cout]⟩ : Shape).Idx)
    (hx : ∀ k : Fin cin, x' (ValueIdx.ix2 (i' 0) k) = x (ValueIdx.ix2 (i 0) k))
    (ht1 : ∀ k : Fin cin, t1' (ValueIdx.ix2 (i' 0) k) = t1 (ValueIdx.ix2 (i 0) k))
    (ht2 : ∀ k : Fin cin, t2' (ValueIdx.ix2 (i' 0) k) = t2 (ValueIdx.ix2 (i 0) k))
    (hw0 : ∀ i, w0' i = w0 i) (hw1 : ∀ i, w1' i = w1 i) (hw2 : ∀ i, w2' i = w2 i) (hb : ∀ i, b' i = b i)
    (hq : (i' 1).val = (i 1).val) :
    Cert.Spec.cheb x' t1' t2' w0' w1' w2' b' i' = Cert.Spec.cheb x t1 t2 w0 w1 w2 b i := by
  have e' : i' = ValueIdx.ix2 (i' 0) (i 1) := Shape.idx_ext₂ rfl hq
  exact (congrArg (Cert.Spec.cheb x' t1' t2' w0' w1' w2' b') e').trans
    ((cheb_row x t1 t2 x' t1' t2' w0 w1 w2 w0' w1' w2' b b' (i 0) (i' 0) hx ht1 ht2 hw0 hw1 hw2 hb (i 1)).trans
      (congrArg (Cert.Spec.cheb x t1 t2 w0 w1 w2 b) (ValueIdx.eq_ix2 i).symm))

/-- … and so does a row of the layer with the leaky rectifier … -/
theorem layerPrelu_row {N N' cin cout : Nat} (x t1 t2 : Cert.Spec.Mat N cin) (x' t1' t2' : Cert.Spec.Mat N' cin)
    (w0 w1 w2 w0' w1' w2' : Cert.Spec.Mat cin cout) (b b' : Cert.Spec.Mat 1 cout)
    (i : (⟨2, ![N, cout]⟩ : Shape).Idx) (i' : (⟨2, ![N', cout]⟩ : Shape).Idx)
    (hx : ∀ k : Fin cin, x' (ValueIdx.ix2 (i' 0) k) = x (ValueIdx.ix2 (i 0) k))
    (ht1 : ∀ k : Fin cin, t1' (ValueIdx.ix2 (i' 0) k) = t1 (ValueIdx.ix2 (i 0) k))
    (ht2 : ∀ k : Fin cin, t2' (ValueIdx.ix2 (i' 0) k) = t2 (ValueIdx.ix2 (i 0) k))
    (hw0 : ∀ i, w0' i = w0 i) (hw1 : ∀ i, w1' i = w1 i) (hw2 : ∀ i, w2' i = w2 i) (hb : ∀ i, b' i = b i)
    (hq : (i' 1).val = (i 1).val) :
    Cert.Spec.layerPrelu x' t1' t2' w0' w1' w2' b' i' = Cert.Spec.layerPrelu x t1 t2 w0 w1 w2 b i :=
  prelu_congr _ _ _ _ (cheb_at x t1 t2 x' t1' t2' w0 w1 w2 w0' w1' w2' b b' i i' hx ht1 ht2 hw0 hw1 hw2 hb hq)

/-- … and of the layer with the hyperbolic tangent. -/
theorem layerTanh_row {N N' cin cout : Nat} (x t1 t2 : Cert.Spec.Mat N cin) (x' t1' t2' : Cert.Spec.Mat N' cin)
    (w0 w1 w2 w0' w1' w2' : Cert.Spec.Mat cin cout) (b b' : Cert.Spec.Mat 1 cout)
    (i : (⟨2, ![N, cout]⟩ : Shape).Idx) (i' : (⟨2, ![N', cout]⟩ : Shape).Idx)
    (hx : ∀ k : Fin cin, x' (ValueIdx.ix2 (i' 0) k) = x (ValueIdx.ix2 (i 0) k))
    (ht1 : ∀ k : Fin cin, t1' (ValueIdx.ix2 (i' 0) k) = t1 (ValueIdx.ix2 (i 0) k))
    (ht2 : ∀ k : Fin cin, t2' (ValueIdx.ix2 (i' 0) k) = t2 (ValueIdx.ix2 (i 0) k))
    (hw0 : ∀ i, w0' i = w0 i) (hw1 : ∀ i, w1' i = w1 i) (hw2 : ∀ i, w2' i = w2 i) (hb : ∀ i, b' i = b i)
    (hq : (i' 1).val = (i 1).val) :
    Cert.Spec.layerTanh x' t1' t2' w0' w1' w2' b' i' = Cert.Spec.layerTanh x t1 t2 w0 w1 w2 b i :=
  tanhA_congr _ _ _ _ (cheb_at x t1 t2 x' t1' t2' w0 w1 w2 w0' w1' w2' b b' i i' hx ht1 ht2 hw0 hw1 hw2 hb hq)

end Cert.KernelIdeal.Hand

end
-- ==== Proof.KernelIdeal.LayerVal0.lean ====
/-
  What region 0 leaves in its output array, at the exact-real reading: every block of 2000 rows written back is that
  block of ONE whole-array function of the arrays the region is entered from — one layer (three matrix products, the
  bias row, the activation) —, and the 50 blocks tile the array.

  The body's stored value is the layer function of its seven loaded blocks. Row y of the block at point t is row
  2000 t + y of each feature array and of the output array, and the weights' and the bias's blocks are their arrays; a
  row of the layer depends on that row of the three feature arrays alone. So what point t writes back is block t of the
  layer of the whole arrays, and every row lies in the block of its quotient by 2000.
-/
import proofs.«417683_j790273983042_2_alg».proof.Proof.KernelIdeal.Layer0
import proofs.«417683_j790273983042_2_alg».proof.Proof.KernelIdeal.LayerValLib
import proofs.«417683_j790273983042_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-! ## The body's value on one block -/

/-- The body's stored value is the layer function of its seven loaded blocks. -/
theorem pay_eq0 (x0 x1 x2 : Vec Ideal S2000x3 .f32) (w0 w1 w2 : Vec Ideal S3x16 .f32) (b : Vec Ideal S1x16 .f32) :
    k0_pay1 x0 x1 x2 w0 w1 w2 b = Cert.Spec.layerPrelu x0 x1 x2 w0 w1 w2 b := by
  unfold k0_pay1
  simp only [shapeCast_self]
  exact layerPrelu_of_lin x0 x1 x2 w0 w1 w2 b _
    (lin_eq dot_S2000x3_S3x16_S2000x16_1_0_0_1_n_n rfl rfl rfl rfl rfl rfl none bitsLt_bf16_f32 broadcasts_S1x16_S2000x16 x0 x1 x2 w0 w1 w2 b)

/-! ## The blocks as rows of their arrays -/

theorem hz0 : (![0, 0] : Fin 2 → Nat) = fun _ => 0 := funext fun a => by fin_cases a <;> rfl

/-- The printed index maps, decided over the grid: a row block's index is the point on the row axis and zero on the
    column axis; the weights' and the bias's blocks never move. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

set_option maxHeartbeats 400000 in
/-- An entry of feature window 0's block at point t is the entry of its array 2000 t rows further down. -/
theorem row_read0_0 (c : Dev nD) (t : Fin cfg0.N) (x : S2000x3.Idx) (i : S100000x3.Idx)
    (h0 : (i 0).val = t.val * 2000 + (x 0).val) (h1 : (i 1).val = (x 1).val) : iblk0 V c 0 t x = V c main_arg0 i := by
  have e := (idx_facts0 t).1
  unfold iblk0
  rw [View.read_apply]
  show V c main_arg0 _ = V c main_arg0 _
  refine congrArg (V c main_arg0) (funext fun a => Fin.ext ?_)
  match a with
  | ⟨0, _⟩ =>
    refine (win0_0.rect_emb_val t x 0).trans ?_
    rw [e.1]; exact h0.symm
  | ⟨1, _⟩ => exact (win0_0.rect_emb_val_of_index_zero t 1 e.2 x).trans h1.symm

set_option maxHeartbeats 400000 in
/-- An entry of feature window 1's block at point t is the entry of its array 2000 t rows further down. -/
theorem row_read0_1 (c : Dev nD) (t : Fin cfg0.N) (x : S2000x3.Idx) (i : S100000x3.Idx)
    (h0 : (i 0).val = t.val * 2000 + (x 0).val) (h1 : (i 1).val = (x 1).val) : iblk0 V c 1 t x = V c main_v42 i := by
  have e := (idx_facts0 t).2.1
  unfold iblk0
  rw [View.read_apply]
  show V c main_v42 _ = V c main_v42 _
  refine congrArg (V c main_v42) (funext fun a => Fin.ext ?_)
  match a with
  | ⟨0, _⟩ =>
    refine (win0_1.rect_emb_val t x 0).trans ?_
    rw [e.1]; exact h0.symm
  | ⟨1, _⟩ => exact (win0_1.rect_emb_val_of_index_zero t 1 e.2 x).trans h1.symm

set_option maxHeartbeats 400000 in
/-- An entry of feature window 2's block at point t is the entry of its array 2000 t rows further down. -/
theorem row_read0_2 (c : Dev nD) (t : Fin cfg0.N) (x : S2000x3.Idx) (i : S100000x3.Idx)
    (h0 : (i 0).val = t.val * 2000 + (x 0).val) (h1 : (i 1).val = (x 1).val) : iblk0 V c 2 t x = V c main_v58 i := by
  have e := (idx_facts0 t).2.2.1
  unfold iblk0
  rw [View.read_apply]
  show V c main_v58 _ = V c main_v58 _
  refine congrArg (V c main_v58) (funext fun a => Fin.ext ?_)
  match a with
  | ⟨0, _⟩ =>
    refine (win0_2.rect_emb_val t x 0).trans ?_
    rw [e.1]; exact h0.symm
  | ⟨1, _⟩ => exact (win0_2.rect_emb_val_of_index_zero t 1 e.2 x).trans h1.symm

set_option maxHeartbeats 400000 in
/-- Weight window 3's block at every point is its array. -/
theorem whole_read0_3 (c : Dev nD) (t : Fin cfg0.N) (i : S3x16.Idx) : iblk0 V c 3 t i = V c main_v60 i := by
  have e := (idx_facts0 t).2.2.2.1
  unfold iblk0
  rw [View.read_apply]
  show V c main_v60 _ = V c main_v60 _
  refine congrArg (V c main_v60) (funext fun a => Fin.ext ?_)
  match a with
  | ⟨0, _⟩ => exact win0_3.rect_emb_val_of_index_zero t 0 e.1 i
  | ⟨1, _⟩ => exact win0_3.rect_emb_val_of_index_zero t 1 e.2 i

set_option maxHeartbeats 400000 in
/-- Weight window 4's block at every point is its array. -/
theorem whole_read0_4 (c : Dev nD) (t : Fin cfg0.N) (i : S3x16.Idx) : iblk0 V c 4 t i = V c main_v62 i := by
  have e := (idx_facts0 t).2.2.2.2.1
  unfold iblk0
  rw [View.read_apply]
  show V c main_v62 _ = V c main_v62 _
  refine congrArg (V c main_v62) (funext fun a => Fin.ext ?_)
  match a with
  | ⟨0, _⟩ => exact win0_4.rect_emb_val_of_index_zero t 0 e.1 i
  | ⟨1, _⟩ => exact win0_4.rect_emb_val_of_index_zero t 1 e.2 i

set_option maxHeartbeats 400000 in
/-- Weight window 5's block at every point is its array. -/
theorem whole_read0_5 (c : Dev nD) (t : Fin cfg0.N) (i : S3x16.Idx) : iblk0 V c 5 t i = V c main_v64 i := by
  have e := (idx_facts0 t).2.2.2.2.2.1
  unfold iblk0
  rw [View.read_apply]
  show V c main_v64 _ = V c main_v64 _
  refine congrArg (V c main_v64) (funext fun a => Fin.ext ?_)
  match a with
  | ⟨0, _⟩ => exact win0_5.rect_emb_val_of_index_zero t 0 e.1 i
  | ⟨1, _⟩ => exact win0_5.rect_emb_val_of_index_zero t 1 e.2 i

set_option maxHeartbeats 400000 in
/-- The bias window 6's block at every point is its array. -/
theorem whole_read0_6 (c : Dev nD) (t : Fin cfg0.N) (i : S1x16.Idx) : iblk0 V c 6 t i = V c main_v65 i := by
  have e := (idx_facts0 t).2.2.2.2.2.2.1
  unfold iblk0
  rw [View.read_apply]
  show V c main_v65 _ = V c main_v65 _
  refine congrArg (V c main_v65) (funext fun a => Fin.ext ?_)
  match a with
  | ⟨0, _⟩ => exact win0_6.rect_emb_val_of_index_zero t 0 e.1 i
  | ⟨1, _⟩ => exact win0_6.rect_emb_val_of_index_zero t 1 e.2 i

/-! ## What a point writes back, and the array after the run -/

/-- The output array after the run: the layer of the seven arrays the region is entered from. -/
abbrev G0 (c : Dev nD) : S100000x16.Idx → EReal :=
  Cert.Spec.layerPrelu (V c main_arg0) (V c main_v42) (V c main_v58) (V c main_v60) (V c main_v62) (V c main_v64) (V c main_v65)

/-- An entry of the layer of the blocks at point t is the entry of the layer of the arrays 2000 t rows further down. -/
theorem G0_block (c : Dev nD) (t : Fin cfg0.N) (y : S2000x16.Idx) (i : S100000x16.Idx)
    (h0 : (i 0).val = t.val * 2000 + (y 0).val) (h1 : (i 1).val = (y 1).val) :
    Cert.Spec.layerPrelu (iblk0 V c 0 t) (iblk0 V c 1 t) (iblk0 V c 2 t) (iblk0 V c 3 t) (iblk0 V c 4 t) (iblk0 V c 5 t)
        (iblk0 V c 6 t) y = G0 V c i :=
  layerPrelu_row _ _ _ _ _ _ _ _ _ _ _ _ _ _ i y
    (fun k => row_read0_0 V c t _ _ h0 rfl) (fun k => row_read0_1 V c t _ _ h0 rfl) (fun k => row_read0_2 V c t _ _ h0 rfl)
    (whole_read0_3 V c t) (whole_read0_4 V c t) (whole_read0_5 V c t) (whole_read0_6 V c t) h1.symm

set_option maxHeartbeats 400000 in
/-- WHAT POINT t WRITES BACK is block t of the layer of the arrays as the region finds them. -/
theorem flushed_eq0 (c : Dev nD) (t : Fin cfg0.N) :
    (dat0 (F := Ideal) V c).flushed 7 t = ((cfg0.win 7).blk t).view.read (Elt Ideal) (G0 V c) := by
  show (cfg0.win 7).cut (grid0.coords t) ((dat0 V c).after 7 t) = _
  rw [after0_7]
  unfold out0_7
  rw [View.canon_unit_zero hz0]
  simp only [View.ld_unit_zero (S := S2000x3) hz0, View.ld_unit_zero (S := S3x16) hz0, View.ld_unit_zero (S := S1x16) hz0]
  rw [pay_eq0]
  have e := (idx_facts0 t).2.2.2.2.2.2.2
  funext j
  rw [View.read_apply]
  refine G0_block V c t ((cfg0.win 7).xinj (grid0.coords t) j) (((cfg0.win 7).blk t).view.emb j) ?_ ?_
  · refine (win0_7.rect_emb_val t j 0).trans ?_
    rw [e.1]; rfl
  · exact win0_7.rect_emb_val_of_index_zero t 1 e.2 j

/-- An index of the array is in point t's block iff each coordinate is in the block's range on its axis. -/
theorem mem_blk0 (t : Fin cfg0.N) (i : S100000x16.Idx) :
    i ∈ ((cfg0.win 7).blk t).view.set
      ↔ ∀ a : Fin 2, win0_7.index t a * S2000x16.size a ≤ (i a).val ∧ (i a).val < win0_7.index t a * S2000x16.size a + S2000x16.size a := by
  have hs : ((cfg0.win 7).blk t).view.set = (win0_7.rect t).set := View.set_slice_whole _ _
  rw [hs, Rect.mem_set_unit]
  exact Iff.rfl

/-- THE COVER: every row lies in the block of its quotient by 2000. -/
theorem cover_arr0 (i : S100000x16.Idx) : ∃ t : Fin cfg0.N, (cfg0.win 7).flush t = true ∧ i ∈ ((cfg0.win 7).blk t).view.set := by
  have hi0 : (i 0).val < 100000 := (i 0).isLt
  have hN : (i 0).val / 2000 < cfg0.N := by rw [show cfg0.N = 50 from N_0]; omega
  have e := (idx_facts0 ⟨(i 0).val / 2000, hN⟩).2.2.2.2.2.2.2
  refine ⟨⟨(i 0).val / 2000, hN⟩, flush0_7 _, ?_⟩
  rw [mem_blk0]
  intro a
  match a with
  | ⟨0, _⟩ =>
    show win0_7.index ⟨(i 0).val / 2000, hN⟩ (0 : Fin 2) * 2000 ≤ (i 0).val
      ∧ (i 0).val < win0_7.index ⟨(i 0).val / 2000, hN⟩ (0 : Fin 2) * 2000 + 2000
    rw [e.1]; show (i 0).val / 2000 * 2000 ≤ (i 0).val ∧ (i 0).val < (i 0).val / 2000 * 2000 + 2000; omega
  | ⟨1, _⟩ =>
    show win0_7.index ⟨(i 0).val / 2000, hN⟩ (1 : Fin 2) * S2000x16.size 1 ≤ (i 1).val
      ∧ (i 1).val < win0_7.index ⟨(i 0).val / 2000, hN⟩ (1 : Fin 2) * S2000x16.size 1 + S2000x16.size 1
    rw [e.2, Nat.zero_mul, Nat.zero_add]
    exact ⟨Nat.zero_le _, (i 1).isLt⟩

/-- The output array after region 0 is the layer function of the region's input arrays. -/
theorem final0 (c : Dev nD) :
    (dat0 (F := Ideal) V c).arrAt 7 cfg0.N
      = Cert.Spec.layerPrelu (V c main_arg0) (V c main_v42) (V c main_v58) (V c main_v60) (V c main_v62) (V c main_v64) (V c main_v65) :=
  (dat0 (F := Ideal) V c).arrAt_eq_of_cover 7 (G0 V c) (fun t _ => flushed_eq0 V c t) cover_arr0

end Cert.KernelIdeal.Hand

end
-- ==== Proof.KernelIdeal.LayerVal1.lean ====
/-
  What region 1 leaves in its output array, at the exact-real reading: every block of 2000 rows written back is that
  block of ONE whole-array function of the arrays the region is entered from — one layer (three matrix products, the
  bias row, the activation) —, and the 50 blocks tile the array.

  The body's stored value is the layer function of its seven loaded blocks. Row y of the block at point t is row
  2000 t + y of each feature array and of the output array, and the weights' and the bias's blocks are their arrays; a
  row of the layer depends on that row of the three feature arrays alone. So what point t writes back is block t of the
  layer of the whole arrays, and every row lies in the block of its quotient by 2000.
-/
import proofs.«417683_j790273983042_2_alg».proof.Proof.KernelIdeal.Layer1
import proofs.«417683_j790273983042_2_alg».proof.Proof.KernelIdeal.LayerValLib
import proofs.«417683_j790273983042_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-! ## The body's value on one block -/

/-- The body's stored value is the layer function of its seven loaded blocks. -/
theorem pay_eq1 (x0 x1 x2 : Vec Ideal S2000x16 .f32) (w0 w1 w2 : Vec Ideal S16x32 .f32) (b : Vec Ideal S1x32 .f32) :
    k1_pay1 x0 x1 x2 w0 w1 w2 b = Cert.Spec.layerPrelu x0 x1 x2 w0 w1 w2 b := by
  unfold k1_pay1
  simp only [shapeCast_self]
  exact layerPrelu_of_lin x0 x1 x2 w0 w1 w2 b _
    (lin_eq dot_S2000x16_S16x32_S2000x32_1_0_0_1_n_n rfl rfl rfl rfl rfl rfl none bitsLt_bf16_f32 broadcasts_S1x32_S2000x32 x0 x1 x2 w0 w1 w2 b)

/-! ## The blocks as rows of their arrays -/

theorem hz1 : (![0, 0] : Fin 2 → Nat) = fun _ => 0 := funext fun a => by fin_cases a <;> rfl

/-- The printed index maps, decided over the grid: a row block's index is the point on the row axis and zero on the
    column axis; the weights' and the bias's blocks never move. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

set_option maxHeartbeats 400000 in
/-- An entry of feature window 0's block at point t is the entry of its array 2000 t rows further down. -/
theorem row_read1_0 (c : Dev nD) (t : Fin cfg1.N) (x : S2000x16.Idx) (i : S100000x16.Idx)
    (h0 : (i 0).val = t.val * 2000 + (x 0).val) (h1 : (i 1).val = (x 1).val) : iblk1 V c 0 t x = V c main_v66 i := by
  have e := (idx_facts1 t).1
  unfold iblk1
  rw [View.read_apply]
  show V c main_v66 _ = V c main_v66 _
  refine congrArg (V c main_v66) (funext fun a => Fin.ext ?_)
  match a with
  | ⟨0, _⟩ =>
    refine (win1_0.rect_emb_val t x 0).trans ?_
    rw [e.1]; exact h0.symm
  | ⟨1, _⟩ => exact (win1_0.rect_emb_val_of_index_zero t 1 e.2 x).trans h1.symm

set_option maxHeartbeats 400000 in
/-- An entry of feature window 1's block at point t is the entry of its array 2000 t rows further down. -/
theorem row_read1_1 (c : Dev nD) (t : Fin cfg1.N) (x : S2000x16.Idx) (i : S100000x16.Idx)
    (h0 : (i 0).val = t.val * 2000 + (x 0).val) (h1 : (i 1).val = (x 1).val) : iblk1 V c 1 t x = V c main_v79 i := by
  have e := (idx_facts1 t).2.1
  unfold iblk1
  rw [View.read_apply]
  show V c main_v79 _ = V c main_v79 _
  refine congrArg (V c main_v79) (funext fun a => Fin.ext ?_)
  match a with
  | ⟨0, _⟩ =>
    refine (win1_1.rect_emb_val t x 0).trans ?_
    rw [e.1]; exact h0.symm
  | ⟨1, _⟩ => exact (win1_1.rect_emb_val_of_index_zero t 1 e.2 x).trans h1.symm

set_option maxHeartbeats 400000 in
/-- An entry of feature window 2's block at point t is the entry of its array 2000 t rows further down. -/
theorem row_read1_2 (c : Dev nD) (t : Fin cfg1.N) (x : S2000x16.Idx) (i : S100000x16.Idx)
    (h0 : (i 0).val = t.val * 2000 + (x 0).val) (h1 : (i 1).val = (x 1).val) : iblk1 V c 2 t x = V c main_v95 i := by
  have e := (idx_facts1 t).2.2.1
  unfold iblk1
  rw [View.read_apply]
  show V c main_v95 _ = V c main_v95 _
  refine congrArg (V c main_v95) (funext fun a => Fin.ext ?_)
  match a with
  | ⟨0, _⟩ =>
    refine (win1_2.rect_emb_val t x 0).trans ?_
    rw [e.1]; exact h0.symm
  | ⟨1, _⟩ => exact (win1_2.rect_emb_val_of_index_zero t 1 e.2 x).trans h1.symm

set_option maxHeartbeats 400000 in
/-- Weight window 3's block at every point is its array. -/
theorem whole_read1_3 (c : Dev nD) (t : Fin cfg1.N) (i : S16x32.Idx) : iblk1 V c 3 t i = V c main_v97 i := by
  have e := (idx_facts1 t).2.2.2.1
  unfold iblk1
  rw [View.read_apply]
  show V c main_v97 _ = V c main_v97 _
  refine congrArg (V c main_v97) (funext fun a => Fin.ext ?_)
  match a with
  | ⟨0, _⟩ => exact win1_3.rect_emb_val_of_index_zero t 0 e.1 i
  | ⟨1, _⟩ => exact win1_3.rect_emb_val_of_index_zero t 1 e.2 i

set_option maxHeartbeats 400000 in
/-- Weight window 4's block at every point is its array. -/
theorem whole_read1_4 (c : Dev nD) (t : Fin cfg1.N) (i : S16x32.Idx) : iblk1 V c 4 t i = V c main_v99 i := by
  have e := (idx_facts1 t).2.2.2.2.1
  unfold iblk1
  rw [View.read_apply]
  show V c main_v99 _ = V c main_v99 _
  refine congrArg (V c main_v99) (funext fun a => Fin.ext ?_)
  match a with
  | ⟨0, _⟩ => exact win1_4.rect_emb_val_of_index_zero t 0 e.1 i
  | ⟨1, _⟩ => exact win1_4.rect_emb_val_of_index_zero t 1 e.2 i

set_option maxHeartbeats 400000 in
/-- Weight window 5's block at every point is its array. -/
theorem whole_read1_5 (c : Dev nD) (t : Fin cfg1.N) (i : S16x32.Idx) : iblk1 V c 5 t i = V c main_v101 i := by
  have e := (idx_facts1 t).2.2.2.2.2.1
  unfold iblk1
  rw [View.read_apply]
  show V c main_v101 _ = V c main_v101 _
  refine congrArg (V c main_v101) (funext fun a => Fin.ext ?_)
  match a with
  | ⟨0, _⟩ => exact win1_5.rect_emb_val_of_index_zero t 0 e.1 i
  | ⟨1, _⟩ => exact win1_5.rect_emb_val_of_index_zero t 1 e.2 i

set_option maxHeartbeats 400000 in
/-- The bias window 6's block at every point is its array. -/
theorem whole_read1_6 (c : Dev nD) (t : Fin cfg1.N) (i : S1x32.Idx) : iblk1 V c 6 t i = V c main_v102 i := by
  have e := (idx_facts1 t).2.2.2.2.2.2.1
  unfold iblk1
  rw [View.read_apply]
  show V c main_v102 _ = V c main_v102 _
  refine congrArg (V c main_v102) (funext fun a => Fin.ext ?_)
  match a with
  | ⟨0, _⟩ => exact win1_6.rect_emb_val_of_index_zero t 0 e.1 i
  | ⟨1, _⟩ => exact win1_6.rect_emb_val_of_index_zero t 1 e.2 i

/-! ## What a point writes back, and the array after the run -/

/-- The output array after the run: the layer of the seven arrays the region is entered from. -/
abbrev G1 (c : Dev nD) : S100000x32.Idx → EReal :=
  Cert.Spec.layerPrelu (V c main_v66) (V c main_v79) (V c main_v95) (V c main_v97) (V c main_v99) (V c main_v101) (V c main_v102)

/-- An entry of the layer of the blocks at point t is the entry of the layer of the arrays 2000 t rows further down. -/
theorem G1_block (c : Dev nD) (t : Fin cfg1.N) (y : S2000x32.Idx) (i : S100000x32.Idx)
    (h0 : (i 0).val = t.val * 2000 + (y 0).val) (h1 : (i 1).val = (y 1).val) :
    Cert.Spec.layerPrelu (iblk1 V c 0 t) (iblk1 V c 1 t) (iblk1 V c 2 t) (iblk1 V c 3 t) (iblk1 V c 4 t) (iblk1 V c 5 t)
        (iblk1 V c 6 t) y = G1 V c i :=
  layerPrelu_row _ _ _ _ _ _ _ _ _ _ _ _ _ _ i y
    (fun k => row_read1_0 V c t _ _ h0 rfl) (fun k => row_read1_1 V c t _ _ h0 rfl) (fun k => row_read1_2 V c t _ _ h0 rfl)
    (whole_read1_3 V c t) (whole_read1_4 V c t) (whole_read1_5 V c t) (whole_read1_6 V c t) h1.symm

set_option maxHeartbeats 400000 in
/-- WHAT POINT t WRITES BACK is block t of the layer of the arrays as the region finds them. -/
theorem flushed_eq1 (c : Dev nD) (t : Fin cfg1.N) :
    (dat1 (F := Ideal) V c).flushed 7 t = ((cfg1.win 7).blk t).view.read (Elt Ideal) (G1 V c) := by
  show (cfg1.win 7).cut (grid1.coords t) ((dat1 V c).after 7 t) = _
  rw [after1_7]
  unfold out1_7
  rw [View.canon_unit_zero hz1]
  simp only [View.ld_unit_zero (S := S2000x16) hz1, View.ld_unit_zero (S := S16x32) hz1, View.ld_unit_zero (S := S1x32) hz1]
  rw [pay_eq1]
  have e := (idx_facts1 t).2.2.2.2.2.2.2
  funext j
  rw [View.read_apply]
  refine G1_block V c t ((cfg1.win 7).xinj (grid1.coords t) j) (((cfg1.win 7).blk t).view.emb j) ?_ ?_
  · refine (win1_7.rect_emb_val t j 0).trans ?_
    rw [e.1]; rfl
  · exact win1_7.rect_emb_val_of_index_zero t 1 e.2 j

/-- An index of the array is in point t's block iff each coordinate is in the block's range on its axis. -/
theorem mem_blk1 (t : Fin cfg1.N) (i : S100000x32.Idx) :
    i ∈ ((cfg1.win 7).blk t).view.set
      ↔ ∀ a : Fin 2, win1_7.index t a * S2000x32.size a ≤ (i a).val ∧ (i a).val < win1_7.index t a * S2000x32.size a + S2000x32.size a := by
  have hs : ((cfg1.win 7).blk t).view.set = (win1_7.rect t).set := View.set_slice_whole _ _
  rw [hs, Rect.mem_set_unit]
  exact Iff.rfl

/-- THE COVER: every row lies in the block of its quotient by 2000. -/
theorem cover_arr1 (i : S100000x32.Idx) : ∃ t : Fin cfg1.N, (cfg1.win 7).flush t = true ∧ i ∈ ((cfg1.win 7).blk t).view.set := by
  have hi0 : (i 0).val < 100000 := (i 0).isLt
  have hN : (i 0).val / 2000 < cfg1.N := by rw [show cfg1.N = 50 from N_1]; omega
  have e := (idx_facts1 ⟨(i 0).val / 2000, hN⟩).2.2.2.2.2.2.2
  refine ⟨⟨(i 0).val / 2000, hN⟩, flush1_7 _, ?_⟩
  rw [mem_blk1]
  intro a
  match a with
  | ⟨0, _⟩ =>
    show win1_7.index ⟨(i 0).val / 2000, hN⟩ (0 : Fin 2) * 2000 ≤ (i 0).val
      ∧ (i 0).val < win1_7.index ⟨(i 0).val / 2000, hN⟩ (0 : Fin 2) * 2000 + 2000
    rw [e.1]; show (i 0).val / 2000 * 2000 ≤ (i 0).val ∧ (i 0).val < (i 0).val / 2000 * 2000 + 2000; omega
  | ⟨1, _⟩ =>
    show win1_7.index ⟨(i 0).val / 2000, hN⟩ (1 : Fin 2) * S2000x32.size 1 ≤ (i 1).val
      ∧ (i 1).val < win1_7.index ⟨(i 0).val / 2000, hN⟩ (1 : Fin 2) * S2000x32.size 1 + S2000x32.size 1
    rw [e.2, Nat.zero_mul, Nat.zero_add]
    exact ⟨Nat.zero_le _, (i 1).isLt⟩

/-- The output array after region 1 is the layer function of the region's input arrays. -/
theorem final1 (c : Dev nD) :
    (dat1 (F := Ideal) V c).arrAt 7 cfg1.N
      = Cert.Spec.layerPrelu (V c main_v66) (V c main_v79) (V c main_v95) (V c main_v97) (V c main_v99) (V c main_v101) (V c main_v102) :=
  (dat1 (F := Ideal) V c).arrAt_eq_of_cover 7 (G1 V c) (fun t _ => flushed_eq1 V c t) cover_arr1

end Cert.KernelIdeal.Hand

end
-- ==== Proof.KernelIdeal.LayerVal2.lean ====
/-
  What region 2 leaves in its output array, at the exact-real reading: every block of 2000 rows written back is that
  block of ONE whole-array function of the arrays the region is entered from — one layer (three matrix products, the
  bias row, the activation) —, and the 50 blocks tile the array.

  The body's stored value is the layer function of its seven loaded blocks. Row y of the block at point t is row
  2000 t + y of each feature array and of the output array, and the weights' and the bias's blocks are their arrays; a
  row of the layer depends on that row of the three feature arrays alone. So what point t writes back is block t of the
  layer of the whole arrays, and every row lies in the block of its quotient by 2000.
-/
import proofs.«417683_j790273983042_2_alg».proof.Proof.KernelIdeal.Layer2
import proofs.«417683_j790273983042_2_alg».proof.Proof.KernelIdeal.LayerValLib
import proofs.«417683_j790273983042_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-! ## The body's value on one block -/

/-- The body's stored value is the layer function of its seven loaded blocks. -/
theorem pay_eq2 (x0 x1 x2 : Vec Ideal S2000x32 .f32) (w0 w1 w2 : Vec Ideal S32x64 .f32) (b : Vec Ideal S1x64 .f32) :
    k2_pay1 x0 x1 x2 w0 w1 w2 b = Cert.Spec.layerTanh x0 x1 x2 w0 w1 w2 b := by
  unfold k2_pay1
  simp only [shapeCast_self]
  exact layerTanh_of_lin x0 x1 x2 w0 w1 w2 b _
    (lin_eq dot_S2000x32_S32x64_S2000x64_1_0_0_1_n_n rfl rfl rfl rfl rfl rfl none bitsLt_bf16_f32 broadcasts_S1x64_S2000x64 x0 x1 x2 w0 w1 w2 b)

/-! ## The blocks as rows of their arrays -/

theorem hz2 : (![0, 0] : Fin 2 → Nat) = fun _ => 0 := funext fun a => by fin_cases a <;> rfl

/-- The printed index maps, decided over the grid: a row block's index is the point on the row axis and zero on the
    column axis; the weights' and the bias's blocks never move. -/
theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

set_option maxHeartbeats 400000 in
/-- An entry of feature window 0's block at point t is the entry of its array 2000 t rows further down. -/
theorem row_read2_0 (c : Dev nD) (t : Fin cfg2.N) (x : S2000x32.Idx) (i : S100000x32.Idx)
    (h0 : (i 0).val = t.val * 2000 + (x 0).val) (h1 : (i 1).val = (x 1).val) : iblk2 V c 0 t x = V c main_v103 i := by
  have e := (idx_facts2 t).1
  unfold iblk2
  rw [View.read_apply]
  show V c main_v103 _ = V c main_v103 _
  refine congrArg (V c main_v103) (funext fun a => Fin.ext ?_)
  match a with
  | ⟨0, _⟩ =>
    refine (win2_0.rect_emb_val t x 0).trans ?_
    rw [e.1]; exact h0.symm
  | ⟨1, _⟩ => exact (win2_0.rect_emb_val_of_index_zero t 1 e.2 x).trans h1.symm

set_option maxHeartbeats 400000 in
/-- An entry of feature window 1's block at point t is the entry of its array 2000 t rows further down. -/
theorem row_read2_1 (c : Dev nD) (t : Fin cfg2.N) (x : S2000x32.Idx) (i : S100000x32.Idx)
    (h0 : (i 0).val = t.val * 2000 + (x 0).val) (h1 : (i 1).val = (x 1).val) : iblk2 V c 1 t x = V c main_v116 i := by
  have e := (idx_facts2 t).2.1
  unfold iblk2
  rw [View.read_apply]
  show V c main_v116 _ = V c main_v116 _
  refine congrArg (V c main_v116) (funext fun a => Fin.ext ?_)
  match a with
  | ⟨0, _⟩ =>
    refine (win2_1.rect_emb_val t x 0).trans ?_
    rw [e.1]; exact h0.symm
  | ⟨1, _⟩ => exact (win2_1.rect_emb_val_of_index_zero t 1 e.2 x).trans h1.symm

set_option maxHeartbeats 400000 in
/-- An entry of feature window 2's block at point t is the entry of its array 2000 t rows further down. -/
theorem row_read2_2 (c : Dev nD) (t : Fin cfg2.N) (x : S2000x32.Idx) (i : S100000x32.Idx)
    (h0 : (i 0).val = t.val * 2000 + (x 0).val) (h1 : (i 1).val = (x 1).val) : iblk2 V c 2 t x = V c main_v132 i := by
  have e := (idx_facts2 t).2.2.1
  unfold iblk2
  rw [View.read_apply]
  show V c main_v132 _ = V c main_v132 _
  refine congrArg (V c main_v132) (funext fun a => Fin.ext ?_)
  match a with
  | ⟨0, _⟩ =>
    refine (win2_2.rect_emb_val t x 0).trans ?_
    rw [e.1]; exact h0.symm
  | ⟨1, _⟩ => exact (win2_2.rect_emb_val_of_index_zero t 1 e.2 x).trans h1.symm

set_option maxHeartbeats 400000 in
/-- Weight window 3's block at every point is its array. -/
theorem whole_read2_3 (c : Dev nD) (t : Fin cfg2.N) (i : S32x64.Idx) : iblk2 V c 3 t i = V c main_v134 i := by
  have e := (idx_facts2 t).2.2.2.1
  unfold iblk2
  rw [View.read_apply]
  show V c main_v134 _ = V c main_v134 _
  refine congrArg (V c main_v134) (funext fun a => Fin.ext ?_)
  match a with
  | ⟨0, _⟩ => exact win2_3.rect_emb_val_of_index_zero t 0 e.1 i
  | ⟨1, _⟩ => exact win2_3.rect_emb_val_of_index_zero t 1 e.2 i

set_option maxHeartbeats 400000 in
/-- Weight window 4's block at every point is its array. -/
theorem whole_read2_4 (c : Dev nD) (t : Fin cfg2.N) (i : S32x64.Idx) : iblk2 V c 4 t i = V c main_v136 i := by
  have e := (idx_facts2 t).2.2.2.2.1
  unfold iblk2
  rw [View.read_apply]
  show V c main_v136 _ = V c main_v136 _
  refine congrArg (V c main_v136) (funext fun a => Fin.ext ?_)
  match a with
  | ⟨0, _⟩ => exact win2_4.rect_emb_val_of_index_zero t 0 e.1 i
  | ⟨1, _⟩ => exact win2_4.rect_emb_val_of_index_zero t 1 e.2 i

set_option maxHeartbeats 400000 in
/-- Weight window 5's block at every point is its array. -/
theorem whole_read2_5 (c : Dev nD) (t : Fin cfg2.N) (i : S32x64.Idx) : iblk2 V c 5 t i = V c main_v138 i := by
  have e := (idx_facts2 t).2.2.2.2.2.1
  unfold iblk2
  rw [View.read_apply]
  show V c main_v138 _ = V c main_v138 _
  refine congrArg (V c main_v138) (funext fun a => Fin.ext ?_)
  match a with
  | ⟨0, _⟩ => exact win2_5.rect_emb_val_of_index_zero t 0 e.1 i
  | ⟨1, _⟩ => exact win2_5.rect_emb_val_of_index_zero t 1 e.2 i

set_option maxHeartbeats 400000 in
/-- The bias window 6's block at every point is its array. -/
theorem whole_read2_6 (c : Dev nD) (t : Fin cfg2.N) (i : S1x64.Idx) : iblk2 V c 6 t i = V c main_v139 i := by
  have e := (idx_facts2 t).2.2.2.2.2.2.1
  unfold iblk2
  rw [View.read_apply]
  show V c main_v139 _ = V c main_v139 _
  refine congrArg (V c main_v139) (funext fun a => Fin.ext ?_)
  match a with
  | ⟨0, _⟩ => exact win2_6.rect_emb_val_of_index_zero t 0 e.1 i
  | ⟨1, _⟩ => exact win2_6.rect_emb_val_of_index_zero t 1 e.2 i

/-! ## What a point writes back, and the array after the run -/

/-- The output array after the run: the layer of the seven arrays the region is entered from. -/
abbrev G2 (c : Dev nD) : S100000x64.Idx → EReal :=
  Cert.Spec.layerTanh (V c main_v103) (V c main_v116) (V c main_v132) (V c main_v134) (V c main_v136) (V c main_v138) (V c main_v139)

/-- An entry of the layer of the blocks at point t is the entry of the layer of the arrays 2000 t rows further down. -/
theorem G2_block (c : Dev nD) (t : Fin cfg2.N) (y : S2000x64.Idx) (i : S100000x64.Idx)
    (h0 : (i 0).val = t.val * 2000 + (y 0).val) (h1 : (i 1).val = (y 1).val) :
    Cert.Spec.layerTanh (iblk2 V c 0 t) (iblk2 V c 1 t) (iblk2 V c 2 t) (iblk2 V c 3 t) (iblk2 V c 4 t) (iblk2 V c 5 t)
        (iblk2 V c 6 t) y = G2 V c i :=
  layerTanh_row _ _ _ _ _ _ _ _ _ _ _ _ _ _ i y
    (fun k => row_read2_0 V c t _ _ h0 rfl) (fun k => row_read2_1 V c t _ _ h0 rfl) (fun k => row_read2_2 V c t _ _ h0 rfl)
    (whole_read2_3 V c t) (whole_read2_4 V c t) (whole_read2_5 V c t) (whole_read2_6 V c t) h1.symm

set_option maxHeartbeats 400000 in
/-- WHAT POINT t WRITES BACK is block t of the layer of the arrays as the region finds them. -/
theorem flushed_eq2 (c : Dev nD) (t : Fin cfg2.N) :
    (dat2 (F := Ideal) V c).flushed 7 t = ((cfg2.win 7).blk t).view.read (Elt Ideal) (G2 V c) := by
  show (cfg2.win 7).cut (grid2.coords t) ((dat2 V c).after 7 t) = _
  rw [after2_7]
  unfold out2_7
  rw [View.canon_unit_zero hz2]
  simp only [View.ld_unit_zero (S := S2000x32) hz2, View.ld_unit_zero (S := S32x64) hz2, View.ld_unit_zero (S := S1x64) hz2]
  rw [pay_eq2]
  have e := (idx_facts2 t).2.2.2.2.2.2.2
  funext j
  rw [View.read_apply]
  refine G2_block V c t ((cfg2.win 7).xinj (grid2.coords t) j) (((cfg2.win 7).blk t).view.emb j) ?_ ?_
  · refine (win2_7.rect_emb_val t j 0).trans ?_
    rw [e.1]; rfl
  · exact win2_7.rect_emb_val_of_index_zero t 1 e.2 j

/-- An index of the array is in point t's block iff each coordinate is in the block's range on its axis. -/
theorem mem_blk2 (t : Fin cfg2.N) (i : S100000x64.Idx) :
    i ∈ ((cfg2.win 7).blk t).view.set
      ↔ ∀ a : Fin 2, win2_7.index t a * S2000x64.size a ≤ (i a).val ∧ (i a).val < win2_7.index t a * S2000x64.size a + S2000x64.size a := by
  have hs : ((cfg2.win 7).blk t).view.set = (win2_7.rect t).set := View.set_slice_whole _ _
  rw [hs, Rect.mem_set_unit]
  exact Iff.rfl

/-- THE COVER: every row lies in the block of its quotient by 2000. -/
theorem cover_arr2 (i : S100000x64.Idx) : ∃ t : Fin cfg2.N, (cfg2.win 7).flush t = true ∧ i ∈ ((cfg2.win 7).blk t).view.set := by
  have hi0 : (i 0).val < 100000 := (i 0).isLt
  have hN : (i 0).val / 2000 < cfg2.N := by rw [show cfg2.N = 50 from N_2]; omega
  have e := (idx_facts2 ⟨(i 0).val / 2000, hN⟩).2.2.2.2.2.2.2
  refine ⟨⟨(i 0).val / 2000, hN⟩, flush2_7 _, ?_⟩
  rw [mem_blk2]
  intro a
  match a with
  | ⟨0, _⟩ =>
    show win2_7.index ⟨(i 0).val / 2000, hN⟩ (0 : Fin 2) * 2000 ≤ (i 0).val
      ∧ (i 0).val < win2_7.index ⟨(i 0).val / 2000, hN⟩ (0 : Fin 2) * 2000 + 2000
    rw [e.1]; show (i 0).val / 2000 * 2000 ≤ (i 0).val ∧ (i 0).val < (i 0).val / 2000 * 2000 + 2000; omega
  | ⟨1, _⟩ =>
    show win2_7.index ⟨(i 0).val / 2000, hN⟩ (1 : Fin 2) * S2000x64.size 1 ≤ (i 1).val
      ∧ (i 1).val < win2_7.index ⟨(i 0).val / 2000, hN⟩ (1 : Fin 2) * S2000x64.size 1 + S2000x64.size 1
    rw [e.2, Nat.zero_mul, Nat.zero_add]
    exact ⟨Nat.zero_le _, (i 1).isLt⟩

/-- The output array after region 2 is the layer function of the region's input arrays. -/
theorem final2 (c : Dev nD) :
    (dat2 (F := Ideal) V c).arrAt 7 cfg2.N
      = Cert.Spec.layerTanh (V c main_v103) (V c main_v116) (V c main_v132) (V c main_v134) (V c main_v136) (V c main_v138) (V c main_v139) :=
  (dat2 (F := Ideal) V c).arrAt_eq_of_cover 7 (G2 V c) (fun t _ => flushed_eq2 V c t) cover_arr2

end Cert.KernelIdeal.Hand

end
-- ==== Proof.KernelIdeal.PoolVal.lean ====
/-
  What region 3 leaves in the result array, at the exact-real reading: the accumulator after the last of the 50 grid
  points, which is the sum, block after block of 2000 nodes, of the rows of the last layer's output selected by graph
  number — the pooled sum over all 100000 nodes.

  The step at one point adds to the accumulator the product of a 256 x 2000 selection matrix (entry (g, q) is 1 when
  row q of the block carries graph number g, else 0) with the block's 2000 x 64 rows; on extended reals 1 · x = x and
  0 · x = 0 for every x, so entry (g, k) of the product is the sum of the k-th entries of the block's rows that carry g.
  By induction over the points the accumulator after point n sums the first n + 1 blocks, and 50 blocks of 2000 rows
  are the 100000 rows of the arrays.
-/
import proofs.«417683_j790273983042_2_alg».proof.Proof.KernelIdeal.PoolDat
import proofs.«417683_j790273983042_2_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Logic.Equiv.Fin.Basic
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

namespace Pool3

/-! ## One accumulation step, read at an entry -/

/-- A column broadcast along rows. -/
theorem bcast_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A word equals the word of a small number iff its signed reading is that number. -/
theorem word_eq_iff (x : BitVec 32) (g : ℕ) (hg : g < 256) : x = BitVec.ofNat 32 g ↔ x.toInt = (g : Int) := by
  have hw : (BitVec.ofNat 32 g).toInt = (g : Int) := by
    have h1 : (BitVec.ofNat 32 g).toNat = g := by rw [BitVec.toNat_ofNat]; omega
    rw [BitVec.toInt_eq_toNat_of_lt (by rw [h1]; omega), h1]
  constructor
  · rintro rfl
    exact hw
  · intro h
    apply BitVec.eq_of_toInt_eq
    rw [h, hw]

/-- The selection matrix of a block of graph numbers: entry (g, q) is 1 when row q of the block carries the number g, else 0. -/
def oneHot (b : Vec Ideal S2000x1 .i32) : FVec Ideal S256x2000 .f32 :=
  transpose S256x2000 [1, 0] (sitofp (F := Ideal) .f32 (extui 32 (cmpi .eq (broadcastTo S2000x256 b broadcasts_S2000x1_S2000x256) (iota .tc S2000x256 32 [1] iota_S2000x256_d1_w32)) natLt_1_32)) transposes_S2000x256_p1_0_S256x2000

/-- The selection matrix read at an entry. -/
theorem oneHot_apply (b : Vec Ideal S2000x1 .i32) (g : Fin 256) (q : Fin 2000) :
    oneHot b (ix2 g q) = if (b (ix2 q 0)).toInt = (g.val : Int) then (1 : EReal) else 0 := by
  unfold oneHot
  rw [transpose_ix2_apply, sitofp_apply, extui_apply]
  show FloatOps.sitofp (F := Ideal) .f32 ((IntOp.cmpi .eq (broadcastTo S2000x256 b broadcasts_S2000x1_S2000x256 (ix2 q g)) (iota .tc S2000x256 32 [1] iota_S2000x256_d1_w32 (ix2 q g))).setWidth 32) = _
  rw [bcast_col_apply, iota_single_apply]
  show (((((BitVec.ofBool (b (ix2 q 0) == BitVec.ofNat 32 g.val)).setWidth 32).toInt : ℝ) : EReal)) = _
  by_cases hx : b (ix2 q 0) = BitVec.ofNat 32 g.val
  · rw [if_pos ((word_eq_iff _ _ g.isLt).1 hx), hx]
    simp
  · rw [if_neg (fun h => hx ((word_eq_iff _ _ g.isLt).2 h))]
    have : (b (ix2 q 0) == BitVec.ofNat 32 g.val) = false := by simpa using hx
    rw [this]
    simp

/-- The accumulation step at an entry: what was there plus the rows of the block that carry the entry's graph number. -/
theorem pay2_apply (b : Vec Ideal S2000x1 .i32) (h : Vec Ideal S2000x64 .f32) (a : Vec Ideal S256x64 .f32) (g : Fin 256) (k : Fin 64) :
    k3_pay2 b h a (ix2 g k) = a (ix2 g k) + ∑ q : Fin 2000, if (b (ix2 q 0)).toInt = (g.val : Int) then h (ix2 q k) else 0 := by
  unfold k3_pay2
  simp only [shapeCast_self]
  rw [addf_apply]
  show a (ix2 g k) + matmul dot_S256x2000_S2000x64_S256x64_1_0_0_1_n_n none (truncf .bf16 (oneHot b) bitsLt_bf16_f32) (truncf .bf16 h bitsLt_bf16_f32) (constant S256x64 .f32 0x00000000#32) (ix2 g k) = _
  rw [show matmul dot_S256x2000_S2000x64_S256x64_1_0_0_1_n_n none (truncf .bf16 (oneHot b) bitsLt_bf16_f32) (truncf .bf16 h bitsLt_bf16_f32) (constant S256x64 .f32 0x00000000#32) = Cert.Lib.dense (oneHot b) h
      from Cert.Lib.matmul_truncf_eq_dense _ rfl rfl rfl rfl rfl rfl none _ _ _ _, Cert.Lib.dense_apply]
  congr 1
  refine Finset.sum_congr rfl fun q _ => ?_
  show oneHot b (ix2 g q) * h (ix2 q k) = _
  rw [oneHot_apply]
  split
  · exact one_mul _
  · exact zero_mul _

/-- The accumulator's initial contents: zero everywhere. -/
theorem pay1_apply (i : S256x64.Idx) : k3_pay1 (F := Ideal) i = 0 := by
  unfold k3_pay1
  rw [shapeCast_self]
  exact Ideal.ofBits_zero_f32

/-! ## The blocks in their arrays -/

/-- The index maps of region 3, decided over its 50 points: the two inputs move down their arrays one block of rows per
    point, the output's one block stays. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

/-- The region has 50 points. -/
theorem lt50 (t : Fin cfg3.N) : t.val < 50 := lt_of_lt_of_eq t.isLt N_3

/-- Row q of block t is a row of the 100000-row arrays. -/
theorem row_lt (t : Fin cfg3.N) (q : Fin 2000) : t.val * 2000 + q.val < 100000 := by
  have := lt50 t; have := q.isLt; omega

/-- Row q of the block of graph numbers at point t is row t·2000 + q of the array. -/
theorem iblk3_0_apply (c : Dev nD) (t : Fin cfg3.N) (q : Fin 2000) :
    iblk3 (F := Ideal) V c 0 t (ix2 q 0) = V c main_v141 (ix2 ⟨t.val * 2000 + q.val, row_lt t q⟩ 0) := by
  unfold iblk3
  rw [View.read_apply]
  show V c main_v141 _ = _
  congr 1
  funext a; apply Fin.ext
  obtain ⟨e0, e1, e2, e3, e4, e5⟩ := idx_facts3 t
  match a with
  | ⟨0, _⟩ => show win3_0.index t (0 : Fin 2) * 2000 + 1 * q.val = t.val * 2000 + q.val; omega
  | ⟨1, _⟩ => show win3_0.index t (1 : Fin 2) * 1 + 1 * 0 = 0; omega

/-- Row q of the block of rows at point t is row t·2000 + q of the array. -/
theorem iblk3_1_apply (c : Dev nD) (t : Fin cfg3.N) (q : Fin 2000) (k : Fin 64) :
    iblk3 (F := Ideal) V c 1 t (ix2 q k) = V c main_v140 (ix2 ⟨t.val * 2000 + q.val, row_lt t q⟩ k) := by
  unfold iblk3
  rw [View.read_apply]
  show V c main_v140 _ = _
  congr 1
  funext a; apply Fin.ext
  obtain ⟨e0, e1, e2, e3, e4, e5⟩ := idx_facts3 t
  match a with
  | ⟨0, _⟩ => show win3_1.index t (0 : Fin 2) * 2000 + 1 * q.val = t.val * 2000 + q.val; omega
  | ⟨1, _⟩ => show win3_1.index t (1 : Fin 2) * 64 + 1 * k.val = k.val; omega

/-! ## The accumulator after every point, and after the last -/

/-- A block's element lies in the run of m·n numbers. -/
theorem blk_lt {m n : ℕ} (t : Fin m) (q : Fin n) : t.val * n + q.val < m * n :=
  Nat.lt_of_lt_of_le (Nat.add_lt_add_left q.isLt _) (by rw [← Nat.succ_mul]; exact Nat.mul_le_mul_right _ t.isLt)

/-- A sum over m·n consecutive numbers, taken as m blocks of n. -/
theorem sum_blocks {M : Type*} [AddCommMonoid M] (m n : ℕ) (f : Fin (m * n) → M) :
    ∑ p : Fin (m * n), f p = ∑ t : Fin m, ∑ q : Fin n, f ⟨t.val * n + q.val, blk_lt t q⟩ := by
  rw [← Equiv.sum_comp finProdFinEquiv f, Fintype.sum_prod_type]
  refine Finset.sum_congr rfl fun t _ => Finset.sum_congr rfl fun q _ => congrArg f (Fin.ext ?_)
  show q.val + n * t.val = t.val * n + q.val
  rw [Nat.mul_comm, Nat.add_comm]

/-- Node p's contribution to the pooled entry (g, k): its row's k-th entry when the node carries graph number g. -/
def term (c : Dev nD) (g : Fin 256) (k : Fin 64) (p : Fin 100000) : EReal :=
  if (V c main_v141 (ix2 p 0)).toInt = (g.val : Int) then V c main_v140 (ix2 p k) else 0

/-- The accumulator after point n holds, at (g, k), the contributions of the nodes of the first n + 1 blocks. -/
theorem acc3_apply (c : Dev nD) (g : Fin 256) (k : Fin 64) : ∀ (n : ℕ) (hn : n < cfg3.N),
    acc3 (F := Ideal) V c n hn (ix2 g k) = ∑ t : Fin (n + 1), ∑ q : Fin 2000,
      term V c g k ⟨t.val * 2000 + q.val, row_lt ⟨t.val, lt_of_le_of_lt (Nat.le_of_lt_succ t.isLt) hn⟩ q⟩
  | 0, hn => by
    rw [acc3_zero, pay2_apply, pay1_apply, zero_add, Fin.sum_univ_one]
    refine Finset.sum_congr rfl fun q _ => ?_
    rw [iblk3_0_apply, iblk3_1_apply]
    rfl
  | n + 1, hn => by
    rw [Fin.sum_univ_castSucc, acc3_succ, pay2_apply, acc3_apply c g k n _]
    refine congrArg₂ (fun x y : EReal => x + y) rfl (Finset.sum_congr rfl fun q _ => ?_)
    rw [iblk3_0_apply, iblk3_1_apply]
    rfl

/-- The last point. -/
theorem lt49 : 49 < cfg3.N := by rw [show cfg3.N = 50 from N_3]; omega

/-- After the last point the accumulator is the pooled sum over all nodes. -/
theorem acc3_last (c : Dev nD) : acc3 (F := Ideal) V c 49 lt49 = Cert.Spec.pool (V c main_v141) (V c main_v140) := by
  funext i
  obtain ⟨g, k, rfl⟩ : ∃ (g : Fin 256) (k : Fin 64), i = ix2 g k := ⟨i 0, i 1, eq_ix2 i⟩
  rw [acc3_apply]
  show _ = ∑ p : Fin (50 * 2000), term V c g k p
  rw [sum_blocks]

/-- The accumulator at equal point numbers. -/
theorem acc3_congr (c : Dev nD) (n m : ℕ) (h : n = m) (hn : n < cfg3.N) (hm : m < cfg3.N) :
    acc3 (F := Ideal) V c n hn = acc3 V c m hm := by subst h; rfl

end Pool3

/-! ## The result array -/

open Pool3 in
/-- The result array after region 3 is the pooled sum of the region's two input arrays: the one block of the result
    is the whole array, written back at the last point only, with the accumulator's contents there. -/
theorem final3 (c : Dev nD) :
    (dat3 (F := Ideal) V c).arrAt 2 cfg3.N = Cert.Spec.pool (V c main_v141) (V c main_v140) := by
  rw [← acc3_last]
  refine (dat3 V c).arrAt_eq_of_cover 2 (acc3 V c 49 lt49) ?_ ?_
  · intro t hf
    rw [flush3_2] at hf
    have ht : t.val = 49 := by have := lt50 t; omega
    show (cfg3.win 2).cut (grid3.coords t) ((dat3 V c).after 2 t) = _
    rw [after3_2, acc3_congr V c t.val 49 ht t.isLt lt49]
    funext j
    rw [View.read_apply]
    show acc3 V c 49 lt49 _ = acc3 V c 49 lt49 _
    congr 1
    funext a; apply Fin.ext
    obtain ⟨e0, e1, e2, e3, e4, e5⟩ := idx_facts3 t
    match a with
    | ⟨0, _⟩ => show (j 0).val = win3_2.index t (0 : Fin 2) * 256 + 1 * (j 0).val; omega
    | ⟨1, _⟩ => show (j 1).val = win3_2.index t (1 : Fin 2) * 64 + 1 * (j 1).val; omega
  · intro i
    refine ⟨⟨49, lt49⟩, (flush3_2 _).2 rfl, ?_⟩
    show i ∈ ((View.whole main_v142).slice (win3_2.rect ⟨49, lt49⟩)).set
    rw [View.set_slice_whole, Rect.mem_set_unit]
    have hi0 : (i 0).val < 256 := (i 0).isLt
    have hi1 : (i 1).val < 64 := (i 1).isLt
    obtain ⟨e0, e1, e2, e3, e4, e5⟩ := idx_facts3 ⟨49, lt49⟩
    intro a
    match a with
    | ⟨0, _⟩ => show win3_2.index ⟨49, lt49⟩ (0 : Fin 2) * 256 ≤ (i 0).val ∧ (i 0).val < win3_2.index ⟨49, lt49⟩ (0 : Fin 2) * 256 + 256; omega
    | ⟨1, _⟩ => show win3_2.index ⟨49, lt49⟩ (1 : Fin 2) * 64 ≤ (i 1).val ∧ (i 1).val < win3_2.index ⟨49, lt49⟩ (1 : Fin 2) * 64 + 64; omega

end Cert.KernelIdeal.Hand

end
-- ==== Proof.LibSegmentSum.lean ====
/-
  A sum of rows grouped by a list of row numbers (jax.ops.segment_sum; jnp's `x.at[idx].add(u)` with one index per
  update row), read at an element.

  The scatter-add prints as `Host.scatterAdd d x idx upd` with the scatter indices an (n, 1) column. At the ideal values
  element (r, k) of the result is x(r, k) plus the sum of upd(e, k) over the update rows e whose index, read as a SIGNED
  integer and not clamped, is r: an update whose index is negative or past the last row contributes nothing.
  The one-axis form (updates a list of n values, the operand a list of N values) reads the same way.
-/
import Idealize.ShloMosaic.PureOps.Ideal
import Idealize.ShloMosaic.PureOps.Contract
import Idealize.ShloMosaic.Lib.ValueIdx

noncomputable section

namespace Idealize.ShloMosaic.SegmentSum

open Idealize.ShloMosaic Idealize.ShloMosaic.ValueIdx

/-- A list with exactly one entry has that entry at every position it can be read at. -/
private theorem getElem_eq_of_singleton {β : Type} {l : List β} {b : β} (h : l = [b]) {i : Nat} (hi : i < l.length) : l[i] = b := by
  subst h
  match i, hi with
  | 0, _ => rfl
  | i + 1, hi => exact absurd hi (by simp)

/-! ## Rows: where an update element lands

  With the operand's row axis both inserted and start-indexed, the updates' column axis their one window axis, and the
  index vector along the column of scatter indices, update element (e, k') starts at row idx(e), column 0, and its window
  coordinate is (0, k'): it lands at (idx(e), k') when idx(e), read signed, is a row of the operand, and nowhere
  otherwise. -/

section rowsAux
variable {N n C w : Nat} (d : ScatterDims ⟨2, ![N, C]⟩ ⟨2, ![n, 1]⟩ ⟨2, ![n, C]⟩)
    (idx : IVec ⟨2, ![n, 1]⟩ w) (e : Fin n) (k' : Fin C)

/-- The operand's axes that are not inserted: the column axis alone. -/
theorem sKept_rows (hiw : d.insertedWindowDims = [0]) : d.sKept = [(1 : Fin 2)] := by
  show Shape.kept _ d.insertedWindowDims = [(1 : Fin 2)]
  rw [hiw]; rfl

/-- The updates' scatter axes: the row axis alone. -/
theorem uScatter_rows (huw : d.updateWindowDims = [1]) : d.uScatter = [(0 : Fin 2)] := by
  show Shape.kept _ d.updateWindowDims = [(0 : Fin 2)]
  rw [huw]; rfl

/-- On the row axis the window of update element (e, k') starts at the e-th scatter index, read signed. -/
theorem start_row (huw : d.updateWindowDims = [1]) (hsd : d.scatterDimsToOperandDims = [0]) (hivd : d.indexVectorDim = 1) :
    d.start (ix2 e k') idx (0 : Fin 2) = (idx (ix2 e (0 : Fin 1))).toInt := by
  have hm : (0 : Fin 2) ∈ d.scatterDimsToOperandDims := by rw [hsd]; exact List.mem_singleton.mpr rfl
  unfold ScatterDims.start
  rw [dif_pos hm]
  refine congrArg (fun q => (idx q).toInt) ?_
  funext b
  match b with
  | ⟨0, _⟩ =>
    unfold ScatterDims.siIdx
    rw [dif_neg (by rw [hivd]; exact Nat.zero_ne_one)]
    unfold ScatterDims.siCoord
    apply Fin.ext
    show ((ix2 e k') (d.uScatter[_]'_)).val = e.val
    rw [getElem_eq_of_singleton (uScatter_rows d huw)]
  | ⟨1, _⟩ =>
    unfold ScatterDims.siIdx
    rw [dif_pos (by rw [hivd])]
    apply Fin.ext
    show List.idxOf (0 : Fin 2) d.scatterDimsToOperandDims = 0
    rw [hsd]; simp

/-- On the column axis the window starts at 0: no scatter index addresses it. -/
theorem start_col (hsd : d.scatterDimsToOperandDims = [0]) : d.start (ix2 e k') idx (1 : Fin 2) = 0 := by
  have hm : (1 : Fin 2) ∉ d.scatterDimsToOperandDims := by rw [hsd]; simp
  unfold ScatterDims.start
  rw [dif_neg hm]

/-- The row axis is inserted: its window coordinate is 0. -/
theorem window_row (hiw : d.insertedWindowDims = [0]) : d.window (ix2 e k') (0 : Fin 2) = 0 := by
  have hk : (0 : Fin 2) ∉ d.sKept := by rw [sKept_rows d hiw]; simp
  unfold ScatterDims.window
  rw [dif_neg hk]

/-- The column axis carries the updates' window axis: its window coordinate is the update's column. -/
theorem window_col (huw : d.updateWindowDims = [1]) (hiw : d.insertedWindowDims = [0]) : d.window (ix2 e k') (1 : Fin 2) = k'.val := by
  have hk : (1 : Fin 2) ∈ d.sKept := by rw [sKept_rows d hiw]; exact List.mem_singleton.mpr rfl
  unfold ScatterDims.window
  rw [dif_pos hk, getElem_eq_of_singleton huw]
  rfl

/-- Update element (e, k') lands at (r, k) exactly when the e-th scatter index, read signed, is r and k' = k: the bounds
    on both axes then hold because r and k are positions in the operand. -/
theorem resultIdx_rows_iff (huw : d.updateWindowDims = [1]) (hiw : d.insertedWindowDims = [0])
    (hsd : d.scatterDimsToOperandDims = [0]) (hivd : d.indexVectorDim = 1) (r : Fin N) (k : Fin C) :
    d.resultIdx? (ix2 e k') idx = some (ix2 r k) ↔ (idx (ix2 e (0 : Fin 1))).toInt = (r.val : ℤ) ∧ k' = k := by
  have h0 := start_row d idx e k' huw hsd hivd
  have h1 := start_col d idx e k' hsd
  have w0 := window_row d e k' hiw
  have w1 := window_col d e k' huw hiw
  unfold ScatterDims.resultIdx?
  split
  · rename_i h
    rw [Option.some.injEq]
    constructor
    · intro hf
      have a0 : (d.start (ix2 e k') idx (0 : Fin 2) + (d.window (ix2 e k') (0 : Fin 2) : ℤ)).toNat = r.val :=
        congrArg (fun f => (f (0 : Fin 2)).val) hf
      have a1 : (d.start (ix2 e k') idx (1 : Fin 2) + (d.window (ix2 e k') (1 : Fin 2) : ℤ)).toNat = k.val :=
        congrArg (fun f => (f (1 : Fin 2)).val) hf
      have b0 := (h (0 : Fin 2)).1
      rw [h0, w0] at a0 b0
      rw [h1, w1] at a1
      refine ⟨by omega, Fin.ext (by omega)⟩
    · rintro ⟨hr, rfl⟩
      funext a
      match a with
      | ⟨0, _⟩ =>
        apply Fin.ext
        show (d.start (ix2 e k') idx (0 : Fin 2) + (d.window (ix2 e k') (0 : Fin 2) : ℤ)).toNat = r.val
        rw [h0, w0, hr]; omega
      | ⟨1, _⟩ =>
        apply Fin.ext
        show (d.start (ix2 e k') idx (1 : Fin 2) + (d.window (ix2 e k') (1 : Fin 2) : ℤ)).toNat = k'.val
        rw [h1, w1]; omega
  · rename_i h
    constructor
    · intro hf; exact absurd hf (by simp)
    · rintro ⟨hr, rfl⟩
      refine absurd (fun a => ?_) h
      match a with
      | ⟨0, _⟩ =>
        show 0 ≤ d.start (ix2 e k') idx (0 : Fin 2) + (d.window (ix2 e k') (0 : Fin 2) : ℤ) ∧
          d.start (ix2 e k') idx (0 : Fin 2) + (d.window (ix2 e k') (0 : Fin 2) : ℤ) < ((N : ℕ) : ℤ)
        rw [h0, w0, hr]; have := r.isLt; omega
      | ⟨1, _⟩ =>
        show 0 ≤ d.start (ix2 e k') idx (1 : Fin 2) + (d.window (ix2 e k') (1 : Fin 2) : ℤ) ∧
          d.start (ix2 e k') idx (1 : Fin 2) + (d.window (ix2 e k') (1 : Fin 2) : ℤ) < ((C : ℕ) : ℤ)
        rw [h1, w1]; have := k'.isLt; omega

end rowsAux

section rows
variable {N n C w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w)
include huw hiw hsd hivd

/-- Element (r, k) of a scatter-add of rows: the operand's element plus the update rows whose index is r, at column k. -/
theorem scatterAdd_rows {φ : FTy} (x : FVec Ideal ⟨2, ![N, C]⟩ φ) (upd : FVec Ideal ⟨2, ![n, C]⟩ φ) (r : Fin N) (k : Fin C) :
    Host.scatterAdd d x idx upd (ix2 r k)
      = x (ix2 r k) + ∑ e : Fin n, if (idx (ix2 e (0 : Fin 1))).toInt = (r.val : ℤ) then upd (ix2 e k) else 0 := by
  have hlands := fun (e : Fin n) (b : Fin C) => resultIdx_rows_iff d idx e b huw hiw hsd hivd r k
  unfold Host.scatterAdd
  rw [Ideal.hostScatterAdd_def]
  unfold Ideal.hostScatterAdd
  congr 1
  rw [Finset.sum_filter, sum_idx2]
  refine Finset.sum_congr rfl fun e _ => ?_
  by_cases hr : (idx (ix2 e (0 : Fin 1))).toInt = (r.val : ℤ)
  · rw [if_pos hr, Finset.sum_eq_single k]
    · rw [if_pos ((hlands e k).2 ⟨hr, rfl⟩)]
    · intro b _ hb
      rw [if_neg fun h => hb ((hlands e b).1 h).2]
    · intro hk; exact absurd (Finset.mem_univ k) hk
  · rw [if_neg hr]
    refine Finset.sum_eq_zero fun b _ => ?_
    rw [if_neg fun h => hr ((hlands e b).1 h).1]

end rows

/-! ## Values: where an update lands

  The one-axis form: the operand's only axis is inserted and start-indexed and the updates have no window axis, so
  update e starts at position idx(e) with window coordinate 0, and lands there when idx(e), read signed, is a position of
  the operand. -/

/-- A sum over the positions of a list of n values is the sum over their coordinates. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

section valsAux
variable {N n w : Nat} (d : ScatterDims ⟨1, ![N]⟩ ⟨2, ![n, 1]⟩ ⟨1, ![n]⟩) (idx : IVec ⟨2, ![n, 1]⟩ w) (e : Fin n)

/-- The operand's only axis is inserted: none is kept. -/
theorem sKept_vals (hiw : d.insertedWindowDims = [0]) : d.sKept = [] := by
  show Shape.kept _ d.insertedWindowDims = []
  rw [hiw]; rfl

/-- The updates' only axis is a scatter axis. -/
theorem uScatter_vals (huw : d.updateWindowDims = []) : d.uScatter = [(0 : Fin 1)] := by
  show Shape.kept _ d.updateWindowDims = [(0 : Fin 1)]
  rw [huw]; rfl

/-- The window of update e starts at the e-th scatter index, read signed. -/
theorem start_val (huw : d.updateWindowDims = []) (hsd : d.scatterDimsToOperandDims = [0]) (hivd : d.indexVectorDim = 1) :
    d.start (ix1 e) idx (0 : Fin 1) = (idx (ix2 e (0 : Fin 1))).toInt := by
  have hm : (0 : Fin 1) ∈ d.scatterDimsToOperandDims := by rw [hsd]; exact List.mem_singleton.mpr rfl
  unfold ScatterDims.start
  rw [dif_pos hm]
  refine congrArg (fun q => (idx q).toInt) ?_
  funext b
  match b with
  | ⟨0, _⟩ =>
    unfold ScatterDims.siIdx
    rw [dif_neg (by rw [hivd]; exact Nat.zero_ne_one)]
    unfold ScatterDims.siCoord
    apply Fin.ext
    show ((ix1 e) (d.uScatter[_]'_)).val = e.val
    rw [getElem_eq_of_singleton (uScatter_vals d huw)]
  | ⟨1, _⟩ =>
    unfold ScatterDims.siIdx
    rw [dif_pos (by rw [hivd])]
    apply Fin.ext
    show List.idxOf (0 : Fin 1) d.scatterDimsToOperandDims = 0
    rw [hsd]; simp

/-- The operand's axis is inserted: the window coordinate is 0. -/
theorem window_val (hiw : d.insertedWindowDims = [0]) : d.window (ix1 e) (0 : Fin 1) = 0 := by
  have hk : (0 : Fin 1) ∉ d.sKept := by rw [sKept_vals d hiw]; exact List.not_mem_nil
  unfold ScatterDims.window
  rw [dif_neg hk]

/-- Update e lands at position r exactly when the e-th scatter index, read signed, is r. -/
theorem resultIdx_vals_iff (huw : d.updateWindowDims = []) (hiw : d.insertedWindowDims = [0])
    (hsd : d.scatterDimsToOperandDims = [0]) (hivd : d.indexVectorDim = 1) (r : Fin N) :
    d.resultIdx? (ix1 e) idx = some (ix1 r) ↔ (idx (ix2 e (0 : Fin 1))).toInt = (r.val : ℤ) := by
  have h0 := start_val d idx e huw hsd hivd
  have w0 := window_val d e hiw
  unfold ScatterDims.resultIdx?
  split
  · rename_i h
    rw [Option.some.injEq]
    constructor
    · intro hf
      have a0 : (d.start (ix1 e) idx (0 : Fin 1) + (d.window (ix1 e) (0 : Fin 1) : ℤ)).toNat = r.val :=
        congrArg (fun f => (f (0 : Fin 1)).val) hf
      have b0 := (h (0 : Fin 1)).1
      rw [h0, w0] at a0 b0
      omega
    · intro hr
      funext a
      match a with
      | ⟨0, _⟩ =>
        apply Fin.ext
        show (d.start (ix1 e) idx (0 : Fin 1) + (d.window (ix1 e) (0 : Fin 1) : ℤ)).toNat = r.val
        rw [h0, w0, hr]; omega
  · rename_i h
    constructor
    · intro hf; exact absurd hf (by simp)
    · intro hr
      refine absurd (fun a => ?_) h
      match a with
      | ⟨0, _⟩ =>
        show 0 ≤ d.start (ix1 e) idx (0 : Fin 1) + (d.window (ix1 e) (0 : Fin 1) : ℤ) ∧
          d.start (ix1 e) idx (0 : Fin 1) + (d.window (ix1 e) (0 : Fin 1) : ℤ) < ((N : ℕ) : ℤ)
        rw [h0, w0, hr]; have := r.isLt; omega

end valsAux

section vals
variable {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w)
include huw hiw hsd hivd

/-- Entry r of a scatter-add of values: the operand's entry plus the updates whose index is r. -/
theorem scatterAdd_vals {φ : FTy} (x : FVec Ideal ⟨1, ![N]⟩ φ) (upd : FVec Ideal ⟨1, ![n]⟩ φ) (r : Fin N) :
    Host.scatterAdd d x idx upd (ix1 r)
      = x (ix1 r) + ∑ e : Fin n, if (idx (ix2 e (0 : Fin 1))).toInt = (r.val : ℤ) then upd (ix1 e) else 0 := by
  have hlands := fun (e : Fin n) => resultIdx_vals_iff d idx e huw hiw hsd hivd r
  unfold Host.scatterAdd
  rw [Ideal.hostScatterAdd_def]
  unfold Ideal.hostScatterAdd
  congr 1
  rw [Finset.sum_filter, sum_idx1]
  exact Finset.sum_congr rfl fun e _ => if_congr (hlands e) rfl rfl

end vals

end Idealize.ShloMosaic.SegmentSum

end
-- ==== Proof.RefValue.lean ====
/-
  The reference's stages, layer by layer, as the layer and pooling functions of the stages before them: each layer's
  three host products are matrix products, its bias is added along the rows, its activation is applied entry by entry;
  the final scatter-add of rows onto the zero array is the pooled sum.
-/
import proofs.«417683_j790273983042_2_alg».proof.Proof.RefRead
import proofs.«417683_j790273983042_2_alg».proof.Proof.Spec
import proofs.«417683_j790273983042_2_alg».proof.Proof.LibSegmentSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.SL.Sem

variable (x0 : (⟨S100000x3, .f32⟩ : BufTy).Contents (Elt Ideal)) (x1 : (⟨S2x2000000, .i32⟩ : BufTy).Contents (Elt Ideal))
  (x2 : (⟨S100000, .i32⟩ : BufTy).Contents (Elt Ideal)) (x3 : (⟨S3x3x16, .f32⟩ : BufTy).Contents (Elt Ideal))
  (x4 : (⟨S16, .f32⟩ : BufTy).Contents (Elt Ideal)) (x5 : (⟨S3x16x32, .f32⟩ : BufTy).Contents (Elt Ideal))
  (x6 : (⟨S32, .f32⟩ : BufTy).Contents (Elt Ideal)) (x7 : (⟨S3x32x64, .f32⟩ : BufTy).Contents (Elt Ideal))
  (x8 : (⟨S64, .f32⟩ : BufTy).Contents (Elt Ideal))

/-! ## The three shapes a layer is made of -/

section Generic

variable {N cin cout : Nat} (d : DotDims ⟨2, ![N, cin]⟩ ⟨2, ![cin, cout]⟩ ⟨2, ![N, cout]⟩)

/-- Three host products that contract the left operand's columns with the right operand's rows, added from the left,
    plus an array whose entry (n, c) is the bias row's entry c: the layer's sum before its activation. -/
theorem cheb_of_stages (hlc : d.lhsContracting = [1]) (hrc : d.rhsContracting = [0])
    (hln : d.lhsNonContracting = [0]) (hrn : d.rhsNonContracting = [1]) (hlb : d.lhsBatch = []) (hrb : d.rhsBatch = [])
    (x t1 t2 : FVec Ideal ⟨2, ![N, cin]⟩ .f32) (w0 w1 w2 : FVec Ideal ⟨2, ![cin, cout]⟩ .f32)
    (b : FVec Ideal ⟨2, ![1, cout]⟩ .f32) (bb : FVec Ideal ⟨2, ![N, cout]⟩ .f32)
    (hbb : ∀ i, bb i = b (ValueIdx.ix2 (⟨0, Nat.one_pos⟩ : Fin 1) (i 1))) :
    addf (addf (addf (Host.dotGeneral d none x w0) (Host.dotGeneral d none t1 w1)) (Host.dotGeneral d none t2 w2)) bb
      = Cert.Spec.cheb x t1 t2 w0 w1 w2 b := by
  rw [Cert.Lib.dotGeneral_eq_dense d hlc hrc hln hrn hlb hrb none x w0,
    Cert.Lib.dotGeneral_eq_dense d hlc hrc hln hrn hlb hrb none t1 w1,
    Cert.Lib.dotGeneral_eq_dense d hlc hrc hln hrn hlb hrb none t2 w2]
  funext i
  show FloatOps.addf (F := Ideal) (φ := .f32) _ (bb i) = _
  rw [hbb i]
  rfl

/-- Comparing with an array of zeros and multiplying by an array of the slope constant, entry by entry, is the leaky
    rectifier. -/
theorem prelu_of_stages {M : Nat} (y z a : FVec Ideal ⟨2, ![N, M]⟩ .f32)
    (hz : ∀ i, z i = FloatOps.ofBits (F := Ideal) .f32 0x00000000#32)
    (ha : ∀ i, a i = FloatOps.ofBits (F := Ideal) .f32 0x3E4CCCCD#32) :
    select (cmpf .oge y z) y (mulf a y) = Cert.Spec.prelu y := by
  funext i
  show Scalar.select (FloatOps.cmpf (F := Ideal) (φ := .f32) .oge (y i) (z i)) (y i)
    (FloatOps.mulf (F := Ideal) (φ := .f32) (a i) (y i)) = _
  rw [hz i, ha i]
  rfl

/-- The host's hyperbolic tangent of an array is the entrywise one. -/
theorem tanh_of_stage {M : Nat} (y : FVec Ideal ⟨2, ![N, M]⟩ .f32) : Host.tanh y = Cert.Spec.tanhA y := by
  funext i
  show FloatOps.hostUnary (F := Ideal) (φ := .f32) .tanh (y i) = Ideal.tanh (y i)
  exact Ideal.hostUnary_tanh_def _

end Generic

/-! ## The layers -/

/-- The first layer's output stage is the layer function of the features, their two propagations, the three weight
    matrices and the bias row. -/
theorem layer0_ref :
    val_main_v77 (F := Ideal) x0 x1 x3 x4
      = Cert.Spec.layerPrelu x0 (val_main_v42 (F := Ideal) x0 x1) (val_main_v58 (F := Ideal) x0 x1)
          (val_main_v60 (F := Ideal) x3) (val_main_v63 (F := Ideal) x3) (val_main_v67 (F := Ideal) x3) (val_main_v70 (F := Ideal) x4) := by
  have hbb : ∀ i, val_main_v71 (F := Ideal) x4 i
      = val_main_v70 (F := Ideal) x4 (ValueIdx.ix2 (⟨0, Nat.one_pos⟩ : Fin 1) (i 1)) := fun i => by
    rw [val_main_v71_apply]
    refine congrArg _ (funext fun a => ?_)
    match a with
    | ⟨0, _⟩ => rfl
    | ⟨1, _⟩ => rfl
  have hz : ∀ i, val_main_v73 (F := Ideal) i = FloatOps.ofBits (F := Ideal) .f32 0x00000000#32 := fun i => by
    rw [val_main_v73_apply]; rfl
  have ha : ∀ i, val_main_v75 (F := Ideal) i = FloatOps.ofBits (F := Ideal) .f32 0x3E4CCCCD#32 := fun i => by
    rw [val_main_v75_apply]; rfl
  unfold val_main_v77 val_main_v74 val_main_v76 val_main_v72 val_main_v69 val_main_v65 val_main_v61 val_main_v64
    val_main_v68 Cert.Spec.layerPrelu
  generalize val_main_v42 (F := Ideal) x0 x1 = t1
  generalize val_main_v58 (F := Ideal) x0 x1 = t2
  rw [cheb_of_stages dot_S100000x3_S3x16_S100000x16_1_0_0_1_n_n rfl rfl rfl rfl rfl rfl x0 t1 t2 _ _ _
    (val_main_v70 (F := Ideal) x4) (val_main_v71 (F := Ideal) x4) hbb]
  exact prelu_of_stages _ _ _ hz ha

/-- The second layer's. -/
theorem layer1_ref :
    val_main_v125 (F := Ideal) x0 x1 x3 x4 x5 x6
      = Cert.Spec.layerPrelu (val_main_v77 (F := Ideal) x0 x1 x3 x4) (val_main_v90 (F := Ideal) x0 x1 x3 x4) (val_main_v106 (F := Ideal) x0 x1 x3 x4)
          (val_main_v108 (F := Ideal) x5) (val_main_v111 (F := Ideal) x5) (val_main_v115 (F := Ideal) x5) (val_main_v118 (F := Ideal) x6) := by
  have hbb : ∀ i, val_main_v119 (F := Ideal) x6 i
      = val_main_v118 (F := Ideal) x6 (ValueIdx.ix2 (⟨0, Nat.one_pos⟩ : Fin 1) (i 1)) := fun i => by
    rw [val_main_v119_apply]
    refine congrArg _ (funext fun a => ?_)
    match a with
    | ⟨0, _⟩ => rfl
    | ⟨1, _⟩ => rfl
  have hz : ∀ i, val_main_v121 (F := Ideal) i = FloatOps.ofBits (F := Ideal) .f32 0x00000000#32 := fun i => by
    rw [val_main_v121_apply]; rfl
  have ha : ∀ i, val_main_v123 (F := Ideal) i = FloatOps.ofBits (F := Ideal) .f32 0x3E4CCCCD#32 := fun i => by
    rw [val_main_v123_apply]; rfl
  unfold val_main_v125 val_main_v122 val_main_v124 val_main_v120 val_main_v117 val_main_v113 val_main_v109 val_main_v112
    val_main_v116 Cert.Spec.layerPrelu
  generalize val_main_v77 (F := Ideal) x0 x1 x3 x4 = h
  generalize val_main_v90 (F := Ideal) x0 x1 x3 x4 = t1
  generalize val_main_v106 (F := Ideal) x0 x1 x3 x4 = t2
  rw [cheb_of_stages dot_S100000x16_S16x32_S100000x32_1_0_0_1_n_n rfl rfl rfl rfl rfl rfl h t1 t2 _ _ _
    (val_main_v118 (F := Ideal) x6) (val_main_v119 (F := Ideal) x6) hbb]
  exact prelu_of_stages _ _ _ hz ha

/-- The third layer's, with the hyperbolic tangent. -/
theorem layer2_ref :
    val_main_v169 (F := Ideal) x0 x1 x3 x4 x5 x6 x7 x8
      = Cert.Spec.layerTanh (val_main_v125 (F := Ideal) x0 x1 x3 x4 x5 x6) (val_main_v138 (F := Ideal) x0 x1 x3 x4 x5 x6) (val_main_v154 (F := Ideal) x0 x1 x3 x4 x5 x6)
          (val_main_v156 (F := Ideal) x7) (val_main_v159 (F := Ideal) x7) (val_main_v163 (F := Ideal) x7) (val_main_v166 (F := Ideal) x8) := by
  have hbb : ∀ i, val_main_v167 (F := Ideal) x8 i
      = val_main_v166 (F := Ideal) x8 (ValueIdx.ix2 (⟨0, Nat.one_pos⟩ : Fin 1) (i 1)) := fun i => by
    rw [val_main_v167_apply]
    refine congrArg _ (funext fun a => ?_)
    match a with
    | ⟨0, _⟩ => rfl
    | ⟨1, _⟩ => rfl
  unfold val_main_v169 val_main_v168 val_main_v165 val_main_v161 val_main_v157 val_main_v160 val_main_v164
    Cert.Spec.layerTanh
  generalize val_main_v125 (F := Ideal) x0 x1 x3 x4 x5 x6 = h
  generalize val_main_v138 (F := Ideal) x0 x1 x3 x4 x5 x6 = t1
  generalize val_main_v154 (F := Ideal) x0 x1 x3 x4 x5 x6 = t2
  rw [cheb_of_stages dot_S100000x32_S32x64_S100000x64_1_0_0_1_n_n rfl rfl rfl rfl rfl rfl h t1 t2 _ _ _
    (val_main_v166 (F := Ideal) x8) (val_main_v167 (F := Ideal) x8) hbb]
  exact tanh_of_stage _

/-- The result stage is the pooled sum of the third layer's rows by graph number. -/
theorem pool_ref :
    val_main_v172 (F := Ideal) x0 x1 x2 x3 x4 x5 x6 x7 x8
      = Cert.Spec.pool (val_main_v171 (F := Ideal) x2) (val_main_v169 (F := Ideal) x0 x1 x3 x4 x5 x6 x7 x8) := by
  unfold val_main_v172
  generalize val_main_v169 (F := Ideal) x0 x1 x3 x4 x5 x6 x7 x8 = h
  generalize val_main_v171 (F := Ideal) x2 = g
  funext j
  obtain ⟨r, k, rfl⟩ : ∃ r k, j = ValueIdx.ix2 r k := ⟨j 0, j 1, ValueIdx.eq_ix2 j⟩
  rw [SegmentSum.scatterAdd_rows scatter_S256x64_S100000x1_S100000x64_1_0_0_1 rfl rfl rfl rfl g
    (val_main_v170 (F := Ideal)) h r k]
  have h0 : val_main_v170 (F := Ideal) (ValueIdx.ix2 r k) = 0 := by
    rw [val_main_v170_apply]
    exact Ideal.ofBits_zero_f32
  rw [h0, zero_add]
  rfl

end Cert.ReferenceIdeal.RefValue

end
-- ==== Proof.KernelIdeal.KernelValue.lean ====
/-
  The kernel program's result at the exact-real reading, named by the reference's stages: region by region, what a
  region leaves in its output array is the layer (or pooling) function of its input arrays; the host lines between the
  regions feed each region the reference's stages; and the reference's layer and result stages are those same functions
  of those same stages.  So the kernel program's result array ends at the reference's result stage of the arguments.
-/
import proofs.«417683_j790273983042_2_alg».proof.Proof.KernelIdeal.Fold
import proofs.«417683_j790273983042_2_alg».proof.Proof.KernelIdeal.HostA
import proofs.«417683_j790273983042_2_alg».proof.Proof.KernelIdeal.HostB
import proofs.«417683_j790273983042_2_alg».proof.Proof.KernelIdeal.LayerVal0
import proofs.«417683_j790273983042_2_alg».proof.Proof.KernelIdeal.LayerVal1
import proofs.«417683_j790273983042_2_alg».proof.Proof.KernelIdeal.LayerVal2
import proofs.«417683_j790273983042_2_alg».proof.Proof.KernelIdeal.PoolVal
import proofs.«417683_j790273983042_2_alg».proof.Proof.RefValue

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-- Region 0 leaves the reference's first layer output. -/
theorem W4_v66 : W4 m c (Proc.devRef .tc main_v66) = Cert.ReferenceIdeal.ReadP.val_main_v77 (F := Ideal) (m ((c : Thread nD τ).loc main_arg0)) (m ((c : Thread nD τ).loc main_arg1)) (m ((c : Thread nD τ).loc main_arg3)) (m ((c : Thread nD τ).loc main_arg4)) := by
  refine (W4_arr m c 7).trans ((final0 (V3 m) c).trans ?_)
  show Cert.Spec.layerPrelu (W3 m c (Proc.devRef .tc main_arg0)) (W3 m c (Proc.devRef .tc main_v42)) (W3 m c (Proc.devRef .tc main_v58))
      (W3 m c (Proc.devRef .tc main_v60)) (W3 m c (Proc.devRef .tc main_v62)) (W3 m c (Proc.devRef .tc main_v64)) (W3 m c (Proc.devRef .tc main_v65)) = _
  rw [W3_arg0, W3_v42, W3_v58, W3_v60, W3_v62, W3_v64, W3_v65]
  exact (Cert.ReferenceIdeal.RefValue.layer0_ref _ _ _ _).symm

/-- Region 1 leaves the reference's second layer output. -/
theorem W6_v103 : W6 m c (Proc.devRef .tc main_v103) = Cert.ReferenceIdeal.ReadP.val_main_v125 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have h66 := W4_v66 m c
  refine (W6_arr m c 7).trans ((final1 (V5 m) c).trans ?_)
  show Cert.Spec.layerPrelu (W5 m c (Proc.devRef .tc main_v66)) (W5 m c (Proc.devRef .tc main_v79)) (W5 m c (Proc.devRef .tc main_v95))
      (W5 m c (Proc.devRef .tc main_v97)) (W5 m c (Proc.devRef .tc main_v99)) (W5 m c (Proc.devRef .tc main_v101)) (W5 m c (Proc.devRef .tc main_v102)) = _
  rw [W5_v66 m c h66, W5_v79 m c h66, W5_v95 m c h66, W5_v97, W5_v99, W5_v101, W5_v102]
  exact (Cert.ReferenceIdeal.RefValue.layer1_ref _ _ _ _ _ _).symm

/-- Region 2 leaves the reference's third layer output. -/
theorem W8_v140 : W8 m c (Proc.devRef .tc main_v140) = Cert.ReferenceIdeal.ReadP.val_main_v169 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h103 := W6_v103 m c
  refine (W8_arr m c 7).trans ((final2 (V7 m) c).trans ?_)
  show Cert.Spec.layerTanh (W7 m c (Proc.devRef .tc main_v103)) (W7 m c (Proc.devRef .tc main_v116)) (W7 m c (Proc.devRef .tc main_v132))
      (W7 m c (Proc.devRef .tc main_v134)) (W7 m c (Proc.devRef .tc main_v136)) (W7 m c (Proc.devRef .tc main_v138)) (W7 m c (Proc.devRef .tc main_v139)) = _
  rw [W7_v103 m c h103, W7_v116 m c h103, W7_v132 m c h103, W7_v134, W7_v136, W7_v138, W7_v139]
  exact (Cert.ReferenceIdeal.RefValue.layer2_ref _ _ _ _ _ _ _ _).symm

/-- THE RESULT: the kernel program's result array ends at the reference's result stage of the argument arrays. -/
theorem kernel_result : W10 m c (Proc.devRef .tc main_v142)
    = Cert.ReferenceIdeal.ReadP.val_main_v172 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h140 := W8_v140 m c
  refine (W10_result m c).trans ((final3 (V9 m) c).trans ?_)
  show Cert.Spec.pool (W9 m c (Proc.devRef .tc main_v141)) (W9 m c (Proc.devRef .tc main_v140)) = _
  rw [W9_v141, W9_v140 m c h140]
  exact (Cert.ReferenceIdeal.RefValue.pool_ref _ _ _ _ _ _ _ _ _).symm

end Cert.KernelIdeal.Hand

end
-- ==== Proof.RefStages.lean ====
/-
  The reference's run, read stretch by stretch: after each of the five stretches of its operation list the buffers
  the later stretches read hold the stage functions of the argument arrays; so the run ends with the result buffer
  at the last stage, the arguments unchanged.
-/
import proofs.«417683_j790273983042_2_alg».proof.Proof.RefRun
import proofs.«417683_j790273983042_2_alg».proof.Proof.RefRead
import Idealize.ShloMosaic.Lib.StableHlo.Run
import Idealize.ShloMosaic.Lib.Pipeline.Frame

set_option maxRecDepth 16384

noncomputable section

namespace Cert.ReferenceIdeal.RefStages

open Cert.ReferenceIdeal Cert.ReferenceIdeal.Gen Cert.ReferenceIdeal.RunP Cert.ReferenceIdeal.ReadP
open Idealize.ShloMosaic Idealize.ShloMosaic.TcCoe Idealize.SL.Sem Idealize.ShloMosaic.StableHlo

variable {F : FTy → Type} [FloatOps F] (m : (ℓ : Loc nD τ sig) → Buf (Elt F) ℓ)

section Stretches

/-! ## The five stretches

  The buffers' contents at launch, and after each stretch of the operation list in turn. -/

variable (c : Dev nD)

/-- The device's buffers at launch. -/
def X0 : Valuation τ sig (Elt F) := launchContents m c
/-- After the first stretch: the edge weights are computed. -/
def X1 : Valuation τ sig (Elt F) := after (opsA1 (F := F)) (X0 m c)
/-- After the second stretch: the first layer's output. -/
def X2 : Valuation τ sig (Elt F) := after (opsA2 (F := F)) (X1 m c)
/-- After the third stretch: the second layer's output. -/
def X3 : Valuation τ sig (Elt F) := after (opsB (F := F)) (X2 m c)
/-- After the fourth stretch: the third layer's output. -/
def X4 : Valuation τ sig (Elt F) := after (opsC (F := F)) (X3 m c)
/-- After the last stretch: the pooled result. -/
def X5 : Valuation τ sig (Elt F) := after (opsD (F := F)) (X4 m c)

/-- The whole list's fold is the five stretches' folds one after the other. -/
theorem after_ops_eq : after (ops (F := F)) (launchContents m c) = X5 m c := by
  rw [ops_split, StableHlo.after_append, StableHlo.after_append, StableHlo.after_append, StableHlo.after_append]
  rfl

/-! ## The first stretch: no argument is written; the two edge lists and the edge weights are stages of the edge array -/

theorem step1_arg0 : X1 m c (Proc.devRef .tc main_arg0) = X0 m c (Proc.devRef .tc main_arg0) := by
  unfold X1
  after_results_simp

theorem step1_arg1 : X1 m c (Proc.devRef .tc main_arg1) = X0 m c (Proc.devRef .tc main_arg1) := by
  unfold X1
  after_results_simp

theorem step1_arg2 : X1 m c (Proc.devRef .tc main_arg2) = X0 m c (Proc.devRef .tc main_arg2) := by
  unfold X1
  after_results_simp

theorem step1_arg3 : X1 m c (Proc.devRef .tc main_arg3) = X0 m c (Proc.devRef .tc main_arg3) := by
  unfold X1
  after_results_simp

theorem step1_arg4 : X1 m c (Proc.devRef .tc main_arg4) = X0 m c (Proc.devRef .tc main_arg4) := by
  unfold X1
  after_results_simp

theorem step1_arg5 : X1 m c (Proc.devRef .tc main_arg5) = X0 m c (Proc.devRef .tc main_arg5) := by
  unfold X1
  after_results_simp

theorem step1_arg6 : X1 m c (Proc.devRef .tc main_arg6) = X0 m c (Proc.devRef .tc main_arg6) := by
  unfold X1
  after_results_simp

theorem step1_arg7 : X1 m c (Proc.devRef .tc main_arg7) = X0 m c (Proc.devRef .tc main_arg7) := by
  unfold X1
  after_results_simp

theorem step1_arg8 : X1 m c (Proc.devRef .tc main_arg8) = X0 m c (Proc.devRef .tc main_arg8) := by
  unfold X1
  after_results_simp

theorem at1_arg0 : X1 m c (Proc.devRef .tc main_arg0) = X0 m c (Proc.devRef .tc main_arg0) := step1_arg0 m c

theorem at1_arg1 : X1 m c (Proc.devRef .tc main_arg1) = X0 m c (Proc.devRef .tc main_arg1) := step1_arg1 m c

theorem at1_arg2 : X1 m c (Proc.devRef .tc main_arg2) = X0 m c (Proc.devRef .tc main_arg2) := step1_arg2 m c

theorem at1_arg3 : X1 m c (Proc.devRef .tc main_arg3) = X0 m c (Proc.devRef .tc main_arg3) := step1_arg3 m c

theorem at1_arg4 : X1 m c (Proc.devRef .tc main_arg4) = X0 m c (Proc.devRef .tc main_arg4) := step1_arg4 m c

theorem at1_arg5 : X1 m c (Proc.devRef .tc main_arg5) = X0 m c (Proc.devRef .tc main_arg5) := step1_arg5 m c

theorem at1_arg6 : X1 m c (Proc.devRef .tc main_arg6) = X0 m c (Proc.devRef .tc main_arg6) := step1_arg6 m c

theorem at1_arg7 : X1 m c (Proc.devRef .tc main_arg7) = X0 m c (Proc.devRef .tc main_arg7) := step1_arg7 m c

theorem at1_arg8 : X1 m c (Proc.devRef .tc main_arg8) = X0 m c (Proc.devRef .tc main_arg8) := step1_arg8 m c

set_option maxHeartbeats 1000000 in
theorem at1_v1 : X1 m c (Proc.devRef .tc main_v1) = val_main_v1 (F := F) (X0 m c (Proc.devRef .tc main_arg1)) := by
  unfold X1
  after_results_simp
  rfl

set_option maxHeartbeats 1000000 in
theorem at1_v3 : X1 m c (Proc.devRef .tc main_v3) = val_main_v3 (F := F) (X0 m c (Proc.devRef .tc main_arg1)) := by
  unfold X1
  after_results_simp
  rfl

set_option maxHeartbeats 1000000 in
theorem at1_v29 : X1 m c (Proc.devRef .tc main_v29) = val_main_v29 (F := F) (X0 m c (Proc.devRef .tc main_arg1)) := by
  unfold X1
  after_results_simp
  rfl

/-! ## The second stretch: the first layer -/

theorem step2_arg0 : X2 m c (Proc.devRef .tc main_arg0) = X1 m c (Proc.devRef .tc main_arg0) := by
  unfold X2
  after_results_simp

theorem step2_arg1 : X2 m c (Proc.devRef .tc main_arg1) = X1 m c (Proc.devRef .tc main_arg1) := by
  unfold X2
  after_results_simp

theorem step2_arg2 : X2 m c (Proc.devRef .tc main_arg2) = X1 m c (Proc.devRef .tc main_arg2) := by
  unfold X2
  after_results_simp

theorem step2_arg3 : X2 m c (Proc.devRef .tc main_arg3) = X1 m c (Proc.devRef .tc main_arg3) := by
  unfold X2
  after_results_simp

theorem step2_arg4 : X2 m c (Proc.devRef .tc main_arg4) = X1 m c (Proc.devRef .tc main_arg4) := by
  unfold X2
  after_results_simp

theorem step2_arg5 : X2 m c (Proc.devRef .tc main_arg5) = X1 m c (Proc.devRef .tc main_arg5) := by
  unfold X2
  after_results_simp

theorem step2_arg6 : X2 m c (Proc.devRef .tc main_arg6) = X1 m c (Proc.devRef .tc main_arg6) := by
  unfold X2
  after_results_simp

theorem step2_arg7 : X2 m c (Proc.devRef .tc main_arg7) = X1 m c (Proc.devRef .tc main_arg7) := by
  unfold X2
  after_results_simp

theorem step2_arg8 : X2 m c (Proc.devRef .tc main_arg8) = X1 m c (Proc.devRef .tc main_arg8) := by
  unfold X2
  after_results_simp

theorem step2_v1 : X2 m c (Proc.devRef .tc main_v1) = X1 m c (Proc.devRef .tc main_v1) := by
  unfold X2
  after_results_simp

theorem step2_v3 : X2 m c (Proc.devRef .tc main_v3) = X1 m c (Proc.devRef .tc main_v3) := by
  unfold X2
  after_results_simp

theorem step2_v29 : X2 m c (Proc.devRef .tc main_v29) = X1 m c (Proc.devRef .tc main_v29) := by
  unfold X2
  after_results_simp

theorem at2_arg0 : X2 m c (Proc.devRef .tc main_arg0) = X0 m c (Proc.devRef .tc main_arg0) :=
  (step2_arg0 m c).trans (at1_arg0 m c)

theorem at2_arg1 : X2 m c (Proc.devRef .tc main_arg1) = X0 m c (Proc.devRef .tc main_arg1) :=
  (step2_arg1 m c).trans (at1_arg1 m c)

theorem at2_arg2 : X2 m c (Proc.devRef .tc main_arg2) = X0 m c (Proc.devRef .tc main_arg2) :=
  (step2_arg2 m c).trans (at1_arg2 m c)

theorem at2_arg3 : X2 m c (Proc.devRef .tc main_arg3) = X0 m c (Proc.devRef .tc main_arg3) :=
  (step2_arg3 m c).trans (at1_arg3 m c)

theorem at2_arg4 : X2 m c (Proc.devRef .tc main_arg4) = X0 m c (Proc.devRef .tc main_arg4) :=
  (step2_arg4 m c).trans (at1_arg4 m c)

theorem at2_arg5 : X2 m c (Proc.devRef .tc main_arg5) = X0 m c (Proc.devRef .tc main_arg5) :=
  (step2_arg5 m c).trans (at1_arg5 m c)

theorem at2_arg6 : X2 m c (Proc.devRef .tc main_arg6) = X0 m c (Proc.devRef .tc main_arg6) :=
  (step2_arg6 m c).trans (at1_arg6 m c)

theorem at2_arg7 : X2 m c (Proc.devRef .tc main_arg7) = X0 m c (Proc.devRef .tc main_arg7) :=
  (step2_arg7 m c).trans (at1_arg7 m c)

theorem at2_arg8 : X2 m c (Proc.devRef .tc main_arg8) = X0 m c (Proc.devRef .tc main_arg8) :=
  (step2_arg8 m c).trans (at1_arg8 m c)

theorem at2_v1 : X2 m c (Proc.devRef .tc main_v1) = val_main_v1 (F := F) (X0 m c (Proc.devRef .tc main_arg1)) :=
  (step2_v1 m c).trans (at1_v1 m c)

theorem at2_v3 : X2 m c (Proc.devRef .tc main_v3) = val_main_v3 (F := F) (X0 m c (Proc.devRef .tc main_arg1)) :=
  (step2_v3 m c).trans (at1_v3 m c)

theorem at2_v29 : X2 m c (Proc.devRef .tc main_v29) = val_main_v29 (F := F) (X0 m c (Proc.devRef .tc main_arg1)) :=
  (step2_v29 m c).trans (at1_v29 m c)

set_option maxHeartbeats 1000000 in
theorem at2_v77 : X2 m c (Proc.devRef .tc main_v77) = val_main_v77 (F := F) (X0 m c (Proc.devRef .tc main_arg0)) (X0 m c (Proc.devRef .tc main_arg1)) (X0 m c (Proc.devRef .tc main_arg3)) (X0 m c (Proc.devRef .tc main_arg4)) := by
  unfold X2
  after_results_simp
  rw [at1_v29 m c, at1_v1 m c, at1_v3 m c, at1_arg0 m c, at1_arg3 m c, at1_arg4 m c]
  rfl

/-! ## The third stretch: the second layer -/

theorem step3_arg0 : X3 m c (Proc.devRef .tc main_arg0) = X2 m c (Proc.devRef .tc main_arg0) := by
  unfold X3
  after_results_simp

theorem step3_arg1 : X3 m c (Proc.devRef .tc main_arg1) = X2 m c (Proc.devRef .tc main_arg1) := by
  unfold X3
  after_results_simp

theorem step3_arg2 : X3 m c (Proc.devRef .tc main_arg2) = X2 m c (Proc.devRef .tc main_arg2) := by
  unfold X3
  after_results_simp

theorem step3_arg3 : X3 m c (Proc.devRef .tc main_arg3) = X2 m c (Proc.devRef .tc main_arg3) := by
  unfold X3
  after_results_simp

theorem step3_arg4 : X3 m c (Proc.devRef .tc main_arg4) = X2 m c (Proc.devRef .tc main_arg4) := by
  unfold X3
  after_results_simp

theorem step3_arg5 : X3 m c (Proc.devRef .tc main_arg5) = X2 m c (Proc.devRef .tc main_arg5) := by
  unfold X3
  after_results_simp

theorem step3_arg6 : X3 m c (Proc.devRef .tc main_arg6) = X2 m c (Proc.devRef .tc main_arg6) := by
  unfold X3
  after_results_simp

theorem step3_arg7 : X3 m c (Proc.devRef .tc main_arg7) = X2 m c (Proc.devRef .tc main_arg7) := by
  unfold X3
  after_results_simp

theorem step3_arg8 : X3 m c (Proc.devRef .tc main_arg8) = X2 m c (Proc.devRef .tc main_arg8) := by
  unfold X3
  after_results_simp

theorem step3_v1 : X3 m c (Proc.devRef .tc main_v1) = X2 m c (Proc.devRef .tc main_v1) := by
  unfold X3
  after_results_simp

theorem step3_v3 : X3 m c (Proc.devRef .tc main_v3) = X2 m c (Proc.devRef .tc main_v3) := by
  unfold X3
  after_results_simp

theorem step3_v29 : X3 m c (Proc.devRef .tc main_v29) = X2 m c (Proc.devRef .tc main_v29) := by
  unfold X3
  after_results_simp

theorem at3_arg0 : X3 m c (Proc.devRef .tc main_arg0) = X0 m c (Proc.devRef .tc main_arg0) :=
  (step3_arg0 m c).trans (at2_arg0 m c)

theorem at3_arg1 : X3 m c (Proc.devRef .tc main_arg1) = X0 m c (Proc.devRef .tc main_arg1) :=
  (step3_arg1 m c).trans (at2_arg1 m c)

theorem at3_arg2 : X3 m c (Proc.devRef .tc main_arg2) = X0 m c (Proc.devRef .tc main_arg2) :=
  (step3_arg2 m c).trans (at2_arg2 m c)

theorem at3_arg3 : X3 m c (Proc.devRef .tc main_arg3) = X0 m c (Proc.devRef .tc main_arg3) :=
  (step3_arg3 m c).trans (at2_arg3 m c)

theorem at3_arg4 : X3 m c (Proc.devRef .tc main_arg4) = X0 m c (Proc.devRef .tc main_arg4) :=
  (step3_arg4 m c).trans (at2_arg4 m c)

theorem at3_arg5 : X3 m c (Proc.devRef .tc main_arg5) = X0 m c (Proc.devRef .tc main_arg5) :=
  (step3_arg5 m c).trans (at2_arg5 m c)

theorem at3_arg6 : X3 m c (Proc.devRef .tc main_arg6) = X0 m c (Proc.devRef .tc main_arg6) :=
  (step3_arg6 m c).trans (at2_arg6 m c)

theorem at3_arg7 : X3 m c (Proc.devRef .tc main_arg7) = X0 m c (Proc.devRef .tc main_arg7) :=
  (step3_arg7 m c).trans (at2_arg7 m c)

theorem at3_arg8 : X3 m c (Proc.devRef .tc main_arg8) = X0 m c (Proc.devRef .tc main_arg8) :=
  (step3_arg8 m c).trans (at2_arg8 m c)

theorem at3_v1 : X3 m c (Proc.devRef .tc main_v1) = val_main_v1 (F := F) (X0 m c (Proc.devRef .tc main_arg1)) :=
  (step3_v1 m c).trans (at2_v1 m c)

theorem at3_v3 : X3 m c (Proc.devRef .tc main_v3) = val_main_v3 (F := F) (X0 m c (Proc.devRef .tc main_arg1)) :=
  (step3_v3 m c).trans (at2_v3 m c)

theorem at3_v29 : X3 m c (Proc.devRef .tc main_v29) = val_main_v29 (F := F) (X0 m c (Proc.devRef .tc main_arg1)) :=
  (step3_v29 m c).trans (at2_v29 m c)

set_option maxHeartbeats 1000000 in
theorem at3_v125 : X3 m c (Proc.devRef .tc main_v125) = val_main_v125 (F := F) (X0 m c (Proc.devRef .tc main_arg0)) (X0 m c (Proc.devRef .tc main_arg1)) (X0 m c (Proc.devRef .tc main_arg3)) (X0 m c (Proc.devRef .tc main_arg4)) (X0 m c (Proc.devRef .tc main_arg5)) (X0 m c (Proc.devRef .tc main_arg6)) := by
  unfold X3
  after_results_simp
  rw [at2_v29 m c, at2_v1 m c, at2_v3 m c, at2_v77 m c, at2_arg5 m c, at2_arg6 m c]
  rfl

/-! ## The fourth stretch: the third layer -/

theorem step4_arg0 : X4 m c (Proc.devRef .tc main_arg0) = X3 m c (Proc.devRef .tc main_arg0) := by
  unfold X4
  after_results_simp

theorem step4_arg1 : X4 m c (Proc.devRef .tc main_arg1) = X3 m c (Proc.devRef .tc main_arg1) := by
  unfold X4
  after_results_simp

theorem step4_arg2 : X4 m c (Proc.devRef .tc main_arg2) = X3 m c (Proc.devRef .tc main_arg2) := by
  unfold X4
  after_results_simp

theorem step4_arg3 : X4 m c (Proc.devRef .tc main_arg3) = X3 m c (Proc.devRef .tc main_arg3) := by
  unfold X4
  after_results_simp

theorem step4_arg4 : X4 m c (Proc.devRef .tc main_arg4) = X3 m c (Proc.devRef .tc main_arg4) := by
  unfold X4
  after_results_simp

theorem step4_arg5 : X4 m c (Proc.devRef .tc main_arg5) = X3 m c (Proc.devRef .tc main_arg5) := by
  unfold X4
  after_results_simp

theorem step4_arg6 : X4 m c (Proc.devRef .tc main_arg6) = X3 m c (Proc.devRef .tc main_arg6) := by
  unfold X4
  after_results_simp

theorem step4_arg7 : X4 m c (Proc.devRef .tc main_arg7) = X3 m c (Proc.devRef .tc main_arg7) := by
  unfold X4
  after_results_simp

theorem step4_arg8 : X4 m c (Proc.devRef .tc main_arg8) = X3 m c (Proc.devRef .tc main_arg8) := by
  unfold X4
  after_results_simp

theorem at4_arg0 : X4 m c (Proc.devRef .tc main_arg0) = X0 m c (Proc.devRef .tc main_arg0) :=
  (step4_arg0 m c).trans (at3_arg0 m c)

theorem at4_arg1 : X4 m c (Proc.devRef .tc main_arg1) = X0 m c (Proc.devRef .tc main_arg1) :=
  (step4_arg1 m c).trans (at3_arg1 m c)

theorem at4_arg2 : X4 m c (Proc.devRef .tc main_arg2) = X0 m c (Proc.devRef .tc main_arg2) :=
  (step4_arg2 m c).trans (at3_arg2 m c)

theorem at4_arg3 : X4 m c (Proc.devRef .tc main_arg3) = X0 m c (Proc.devRef .tc main_arg3) :=
  (step4_arg3 m c).trans (at3_arg3 m c)

theorem at4_arg4 : X4 m c (Proc.devRef .tc main_arg4) = X0 m c (Proc.devRef .tc main_arg4) :=
  (step4_arg4 m c).trans (at3_arg4 m c)

theorem at4_arg5 : X4 m c (Proc.devRef .tc main_arg5) = X0 m c (Proc.devRef .tc main_arg5) :=
  (step4_arg5 m c).trans (at3_arg5 m c)

theorem at4_arg6 : X4 m c (Proc.devRef .tc main_arg6) = X0 m c (Proc.devRef .tc main_arg6) :=
  (step4_arg6 m c).trans (at3_arg6 m c)

theorem at4_arg7 : X4 m c (Proc.devRef .tc main_arg7) = X0 m c (Proc.devRef .tc main_arg7) :=
  (step4_arg7 m c).trans (at3_arg7 m c)

theorem at4_arg8 : X4 m c (Proc.devRef .tc main_arg8) = X0 m c (Proc.devRef .tc main_arg8) :=
  (step4_arg8 m c).trans (at3_arg8 m c)

set_option maxHeartbeats 1000000 in
theorem at4_v169 : X4 m c (Proc.devRef .tc main_v169) = val_main_v169 (F := F) (X0 m c (Proc.devRef .tc main_arg0)) (X0 m c (Proc.devRef .tc main_arg1)) (X0 m c (Proc.devRef .tc main_arg3)) (X0 m c (Proc.devRef .tc main_arg4)) (X0 m c (Proc.devRef .tc main_arg5)) (X0 m c (Proc.devRef .tc main_arg6)) (X0 m c (Proc.devRef .tc main_arg7)) (X0 m c (Proc.devRef .tc main_arg8)) := by
  unfold X4
  after_results_simp
  rw [at3_v29 m c, at3_v1 m c, at3_v3 m c, at3_v125 m c, at3_arg7 m c, at3_arg8 m c]
  rfl

/-! ## The last stretch: the pooling -/

theorem step5_arg0 : X5 m c (Proc.devRef .tc main_arg0) = X4 m c (Proc.devRef .tc main_arg0) := by
  unfold X5
  after_results_simp

theorem step5_arg1 : X5 m c (Proc.devRef .tc main_arg1) = X4 m c (Proc.devRef .tc main_arg1) := by
  unfold X5
  after_results_simp

theorem step5_arg2 : X5 m c (Proc.devRef .tc main_arg2) = X4 m c (Proc.devRef .tc main_arg2) := by
  unfold X5
  after_results_simp

theorem step5_arg3 : X5 m c (Proc.devRef .tc main_arg3) = X4 m c (Proc.devRef .tc main_arg3) := by
  unfold X5
  after_results_simp

theorem step5_arg4 : X5 m c (Proc.devRef .tc main_arg4) = X4 m c (Proc.devRef .tc main_arg4) := by
  unfold X5
  after_results_simp

theorem step5_arg5 : X5 m c (Proc.devRef .tc main_arg5) = X4 m c (Proc.devRef .tc main_arg5) := by
  unfold X5
  after_results_simp

theorem step5_arg6 : X5 m c (Proc.devRef .tc main_arg6) = X4 m c (Proc.devRef .tc main_arg6) := by
  unfold X5
  after_results_simp

theorem step5_arg7 : X5 m c (Proc.devRef .tc main_arg7) = X4 m c (Proc.devRef .tc main_arg7) := by
  unfold X5
  after_results_simp

theorem step5_arg8 : X5 m c (Proc.devRef .tc main_arg8) = X4 m c (Proc.devRef .tc main_arg8) := by
  unfold X5
  after_results_simp

theorem at5_arg0 : X5 m c (Proc.devRef .tc main_arg0) = X0 m c (Proc.devRef .tc main_arg0) :=
  (step5_arg0 m c).trans (at4_arg0 m c)

theorem at5_arg1 : X5 m c (Proc.devRef .tc main_arg1) = X0 m c (Proc.devRef .tc main_arg1) :=
  (step5_arg1 m c).trans (at4_arg1 m c)

theorem at5_arg2 : X5 m c (Proc.devRef .tc main_arg2) = X0 m c (Proc.devRef .tc main_arg2) :=
  (step5_arg2 m c).trans (at4_arg2 m c)

theorem at5_arg3 : X5 m c (Proc.devRef .tc main_arg3) = X0 m c (Proc.devRef .tc main_arg3) :=
  (step5_arg3 m c).trans (at4_arg3 m c)

theorem at5_arg4 : X5 m c (Proc.devRef .tc main_arg4) = X0 m c (Proc.devRef .tc main_arg4) :=
  (step5_arg4 m c).trans (at4_arg4 m c)

theorem at5_arg5 : X5 m c (Proc.devRef .tc main_arg5) = X0 m c (Proc.devRef .tc main_arg5) :=
  (step5_arg5 m c).trans (at4_arg5 m c)

theorem at5_arg6 : X5 m c (Proc.devRef .tc main_arg6) = X0 m c (Proc.devRef .tc main_arg6) :=
  (step5_arg6 m c).trans (at4_arg6 m c)

theorem at5_arg7 : X5 m c (Proc.devRef .tc main_arg7) = X0 m c (Proc.devRef .tc main_arg7) :=
  (step5_arg7 m c).trans (at4_arg7 m c)

theorem at5_arg8 : X5 m c (Proc.devRef .tc main_arg8) = X0 m c (Proc.devRef .tc main_arg8) :=
  (step5_arg8 m c).trans (at4_arg8 m c)

set_option maxHeartbeats 1000000 in
theorem at5_v172 : X5 m c (Proc.devRef .tc main_v172) = val_main_v172 (F := F) (X0 m c (Proc.devRef .tc main_arg0)) (X0 m c (Proc.devRef .tc main_arg1)) (X0 m c (Proc.devRef .tc main_arg2)) (X0 m c (Proc.devRef .tc main_arg3)) (X0 m c (Proc.devRef .tc main_arg4)) (X0 m c (Proc.devRef .tc main_arg5)) (X0 m c (Proc.devRef .tc main_arg6)) (X0 m c (Proc.devRef .tc main_arg7)) (X0 m c (Proc.devRef .tc main_arg8)) := by
  unfold X5
  after_results_simp
  rw [at4_v169 m c, at4_arg2 m c]
  rfl

end Stretches

/-- THE REFERENCE'S RUN: on every device, from any memory with zero counters, every weakly fair execution of @main
    terminates with the result at the last stage of the argument arrays and the arguments unchanged. -/
theorem ref_run (ρ : Dev nD → PrngReg) :
    θ_run defs (onTc (τ := τ) (main (F := F))) ⟨m, fun _ => 0, ρ⟩ fun r => ∀ c : Dev nD,
      r.2.mem ((c.tc : Thread nD τ).loc main_v172) = val_main_v172 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v172).trans ((congrFun (after_ops_eq m c) _).trans (at5_v172 m c)),
      (h c main_arg0).trans ((congrFun (after_ops_eq m c) _).trans (at5_arg0 m c)),
      (h c main_arg1).trans ((congrFun (after_ops_eq m c) _).trans (at5_arg1 m c)),
      (h c main_arg2).trans ((congrFun (after_ops_eq m c) _).trans (at5_arg2 m c)),
      (h c main_arg3).trans ((congrFun (after_ops_eq m c) _).trans (at5_arg3 m c)),
      (h c main_arg4).trans ((congrFun (after_ops_eq m c) _).trans (at5_arg4 m c)),
      (h c main_arg5).trans ((congrFun (after_ops_eq m c) _).trans (at5_arg5 m c)),
      (h c main_arg6).trans ((congrFun (after_ops_eq m c) _).trans (at5_arg6 m c)),
      (h c main_arg7).trans ((congrFun (after_ops_eq m c) _).trans (at5_arg7 m c)),
      (h c main_arg8).trans ((congrFun (after_ops_eq m c) _).trans (at5_arg8 m c))⟩)
    (run_after m ρ)

end Cert.ReferenceIdeal.RefStages
end
-- ==== Proof.lean ====
/-
  A three-layer Chebyshev graph convolution with a global add-pool: the Pallas program against its jnp reference.

  Both programs compute, on the host and with the same operations of the same arguments, the symmetric degree
  normalisation of the edge list, the edge weights, and for each layer the two propagations (gather by source node,
  weight, scatter-add by destination node) of the layer's input.  The reference then forms, on the host,
  x·W0 + t1·W1 + t2·W2 + b with three dot_generals and applies the leaky rectifier (slope 0.2; the hyperbolic tangent in
  the last layer); the kernel program does the same inside a pallas_call, 2000 rows at a grid point, its operands passed
  through bf16 (the identity on the extended reals) and its three products added in the same order.  At the end the
  reference adds the rows of the last layer by graph number with one scatter-add onto the zero array; the kernel program
  multiplies, block after block of 2000 nodes, the transposed one-hot matrix of the graph numbers into a 256 x 64
  accumulator that starts at zero and is stored to the result at the last grid point.  On the extended reals 1·x = x and
  0·x = 0 for every x, and finite sums regroup freely, so the accumulated products are the same sum of rows: no
  finiteness of the inputs is used anywhere.

  The frames: each kernel program is ten segments (six host stretches, four regions); regions 0 to 2 store one value of
  their seven whole input blocks over their whole output block at every grid point; region 3 carries its accumulator from
  point to point in scratch memory and writes its output block at the last point only.  The reference is 210 host
  operations read in five stretches cut at the layers' outputs.
-/
import proofs.«417683_j790273983042_2_alg».proof.Defs
import proofs.«417683_j790273983042_2_alg».proof.Proof.Gen.Kernel
import proofs.«417683_j790273983042_2_alg».proof.Proof.Gen.KernelIdeal
import proofs.«417683_j790273983042_2_alg».proof.Proof.Gen.ReferenceIdeal
import proofs.«417683_j790273983042_2_alg».proof.Proof.Gen.Pre_finite_inputs
import proofs.«417683_j790273983042_2_alg».proof.Proof.Kernel.Run
import proofs.«417683_j790273983042_2_alg».proof.Proof.KernelIdeal.Run
import proofs.«417683_j790273983042_2_alg».proof.Proof.KernelIdeal.KernelValue
import proofs.«417683_j790273983042_2_alg».proof.Proof.RefStages
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel :=
  fun m ρ _ => Cert.Kernel.Hand.frame (F := Bits) m ρ

/-- So does the idealized kernel program. -/
theorem frame_ki : Cert.frame_KernelIdeal :=
  fun m ρ _ => Cert.KernelIdeal.Hand.frame (F := Ideal) m ρ

/-- And the reference: its run with the result dropped. -/
theorem frame_ri : Cert.frame_ReferenceIdeal :=
  fun m ρ _ => (θ_run Cert.ReferenceIdeal.defs _ _).mono (fun _ h c => (h c).2)
    (Cert.ReferenceIdeal.RefStages.ref_run (F := Ideal) m ρ)

/-- The ideal pass rewrote nothing. -/
theorem preserves : Cert.preserves_Kernel_KernelIdeal := trivial

/-- At the exact-real reading the kernel program's result array ends at the reference's result stage of the argument
    arrays, and so does the reference's, from arguments that agree. -/
theorem algebraic : Cert.algebraic_KernelIdeal_ReferenceIdeal := by
  intro m ρ m' ρ' _ hagree
  refine ⟨fun c => Cert.KernelIdeal.Hand.W10 m c (Proc.devRef .tc Cert.KernelIdeal.main_v142),
    Cert.KernelIdeal.Hand.run_result (F := Ideal) m ρ, ?_⟩
  refine (θ_run Cert.ReferenceIdeal.defs _ _).mono (fun _ h c => ⟨(h c).1.trans ?_, (h c).2⟩)
    (Cert.ReferenceIdeal.RefStages.ref_run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact (Cert.KernelIdeal.Hand.kernel_result m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
